-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x28x256x310 : Shape := ⟨4, ![8, 28, 256, 310]⟩
abbrev S8x256x310 : Shape := ⟨3, ![8, 256, 310]⟩
abbrev S8x256x256 : Shape := ⟨3, ![8, 256, 256]⟩
abbrev S8x28x256x256 : Shape := ⟨4, ![8, 28, 256, 256]⟩
abbrev S1 : Shape := ⟨1, ![1]⟩
abbrev S_ : Shape := ⟨0, ![]⟩

class Facts : Prop where
  bcast_S_S8x28x256x310 : S_.BroadcastsInDim S8x28x256x310 (![] : Fin 0 → Fin S8x28x256x310.rank)
  reducesTo_S8x28x256x310_S_d0_1_2_3 : S8x28x256x310.ReducesTo [0, 1, 2, 3] S_
  h_S_ : 0 < S_.numel
  bcast_S_S8x256x310 : S_.BroadcastsInDim S8x256x310 (![] : Fin 0 → Fin S8x256x310.rank)
  reducesTo_S8x256x310_S_d0_1_2 : S8x256x310.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_
  bcast_S_S8x28x256x256 : S_.BroadcastsInDim S8x28x256x256 (![] : Fin 0 → Fin S8x28x256x256.rank)
  reducesTo_S8x28x256x256_S_d0_1_2_3 : S8x28x256x256.ReducesTo [0, 1, 2, 3] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_arg8 : FVec F S1 .f32) (main_arg9 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S8x28x256x256 .f32) (main_arg5 : FVec F S8x28x256x256 .f32) (main_arg6 : FVec F S8x28x256x310 .f32) (main_arg7 : FVec F S1 .f32) (main_arg8 : FVec F S1 .f32) (main_arg9 : FVec F S1 .f32) (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  let main_v19 : FVec F S8x28x256x256 .f32 := Host.absf main_arg4
  let main_cst_6 : FVec F S_ .f32 := constant S_ .f32 0x7F800000#32
  let main_v20 : FVec F S8x28x256x256 .f32 := broadcastInDim S8x28x256x256 ![] bcast_S_S8x28x256x256 main_cst_6
  let main_v21 : IVec S8x28x256x256 1 := cmpf .olt main_v19 main_v20
  let main_c_7 : IVec S_ 1 := constantI S_ 1 1#1
  let main_v22 : IVec S_ 1 := (fun x v => Host.reduce IntOp.andi x v reducesTo_S8x28x256x256_S_d0_1_2_3 h_S_) main_v21 main_c_7
  let main_v23 : IVec S_ 1 := andi main_v18 main_v22
  let main_v24 : FVec F S8x28x256x256 .f32 := Host.absf main_arg5
  let main_cst_8 : FVec F S_ .f32 := constant S_ .f32 0x7F800000#32
  let main_v25 : FVec F S8x28x256x256 .f32 := broadcastInDim S8x28x256x256 ![] bcast_S_S8x28x256x256 main_cst_8
  let main_v26 : IVec S8x28x256x256 1 := cmpf .olt main_v24 main_v25
  let main_c_9 : IVec S_ 1 := constantI S_ 1 1#1
  let main_v27 : IVec S_ 1 := (fun x v => Host.reduce IntOp.andi x v reducesTo_S8x28x256x256_S_d0_1_2_3 h_S_) main_v26 main_c_9
  let main_v28 : IVec S_ 1 := andi main_v23 main_v27
  let main_v29 : FVec F S8x28x256x310 .f32 := Host.absf main_arg6
  let main_cst_10 : FVec F S_ .f32 := constant S_ .f32 0x7F800000#32
  let main_v30 : FVec F S8x28x256x310 .f32 := broadcastInDim S8x28x256x310 ![] bcast_S_S8x28x256x310 main_cst_10
  let main_v31 : IVec S8x28x256x310 1 := cmpf .olt main_v29 main_v30
  let main_c_11 : IVec S_ 1 := constantI S_ 1 1#1
  let main_v32 : IVec S_ 1 := (fun x v => Host.reduce IntOp.andi x v reducesTo_S8x28x256x310_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S8x28x256x310 .f32) (main_arg1 : FVec F S8x256x310 .f32) (main_arg2 : FVec F S8x28x256x310 .f32) (main_arg3 : FVec F S8x256x256 .f32) (main_arg4 : FVec F S8x28x256x256 .f32) (main_arg5 : FVec F S8x28x256x256 .f32) (main_arg6 : FVec F S8x28x256x310 .f32) (main_arg7 : FVec F S1 .f32) (main_arg8 : FVec F S1 .f32) (main_arg9 : FVec F S1 .f32) : IVec S_ 1 :=
  let main_v0 : FVec F S8x28x256x310 .f32 := Host.absf main_arg0
  let main_cst : FVec F S_ .f32 := constant S_ .f32 0x7F800000#32
  let main_v1 : FVec F S8x28x256x310 .f32 := broadcastInDim S8x28x256x310 ![] bcast_S_S8x28x256x310 main_cst
  let main_v2 : IVec S8x28x256x310 1 := cmpf .olt main_v0 main_v1
  let main_c : IVec S_ 1 := constantI S_ 1 1#1
  let main_v3 : IVec S_ 1 := (fun x v => Host.reduce IntOp.andi x v reducesTo_S8x28x256x310_S_d0_1_2_3 h_S_) main_v2 main_c
  let main_v4 : FVec F S8x256x310 .f32 := Host.absf main_arg1
  let main_cst_0 : FVec F S_ .f32 := constant S_ .f32 0x7F800000#32
  let main_v5 : FVec F S8x256x310 .f32 := broadcastInDim S8x256x310 ![] bcast_S_S8x256x310 main_cst_0
  let main_v6 : IVec S8x256x310 1 := cmpf .olt main_v4 main_v5
  let main_c_1 : IVec S_ 1 := constantI S_ 1 1#1
  let main_v7 : IVec S_ 1 := (fun x v => Host.reduce IntOp.andi x v reducesTo_S8x256x310_S_d0_1_2 h_S_) main_v6 main_c_1
  let main_v8 : IVec S_ 1 := andi main_v3 main_v7
  let main_v9 : FVec F S8x28x256x310 .f32 := Host.absf main_arg2
  let main_cst_2 : FVec F S_ .f32 := constant S_ .f32 0x7F800000#32
  let main_v10 : FVec F S8x28x256x310 .f32 := broadcastInDim S8x28x256x310 ![] bcast_S_S8x28x256x310 main_cst_2
  let main_v11 : IVec S8x28x256x310 1 := cmpf .olt main_v9 main_v10
  let main_c_3 : IVec S_ 1 := constantI S_ 1 1#1
  let main_v12 : IVec S_ 1 := (fun x v => Host.reduce IntOp.andi x v reducesTo_S8x28x256x310_S_d0_1_2_3 h_S_) main_v11 main_c_3
  let main_v13 : IVec S_ 1 := andi main_v8 main_v12
  let main_v14 : FVec F S8x256x256 .f32 := Host.absf main_arg3
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_arg4 main_arg5 main_arg6 main_arg7 main_arg8 main_arg9 main_v13 main_v16
-- ==== Kernel.lean ====
abbrev S8x28x256x310 : Shape := ⟨4, ![8, 28, 256, 310]⟩
abbrev S8x256x310 : Shape := ⟨3, ![8, 256, 310]⟩
abbrev S8x256x256 : Shape := ⟨3, ![8, 256, 256]⟩
abbrev S8x28x256x256 : Shape := ⟨4, ![8, 28, 256, 256]⟩
abbrev S1 : Shape := ⟨1, ![1]⟩
abbrev S1x28x32x310 : Shape := ⟨4, ![1, 28, 32, 310]⟩
abbrev S1x32x310 : Shape := ⟨3, ![1, 32, 310]⟩
abbrev S1x28x32x256 : Shape := ⟨4, ![1, 28, 32, 256]⟩
abbrev S1x32x256 : Shape := ⟨3, ![1, 32, 256]⟩
abbrev S28x32x310 : Shape := ⟨3, ![28, 32, 310]⟩
abbrev S32x310 : Shape := ⟨2, ![32, 310]⟩
abbrev S28x32x256 : Shape := ⟨3, ![28, 32, 256]⟩
abbrev S32x256 : Shape := ⟨2, ![32, 256]⟩
abbrev S32x308 : Shape := ⟨2, ![32, 308]⟩
abbrev S32x2 : Shape := ⟨2, ![32, 2]⟩
abbrev S32x306 : Shape := ⟨2, ![32, 306]⟩
abbrev S32x4 : Shape := ⟨2, ![32, 4]⟩
abbrev S32x304 : Shape := ⟨2, ![32, 304]⟩
abbrev S32x6 : Shape := ⟨2, ![32, 6]⟩
abbrev S32x302 : Shape := ⟨2, ![32, 302]⟩
abbrev S32x8 : Shape := ⟨2, ![32, 8]⟩
abbrev S32x300 : Shape := ⟨2, ![32, 300]⟩
abbrev S32x10 : Shape := ⟨2, ![32, 10]⟩
abbrev S32x298 : Shape := ⟨2, ![32, 298]⟩
abbrev S32x12 : Shape := ⟨2, ![32, 12]⟩
abbrev S32x296 : Shape := ⟨2, ![32, 296]⟩
abbrev S32x14 : Shape := ⟨2, ![32, 14]⟩
abbrev S32x294 : Shape := ⟨2, ![32, 294]⟩
abbrev S32x16 : Shape := ⟨2, ![32, 16]⟩
abbrev S32x292 : Shape := ⟨2, ![32, 292]⟩
abbrev S32x18 : Shape := ⟨2, ![32, 18]⟩
abbrev S32x290 : Shape := ⟨2, ![32, 290]⟩
abbrev S32x20 : Shape := ⟨2, ![32, 20]⟩
abbrev S32x288 : Shape := ⟨2, ![32, 288]⟩
abbrev S32x22 : Shape := ⟨2, ![32, 22]⟩
abbrev S32x286 : Shape := ⟨2, ![32, 286]⟩
abbrev S32x24 : Shape := ⟨2, ![32, 24]⟩
abbrev S32x284 : Shape := ⟨2, ![32, 284]⟩
abbrev S32x26 : Shape := ⟨2, ![32, 26]⟩
abbrev S32x282 : Shape := ⟨2, ![32, 282]⟩
abbrev S32x28 : Shape := ⟨2, ![32, 28]⟩
abbrev S32x280 : Shape := ⟨2, ![32, 280]⟩
abbrev S32x30 : Shape := ⟨2, ![32, 30]⟩
abbrev S32x278 : Shape := ⟨2, ![32, 278]⟩
abbrev S32x32 : Shape := ⟨2, ![32, 32]⟩
abbrev S32x276 : Shape := ⟨2, ![32, 276]⟩
abbrev S32x34 : Shape := ⟨2, ![32, 34]⟩
abbrev S32x274 : Shape := ⟨2, ![32, 274]⟩
abbrev S32x36 : Shape := ⟨2, ![32, 36]⟩
abbrev S32x272 : Shape := ⟨2, ![32, 272]⟩
abbrev S32x38 : Shape := ⟨2, ![32, 38]⟩
abbrev S32x270 : Shape := ⟨2, ![32, 270]⟩
abbrev S32x40 : Shape := ⟨2, ![32, 40]⟩
abbrev S32x268 : Shape := ⟨2, ![32, 268]⟩
abbrev S32x42 : Shape := ⟨2, ![32, 42]⟩
abbrev S32x266 : Shape := ⟨2, ![32, 266]⟩
abbrev S32x44 : Shape := ⟨2, ![32, 44]⟩
abbrev S32x264 : Shape := ⟨2, ![32, 264]⟩
abbrev S32x46 : Shape := ⟨2, ![32, 46]⟩
abbrev S32x262 : Shape := ⟨2, ![32, 262]⟩
abbrev S32x48 : Shape := ⟨2, ![32, 48]⟩
abbrev S32x260 : Shape := ⟨2, ![32, 260]⟩
abbrev S32x50 : Shape := ⟨2, ![32, 50]⟩
abbrev S32x258 : Shape := ⟨2, ![32, 258]⟩
abbrev S32x52 : Shape := ⟨2, ![32, 52]⟩
abbrev S32x54 : Shape := ⟨2, ![32, 54]⟩

abbrev nBuf : Space → Nat
  | .hbm => 12
  | .vmem => 21
  | .smem => 0
  | _ => 0

abbrev bufTy : (tb : Table) → Fin (tcTables nBuf tb) → BufTy
  | .hbm, ⟨0, _⟩ => ⟨S8x28x256x310, .f32⟩
  | .hbm, ⟨1, _⟩ => ⟨S8x256x310, .f32⟩
  | .hbm, ⟨2, _⟩ => ⟨S8x28x256x310, .f32⟩
  | .hbm, ⟨3, _⟩ => ⟨S8x256x256, .f32⟩
  | .hbm, ⟨4, _⟩ => ⟨S8x28x256x256, .f32⟩
  | .hbm, ⟨5, _⟩ => ⟨S8x28x256x256, .f32⟩
  | .hbm, ⟨6, _⟩ => ⟨S8x28x256x310, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S8x28x256x310, .f32⟩
  | .hbm, ⟨11, _⟩ => ⟨S8x28x256x256, .f32⟩
  | .local _ .vmem, ⟨0, _⟩ => ⟨S1, .f32⟩
  | .local _ .vmem, ⟨1, _⟩ => ⟨S1, .f32⟩
  | .local _ .vmem, ⟨2, _⟩ => ⟨S1, .f32⟩
  | .local _ .vmem, ⟨3, _⟩ => ⟨S1x28x32x310, .f32⟩
  | .local _ .vmem, ⟨4, _⟩ => ⟨S1x28x32x310, .f32⟩
  | .local _ .vmem, ⟨5, _⟩ => ⟨S1x28x32x310, .f32⟩
  | .local _ .vmem, ⟨6, _⟩ => ⟨S1x28x32x310, .f32⟩
  | .local _ .vmem, ⟨7, _⟩ => ⟨S1x32x310, .f32⟩
  | .local _ .vmem, ⟨8, _⟩ => ⟨S1x32x310, .f32⟩
  | .local _ .vmem, ⟨9, _⟩ => ⟨S1x28x32x310, .f32⟩
  | .local _ .vmem, ⟨10, _⟩ => ⟨S1x28x32x310, .f32⟩
  | .local _ .vmem, ⟨11, _⟩ => ⟨S1x28x32x256, .f32⟩
  | .local _ .vmem, ⟨12, _⟩ => ⟨S1x28x32x256, .f32⟩
  | .local _ .vmem, ⟨13, _⟩ => ⟨S1x32x256, .f32⟩
  | .local _ .vmem, ⟨14, _⟩ => ⟨S1x32x256, .f32⟩
  | .local _ .vmem, ⟨15, _⟩ => ⟨S1x28x32x256, .f32⟩
  | .local _ .vmem, ⟨16, _⟩ => ⟨S1x28x32x256, .f32⟩
  | .local _ .vmem, ⟨17, _⟩ => ⟨S1x28x32x310, .f32⟩
  | .local _ .vmem, ⟨18, _⟩ => ⟨S1x28x32x310, .f32⟩
  | .local _ .vmem, ⟨19, _⟩ => ⟨S1x28x32x256, .f32⟩
  | .local _ .vmem, ⟨20, _⟩ => ⟨S1x28x32x256, .f32⟩
  | _, _ => ⟨S8x28x256x310, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x28x32x310 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x28x32x310 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x310 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x28x32x310 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x28x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x28x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x28x32x310 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x28x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S1_S1_0 : ∀ a, (![0] : Fin 1 → Nat) a + S1.size a ≤ S1.size a
  h_S1 : 0 < S1.numel
  inpos_S1_p0 : ∀ a, (![0] : Fin 1 → Nat) a < S1.size a
  inb_S1x28x32x310_S1x28x32x310_0_0_0_0 : ∀ a, (![0, 0, 0, 0] : Fin 4 → Nat) a + S1x28x32x310.size a ≤ S1x28x32x310.size a
  h_S1x28x32x310 : 0 < S1x28x32x310.numel
  shapeCasts_S1x28x32x310_S28x32x310 : S1x28x32x310.ShapeCasts S28x32x310
  inb_S1x32x310_S1x32x310_0_0_0 : ∀ a, (![0, 0, 0] : Fin 3 → Nat) a + S1x32x310.size a ≤ S1x32x310.size a
  h_S1x32x310 : 0 < S1x32x310.numel
  shapeCasts_S1x32x310_S32x310 : S1x32x310.ShapeCasts S32x310
  reduces_S28x32x310_S32x310 : S28x32x310.Reduces [0] S32x310
  shapeCasts_S32x310_S1x32x310 : S32x310.ShapeCasts S1x32x310
  broadcasts_S1x32x310_S28x32x310 : S1x32x310.Broadcasts S28x32x310
  shapeCasts_S28x32x310_S1x28x32x310 : S28x32x310.ShapeCasts S1x28x32x310
  inb_S1x28x32x256_S1x28x32x256_0_0_0_0 : ∀ a, (![0, 0, 0, 0] : Fin 4 → Nat) a + S1x28x32x256.size a ≤ S1x28x32x256.size a
  h_S1x28x32x256 : 0 < S1x28x32x256.numel
  shapeCasts_S1x28x32x256_S28x32x256 : S1x28x32x256.ShapeCasts S28x32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  slices_S28x32x310_o0_0_0_S1x32x310 : S28x32x310.Slices ![0, 0, 0] S1x32x310
  slices_S32x310_o0_0_S32x256 : S32x310.Slices ![0, 0] S32x256
  slices_S28x32x310_o1_0_0_S1x32x310 : S28x32x310.Slices ![1, 0, 0] S1x32x310
  slices_S32x310_o0_2_S32x308 : S32x310.Slices ![0, 2] S32x308
  slices_S32x310_o0_0_S32x2 : S32x310.Slices ![0, 0] S32x2
  concatenates_S32x308_S32x2_S32x310_d1 : Shape.Concatenates [S32x308, S32x2] S32x310 1
  slices_S28x32x310_o2_0_0_S1x32x310 : S28x32x310.Slices ![2, 0, 0] S1x32x310
  slices_S32x310_o0_4_S32x306 : S32x310.Slices ![0, 4] S32x306
  slices_S32x310_o0_0_S32x4 : S32x310.Slices ![0, 0] S32x4
  concatenates_S32x306_S32x4_S32x310_d1 : Shape.Concatenates [S32x306, S32x4] S32x310 1
  slices_S28x32x310_o3_0_0_S1x32x310 : S28x32x310.Slices ![3, 0, 0] S1x32x310
  slices_S32x310_o0_6_S32x304 : S32x310.Slices ![0, 6] S32x304
  slices_S32x310_o0_0_S32x6 : S32x310.Slices ![0, 0] S32x6
  concatenates_S32x304_S32x6_S32x310_d1 : Shape.Concatenates [S32x304, S32x6] S32x310 1
  slices_S28x32x310_o4_0_0_S1x32x310 : S28x32x310.Slices ![4, 0, 0] S1x32x310
  slices_S32x310_o0_8_S32x302 : S32x310.Slices ![0, 8] S32x302
  slices_S32x310_o0_0_S32x8 : S32x310.Slices ![0, 0] S32x8
  concatenates_S32x302_S32x8_S32x310_d1 : Shape.Concatenates [S32x302, S32x8] S32x310 1
  slices_S28x32x310_o5_0_0_S1x32x310 : S28x32x310.Slices ![5, 0, 0] S1x32x310
  slices_S32x310_o0_10_S32x300 : S32x310.Slices ![0, 10] S32x300
  slices_S32x310_o0_0_S32x10 : S32x310.Slices ![0, 0] S32x10
  concatenates_S32x300_S32x10_S32x310_d1 : Shape.Concatenates [S32x300, S32x10] S32x310 1
  slices_S28x32x310_o6_0_0_S1x32x310 : S28x32x310.Slices ![6, 0, 0] S1x32x310
  slices_S32x310_o0_12_S32x298 : S32x310.Slices ![0, 12] S32x298
  slices_S32x310_o0_0_S32x12 : S32x310.Slices ![0, 0] S32x12
  concatenates_S32x298_S32x12_S32x310_d1 : Shape.Concatenates [S32x298, S32x12] S32x310 1
  slices_S28x32x310_o7_0_0_S1x32x310 : S28x32x310.Slices ![7, 0, 0] S1x32x310
  slices_S32x310_o0_14_S32x296 : S32x310.Slices ![0, 14] S32x296
  slices_S32x310_o0_0_S32x14 : S32x310.Slices ![0, 0] S32x14
  concatenates_S32x296_S32x14_S32x310_d1 : Shape.Concatenates [S32x296, S32x14] S32x310 1
  slices_S28x32x310_o8_0_0_S1x32x310 : S28x32x310.Slices ![8, 0, 0] S1x32x310
  slices_S32x310_o0_16_S32x294 : S32x310.Slices ![0, 16] S32x294
  slices_S32x310_o0_0_S32x16 : S32x310.Slices ![0, 0] S32x16
  concatenates_S32x294_S32x16_S32x310_d1 : Shape.Concatenates [S32x294, S32x16] S32x310 1
  slices_S28x32x310_o9_0_0_S1x32x310 : S28x32x310.Slices ![9, 0, 0] S1x32x310
  slices_S32x310_o0_18_S32x292 : S32x310.Slices ![0, 18] S32x292
  slices_S32x310_o0_0_S32x18 : S32x310.Slices ![0, 0] S32x18
  concatenates_S32x292_S32x18_S32x310_d1 : Shape.Concatenates [S32x292, S32x18] S32x310 1
  slices_S28x32x310_o10_0_0_S1x32x310 : S28x32x310.Slices ![10, 0, 0] S1x32x310
  slices_S32x310_o0_20_S32x290 : S32x310.Slices ![0, 20] S32x290
  slices_S32x310_o0_0_S32x20 : S32x310.Slices ![0, 0] S32x20
  concatenates_S32x290_S32x20_S32x310_d1 : Shape.Concatenates [S32x290, S32x20] S32x310 1
  slices_S28x32x310_o11_0_0_S1x32x310 : S28x32x310.Slices ![11, 0, 0] S1x32x310
  slices_S32x310_o0_22_S32x288 : S32x310.Slices ![0, 22] S32x288
  slices_S32x310_o0_0_S32x22 : S32x310.Slices ![0, 0] S32x22
  concatenates_S32x288_S32x22_S32x310_d1 : Shape.Concatenates [S32x288, S32x22] S32x310 1
  slices_S28x32x310_o12_0_0_S1x32x310 : S28x32x310.Slices ![12, 0, 0] S1x32x310
  slices_S32x310_o0_24_S32x286 : S32x310.Slices ![0, 24] S32x286
  slices_S32x310_o0_0_S32x24 : S32x310.Slices ![0, 0] S32x24
  concatenates_S32x286_S32x24_S32x310_d1 : Shape.Concatenates [S32x286, S32x24] S32x310 1
  slices_S28x32x310_o13_0_0_S1x32x310 : S28x32x310.Slices ![13, 0, 0] S1x32x310
  slices_S32x310_o0_26_S32x284 : S32x310.Slices ![0, 26] S32x284
  slices_S32x310_o0_0_S32x26 : S32x310.Slices ![0, 0] S32x26
  concatenates_S32x284_S32x26_S32x310_d1 : Shape.Concatenates [S32x284, S32x26] S32x310 1
  slices_S28x32x310_o14_0_0_S1x32x310 : S28x32x310.Slices ![14, 0, 0] S1x32x310
  slices_S32x310_o0_28_S32x282 : S32x310.Slices ![0, 28] S32x282
  slices_S32x310_o0_0_S32x28 : S32x310.Slices ![0, 0] S32x28
  concatenates_S32x282_S32x28_S32x310_d1 : Shape.Concatenates [S32x282, S32x28] S32x310 1
  slices_S28x32x310_o15_0_0_S1x32x310 : S28x32x310.Slices ![15, 0, 0] S1x32x310
  slices_S32x310_o0_30_S32x280 : S32x310.Slices ![0, 30] S32x280
  slices_S32x310_o0_0_S32x30 : S32x310.Slices ![0, 0] S32x30
  concatenates_S32x280_S32x30_S32x310_d1 : Shape.Concatenates [S32x280, S32x30] S32x310 1
  slices_S28x32x310_o16_0_0_S1x32x310 : S28x32x310.Slices ![16, 0, 0] S1x32x310
  slices_S32x310_o0_32_S32x278 : S32x310.Slices ![0, 32] S32x278
  slices_S32x310_o0_0_S32x32 : S32x310.Slices ![0, 0] S32x32
  concatenates_S32x278_S32x32_S32x310_d1 : Shape.Concatenates [S32x278, S32x32] S32x310 1
  slices_S28x32x310_o17_0_0_S1x32x310 : S28x32x310.Slices ![17, 0, 0] S1x32x310
  slices_S32x310_o0_34_S32x276 : S32x310.Slices ![0, 34] S32x276
  slices_S32x310_o0_0_S32x34 : S32x310.Slices ![0, 0] S32x34
  concatenates_S32x276_S32x34_S32x310_d1 : Shape.Concatenates [S32x276, S32x34] S32x310 1
  slices_S28x32x310_o18_0_0_S1x32x310 : S28x32x310.Slices ![18, 0, 0] S1x32x310
  slices_S32x310_o0_36_S32x274 : S32x310.Slices ![0, 36] S32x274
  slices_S32x310_o0_0_S32x36 : S32x310.Slices ![0, 0] S32x36
  concatenates_S32x274_S32x36_S32x310_d1 : Shape.Concatenates [S32x274, S32x36] S32x310 1
  slices_S28x32x310_o19_0_0_S1x32x310 : S28x32x310.Slices ![19, 0, 0] S1x32x310
  slices_S32x310_o0_38_S32x272 : S32x310.Slices ![0, 38] S32x272
  slices_S32x310_o0_0_S32x38 : S32x310.Slices ![0, 0] S32x38
  concatenates_S32x272_S32x38_S32x310_d1 : Shape.Concatenates [S32x272, S32x38] S32x310 1
  slices_S28x32x310_o20_0_0_S1x32x310 : S28x32x310.Slices ![20, 0, 0] S1x32x310
  slices_S32x310_o0_40_S32x270 : S32x310.Slices ![0, 40] S32x270
  slices_S32x310_o0_0_S32x40 : S32x310.Slices ![0, 0] S32x40
  concatenates_S32x270_S32x40_S32x310_d1 : Shape.Concatenates [S32x270, S32x40] S32x310 1
  slices_S28x32x310_o21_0_0_S1x32x310 : S28x32x310.Slices ![21, 0, 0] S1x32x310
  slices_S32x310_o0_42_S32x268 : S32x310.Slices ![0, 42] S32x268
  slices_S32x310_o0_0_S32x42 : S32x310.Slices ![0, 0] S32x42
  concatenates_S32x268_S32x42_S32x310_d1 : Shape.Concatenates [S32x268, S32x42] S32x310 1
  slices_S28x32x310_o22_0_0_S1x32x310 : S28x32x310.Slices ![22, 0, 0] S1x32x310
  slices_S32x310_o0_44_S32x266 : S32x310.Slices ![0, 44] S32x266
  slices_S32x310_o0_0_S32x44 : S32x310.Slices ![0, 0] S32x44
  concatenates_S32x266_S32x44_S32x310_d1 : Shape.Concatenates [S32x266, S32x44] S32x310 1
  slices_S28x32x310_o23_0_0_S1x32x310 : S28x32x310.Slices ![23, 0, 0] S1x32x310
  slices_S32x310_o0_46_S32x264 : S32x310.Slices ![0, 46] S32x264
  slices_S32x310_o0_0_S32x46 : S32x310.Slices ![0, 0] S32x46
  concatenates_S32x264_S32x46_S32x310_d1 : Shape.Concatenates [S32x264, S32x46] S32x310 1
  slices_S28x32x310_o24_0_0_S1x32x310 : S28x32x310.Slices ![24, 0, 0] S1x32x310
  slices_S32x310_o0_48_S32x262 : S32x310.Slices ![0, 48] S32x262
  slices_S32x310_o0_0_S32x48 : S32x310.Slices ![0, 0] S32x48
  concatenates_S32x262_S32x48_S32x310_d1 : Shape.Concatenates [S32x262, S32x48] S32x310 1
  slices_S28x32x310_o25_0_0_S1x32x310 : S28x32x310.Slices ![25, 0, 0] S1x32x310
  slices_S32x310_o0_50_S32x260 : S32x310.Slices ![0, 50] S32x260
  slices_S32x310_o0_0_S32x50 : S32x310.Slices ![0, 0] S32x50
  concatenates_S32x260_S32x50_S32x310_d1 : Shape.Concatenates [S32x260, S32x50] S32x310 1
  slices_S28x32x310_o26_0_0_S1x32x310 : S28x32x310.Slices ![26, 0, 0] S1x32x310
  slices_S32x310_o0_52_S32x258 : S32x310.Slices ![0, 52] S32x258
  slices_S32x310_o0_0_S32x52 : S32x310.Slices ![0, 0] S32x52
  concatenates_S32x258_S32x52_S32x310_d1 : Shape.Concatenates [S32x258, S32x52] S32x310 1
  slices_S28x32x310_o27_0_0_S1x32x310 : S28x32x310.Slices ![27, 0, 0] S1x32x310
  slices_S32x310_o0_54_S32x256 : S32x310.Slices ![0, 54] S32x256
  slices_S32x310_o0_0_S32x54 : S32x310.Slices ![0, 0] S32x54
  concatenates_S32x256_S32x54_S32x310_d1 : Shape.Concatenates [S32x256, S32x54] S32x310 1
  shapeCasts_S32x256_S1x32x256 : S32x256.ShapeCasts S1x32x256
  concatenates_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S1x32x256_S28x32x256_d0 : Shape.Concatenates [S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256, S1x32x256] S28x32x256 0
  reduces_S28x32x256_S32x256 : S28x32x256.Reduces [0] S32x256
  broadcasts_S1x32x256_S28x32x256 : S1x32x256.Broadcasts S28x32x256
  shapeCasts_S28x32x256_S1x28x32x256 : S28x32x256.ShapeCasts S1x28x32x256
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x28x32x310.size a ≤ S8x28x256x310.size a
  hwx0_3 : ∀ i : grid0.Coords, EltTy.bits .f32 = 32 ∨ (Rect.block (s := S8x28x256x310) S1x28x32x310.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x28x32x310.size a ≤ S8x28x256x310.size a
  hwx0_4 : ∀ i : grid0.Coords, EltTy.bits .f32 = 32 ∨ (Rect.block (s := S8x28x256x310) S1x28x32x310.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x310.size a ≤ S8x256x310.size a
  hwx0_5 : ∀ i : grid0.Coords, EltTy.bits .f32 = 32 ∨ (Rect.block (s := S8x256x310) S1x32x310.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x28x32x310.size a ≤ S8x28x256x310.size a
  hwx0_6 : ∀ i : grid0.Coords, EltTy.bits .f32 = 32 ∨ (Rect.block (s := S8x28x256x310) S1x28x32x310.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x28x32x256.size a ≤ S8x28x256x256.size a
  hwx0_7 : ∀ i : grid0.Coords, EltTy.bits .f32 = 32 ∨ (Rect.block (s := S8x28x256x256) S1x28x32x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x256.size a ≤ S8x256x256.size a
  hwx0_8 : ∀ i : grid0.Coords, EltTy.bits .f32 = 32 ∨ (Rect.block (s := S8x256x256) S1x32x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x28x32x256.size a ≤ S8x28x256x256.size a
  hwx0_9 : ∀ i : grid0.Coords, EltTy.bits .f32 = 32 ∨ (Rect.block (s := S8x28x256x256) S1x28x32x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x28x32x310.size a ≤ S8x28x256x310.size a
  hwx0_10 : ∀ i : grid0.Coords, EltTy.bits .f32 = 32 ∨ (Rect.block (s := S8x28x256x310) S1x28x32x310.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x28x32x256.size a ≤ S8x28x256x256.size a
  hwx0_11 : ∀ i : grid0.Coords, EltTy.bits .f32 = 32 ∨ (Rect.block (s := S8x28x256x256) S1x28x32x256.size (cc0_transform_11 i) (hinb0_11 i)).WholeWords (EltTy.packing .f32)

variable [Facts₀]

abbrev win0_0 : Pipeline.Window sig grid0 :=
  Pipeline.Window.ofSpec (Memref.whole main_arg7) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x28x32x310.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x28x32x310.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x32x310.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x28x32x310.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S1x28x32x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S1x32x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S1x28x32x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1x28x32x310.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1x28x32x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x28x256x310 : Shape := ⟨4, ![8, 28, 256, 310]⟩
abbrev S8x256x310 : Shape := ⟨3, ![8, 256, 310]⟩
abbrev S8x256x256 : Shape := ⟨3, ![8, 256, 256]⟩
abbrev S8x28x256x256 : Shape := ⟨4, ![8, 28, 256, 256]⟩
abbrev S1 : Shape := ⟨1, ![1]⟩
abbrev S_ : Shape := ⟨0, ![]⟩
abbrev S8x1x256x310 : Shape := ⟨4, ![8, 1, 256, 310]⟩
abbrev S310 : Shape := ⟨1, ![310]⟩
abbrev S1x310 : Shape := ⟨2, ![1, 310]⟩
abbrev S28 : Shape := ⟨1, ![28]⟩
abbrev S28x1 : Shape := ⟨2, ![28, 1]⟩
abbrev S28x310 : Shape := ⟨2, ![28, 310]⟩
abbrev S1x28x1x310 : Shape := ⟨4, ![1, 28, 1, 310]⟩
abbrev S28x310x1 : Shape := ⟨3, ![28, 310, 1]⟩
abbrev S1x1x1 : Shape := ⟨3, ![1, 1, 1]⟩
abbrev S8x1x256x256 : Shape := ⟨4, ![8, 1, 256, 256]⟩

abbrev nBuf : Space → Nat
  | .hbm => 150
  | .vmem => 0
  | .smem => 0
  | _ => 0

abbrev hbmTy0_0 (i : Nat) : BufTy := match i % 128 with
  | 0 => ⟨S8x28x256x310, .f32⟩
  | 1 => ⟨S8x256x310, .f32⟩
  | 2 => ⟨S8x28x256x310, .f32⟩
  | 3 => ⟨S8x256x256, .f32⟩
  | 4 => ⟨S8x28x256x256, .f32⟩
  | 5 => ⟨S8x28x256x256, .f32⟩
  | 6 => ⟨S8x28x256x310, .f32⟩
  | 7 => ⟨S1, .f32⟩
  | 8 => ⟨S1, .f32⟩
  | 9 => ⟨S1, .f32⟩
  | 10 => ⟨S_, .f32⟩
  | 11 => ⟨S_, .f32⟩
  | 12 => ⟨S_, .f32⟩
  | 13 => ⟨S8x28x256x310, .f32⟩
  | 14 => ⟨S_, .f32⟩
  | 15 => ⟨S8x256x310, .f32⟩
  | 16 => ⟨S_, .f32⟩
  | 17 => ⟨S8x256x310, .f32⟩
  | 18 => ⟨S8x256x310, .i1⟩
  | 19 => ⟨S_, .f32⟩
  | 20 => ⟨S_, .f32⟩
  | 21 => ⟨S8x256x310, .f32⟩
  | 22 => ⟨S8x256x310, .f32⟩
  | 23 => ⟨S_, .f32⟩
  | 24 => ⟨S8x256x310, .f32⟩
  | 25 => ⟨S8x256x310, .f32⟩
  | 26 => ⟨S8x28x256x310, .f32⟩
  | 27 => ⟨S_, .f32⟩
  | 28 => ⟨S8x256x310, .f32⟩
  | 29 => ⟨S8x28x256x310, .f32⟩
  | 30 => ⟨S_, .f32⟩
  | 31 => ⟨S8x256x310, .f32⟩
  | 32 => ⟨S_, .f32⟩
  | 33 => ⟨S_, .f32⟩
  | 34 => ⟨S_, .f32⟩
  | 35 => ⟨S_, .f32⟩
  | 36 => ⟨S8x256x310, .f32⟩
  | 37 => ⟨S8x256x310, .f32⟩
  | 38 => ⟨S8x1x256x310, .f32⟩
  | 39 => ⟨S8x28x256x310, .f32⟩
  | 40 => ⟨S8x28x256x310, .f32⟩
  | 41 => ⟨S8x28x256x310, .f32⟩
  | 42 => ⟨S8x28x256x310, .f32⟩
  | 43 => ⟨S8x28x256x310, .f32⟩
  | 44 => ⟨S8x256x310, .f32⟩
  | 45 => ⟨S8x256x310, .f32⟩
  | 46 => ⟨S8x1x256x310, .f32⟩
  | 47 => ⟨S8x28x256x310, .f32⟩
  | 48 => ⟨S8x28x256x310, .f32⟩
  | 49 => ⟨S8x28x256x310, .f32⟩
  | 50 => ⟨S8x28x256x310, .f32⟩
  | 51 => ⟨S8x28x256x310, .f32⟩
  | 52 => ⟨S8x28x256x310, .f32⟩
  | 53 => ⟨S8x28x256x256, .f32⟩
  | 54 => ⟨S_, .f32⟩
  | 55 => ⟨S8x256x256, .f32⟩
  | 56 => ⟨S_, .f32⟩
  | 57 => ⟨S8x256x256, .f32⟩
  | 58 => ⟨S8x256x256, .i1⟩
  | 59 => ⟨S_, .f32⟩
  | 60 => ⟨S_, .f32⟩
  | 61 => ⟨S8x256x256, .f32⟩
  | 62 => ⟨S8x256x256, .f32⟩
  | 63 => ⟨S_, .f32⟩
  | 64 => ⟨S8x256x256, .f32⟩
  | 65 => ⟨S8x256x256, .f32⟩
  | 66 => ⟨S310, .i32⟩
  | 67 => ⟨S1x310, .i32⟩
  | 68 => ⟨S28, .i32⟩
  | 69 => ⟨S28x1, .i32⟩
  | 70 => ⟨S_, .i32⟩
  | 71 => ⟨S28x1, .i32⟩
  | 72 => ⟨S28x1, .i32⟩
  | 73 => ⟨S28x310, .i32⟩
  | 74 => ⟨S28x310, .i32⟩
  | 75 => ⟨S28x310, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S28x310, .i32⟩
  | 83 => ⟨S28x310, .i32⟩
  | 84 => ⟨S_, .i32⟩
  | 85 => ⟨S28x310, .i32⟩
  | 86 => ⟨S28x310, .i1⟩
  | 87 => ⟨S_, .i32⟩
  | 88 => ⟨S28x310, .i32⟩
  | 89 => ⟨S28x310, .i1⟩
  | 90 => ⟨S_, .i32⟩
  | 91 => ⟨S_, .i1⟩
  | 92 => ⟨S28x310, .i1⟩
  | 93 => ⟨S28x310, .i1⟩
  | 94 => ⟨S28x310, .i1⟩
  | 95 => ⟨S28x310, .i32⟩
  | 96 => ⟨S28x310, .i32⟩
  | 97 => ⟨S28x310, .i32⟩
  | 98 => ⟨S1x28x1x310, .i32⟩
  | 99 => ⟨S_, .i32⟩
  | 100 => ⟨S1x28x1x310, .i32⟩
  | 101 => ⟨S1x28x1x310, .i1⟩
  | 102 => ⟨S_, .i32⟩
  | 103 => ⟨S1x28x1x310, .i32⟩
  | 104 => ⟨S1x28x1x310, .i32⟩
  | 105 => ⟨S1x28x1x310, .i32⟩
  | 106 => ⟨S28x310x1, .i32⟩
  | 107 => ⟨S1, .i32⟩
  | 108 => ⟨S_, .i32⟩
  | 109 => ⟨S28x310x1, .i32⟩
  | 110 => ⟨S28x310x1, .i1⟩
  | 111 => ⟨S1x1x1, .i32⟩
  | 112 => ⟨S28x310x1, .i32⟩
  | 113 => ⟨S28x310x1, .i1⟩
  | 114 => ⟨S28x310x1, .i1⟩
  | 115 => ⟨S_, .i1⟩
  | 116 => ⟨S28x310, .i1⟩
  | 117 => ⟨S8x28x256x310, .f32⟩
  | 118 => ⟨S8x28x256x310, .i1⟩
  | 119 => ⟨S_, .f32⟩
  | 120 => ⟨S8x28x256x310, .f32⟩
  | 121 => ⟨S8x28x256x310, .f32⟩
  | 122 => ⟨S8x28x256x256, .f32⟩
  | 123 => ⟨S8x28x256x256, .f32⟩
  | 124 => ⟨S_, .f32⟩
  | 125 => ⟨S8x256x256, .f32⟩
  | 126 => ⟨S8x28x256x256, .f32⟩
  | 127 => ⟨S_, .f32⟩
  | _ => ⟨S8x28x256x310, .f32⟩

abbrev hbmTy0_1 (i : Nat) : BufTy := match i % 128 with
  | 0 => ⟨S8x256x256, .f32⟩
  | 1 => ⟨S_, .f32⟩
  | 2 => ⟨S_, .f32⟩
  | 3 => ⟨S_, .f32⟩
  | 4 => ⟨S_, .f32⟩
  | 5 => ⟨S8x256x256, .f32⟩
  | 6 => ⟨S8x256x256, .f32⟩
  | 7 => ⟨S8x1x256x256, .f32⟩
  | 8 => ⟨S8x28x256x256, .f32⟩
  | 9 => ⟨S8x28x256x256, .f32⟩
  | 10 => ⟨S8x28x256x256, .f32⟩
  | 11 => ⟨S8x28x256x256, .f32⟩
  | 12 => ⟨S8x28x256x256, .f32⟩
  | 13 => ⟨S8x256x256, .f32⟩
  | 14 => ⟨S8x256x256, .f32⟩
  | 15 => ⟨S8x1x256x256, .f32⟩
  | 16 => ⟨S8x28x256x256, .f32⟩
  | 17 => ⟨S8x28x256x256, .f32⟩
  | 18 => ⟨S8x28x256x256, .f32⟩
  | 19 => ⟨S8x28x256x256, .f32⟩
  | 20 => ⟨S8x28x256x256, .f32⟩
  | 21 => ⟨S8x28x256x256, .f32⟩
  | _ => ⟨S8x28x256x310, .f32⟩

abbrev hbmTy (i : Nat) : BufTy := match i / 128 with
  | 0 => hbmTy0_0 i
  | 1 => hbmTy0_1 i
  | _ => ⟨S8x28x256x310, .f32⟩

abbrev bufTy : (tb : Table) → Fin (tcTables nBuf tb) → BufTy
  | .hbm, ⟨i, _⟩ => hbmTy i
  | _, _ => ⟨S8x28x256x310, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_1 : Ref sig .tc := ⟨.hbm, 84, rfl⟩
abbrev main_call2_v5 : Ref sig .tc := ⟨.hbm, 85, rfl⟩
abbrev main_call2_v6 : Ref sig .tc := ⟨.hbm, 86, rfl⟩
abbrev main_call2_c_2 : Ref sig .tc := ⟨.hbm, 87, rfl⟩
abbrev main_call2_v7 : Ref sig .tc := ⟨.hbm, 88, rfl⟩
abbrev main_call2_v8 : Ref sig .tc := ⟨.hbm, 89, rfl⟩
abbrev main_call2_c_3 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_v53 : Ref sig .tc := ⟨.hbm, 97, rfl⟩
abbrev main_v54 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_cst_8 : Ref sig .tc := ⟨.hbm, 124, rfl⟩
abbrev main_v58 : Ref sig .tc := ⟨.hbm, 125, rfl⟩
abbrev main_v59 : Ref sig .tc := ⟨.hbm, 126, rfl⟩
abbrev main_cst_9 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩

abbrev nD : Nat := 1
abbrev τ : Topo := Topo.v7x

variable {F : FTy → Type} [FloatOps F]

class Facts₀ : Prop where
  shapeCasts_S1_S_ : S1.ShapeCasts S_
  reducesTo_S8x28x256x310_S8x256x310_d1 : S8x28x256x310.ReducesTo [1] S8x256x310
  h_S_ : 0 < S_.numel
  bcast_S_S8x256x310 : S_.BroadcastsInDim S8x256x310 (![] : Fin 0 → Fin S8x256x310.rank)
  bcast_S8x256x310_S8x1x256x310_0_2_3 : S8x256x310.BroadcastsInDim S8x1x256x310 (![0, 2, 3] : Fin 3 → Fin S8x1x256x310.rank)
  bcast_S8x1x256x310_S8x28x256x310_0_1_2_3 : S8x1x256x310.BroadcastsInDim S8x28x256x310 (![0, 1, 2, 3] : Fin 4 → Fin S8x28x256x310.rank)
  bcast_S_S8x28x256x310 : S_.BroadcastsInDim S8x28x256x310 (![] : Fin 0 → Fin S8x28x256x310.rank)
  reducesTo_S8x28x256x256_S8x256x256_d1 : S8x28x256x256.ReducesTo [1] S8x256x256
  bcast_S_S8x256x256 : S_.BroadcastsInDim S8x256x256 (![] : Fin 0 → Fin S8x256x256.rank)
  bcast_S310_S1x310_1 : S310.BroadcastsInDim S1x310 (![1] : Fin 1 → Fin S1x310.rank)
  bcast_S28_S28x1_0 : S28.BroadcastsInDim S28x1 (![0] : Fin 1 → Fin S28x1.rank)
  bcast_S_S28x1 : S_.BroadcastsInDim S28x1 (![] : Fin 0 → Fin S28x1.rank)
  bcast_S1x310_S28x310_0_1 : S1x310.BroadcastsInDim S28x310 (![0, 1] : Fin 2 → Fin S28x310.rank)
  bcast_S28x1_S28x310_0_1 : S28x1.BroadcastsInDim S28x310 (![0, 1] : Fin 2 → Fin S28x310.rank)
  bcast_S_S28x310 : S_.BroadcastsInDim S28x310 (![] : Fin 0 → Fin S28x310.rank)
  bcast_S28x310_S1x28x1x310_1_3 : S28x310.BroadcastsInDim S1x28x1x310 (![1, 3] : Fin 2 → Fin S1x28x1x310.rank)
  bcast_S_S1x28x1x310 : S_.BroadcastsInDim S1x28x1x310 (![] : Fin 0 → Fin S1x28x1x310.rank)
  shapeCasts_S1x28x1x310_S28x310x1 : S1x28x1x310.ShapeCasts S28x310x1
  bcast_S_S28x310x1 : S_.BroadcastsInDim S28x310x1 (![] : Fin 0 → Fin S28x310x1.rank)
  bcast_S1_S1x1x1_2 : S1.BroadcastsInDim S1x1x1 (![2] : Fin 1 → Fin S1x1x1.rank)
  bcast_S1x1x1_S28x310x1_0_1_2 : S1x1x1.BroadcastsInDim S28x310x1 (![0, 1, 2] : Fin 3 → Fin S28x310x1.rank)
  reducesTo_S28x310x1_S28x310_d2 : S28x310x1.ReducesTo [2] S28x310
  bcast_S28x310_S8x28x256x310_1_3 : S28x310.BroadcastsInDim S8x28x256x310 (![1, 3] : Fin 2 → Fin S8x28x256x310.rank)
  slices_S8x28x256x310_S8x28x256x256_0_0_0_0 : S8x28x256x310.Slices ![0, 0, 0, 0] S8x28x256x256
  bcast_S8x256x256_S8x1x256x256_0_2_3 : S8x256x256.BroadcastsInDim S8x1x256x256 (![0, 2, 3] : Fin 3 → Fin S8x1x256x256.rank)
  bcast_S8x1x256x256_S8x28x256x256_0_1_2_3 : S8x1x256x256.BroadcastsInDim S8x28x256x256 (![0, 1, 2, 3] : Fin 4 → Fin S8x28x256x256.rank)
  bcast_S_S8x28x256x256 : S_.BroadcastsInDim S8x28x256x256 (![] : Fin 0 → Fin S8x28x256x256.rank)
  gather_S8x28x256x310_S28x310x1_S8x28x256x310_02_3_1_0_3_2_812561_wf : GatherDims.WF S8x28x256x310 S28x310x1 S8x28x256x310 [0, 2] [3] [1] [3] [0] 2 ![8, 1, 256, 1]

variable [Facts₀]

def gather_S8x28x256x310_S28x310x1_S8x28x256x310_02_3_1_0_3_2_812561 : GatherDims S8x28x256x310 S28x310x1 S8x28x256x310 where
  offsetDims := [0, 2]
  collapsedSliceDims := [3]
  operandBatchingDims := [1]
  startIndicesBatchingDims := [0]
  startIndexMap := [3]
  indexVectorDim := 2
  sliceSizes := ![8, 1, 256, 1]
  wf := gather_S8x28x256x310_S28x310x1_S8x28x256x310_02_3_1_0_3_2_812561_wf

class Facts : Prop extends Facts₀ where

variable [Facts]
-- ==== Proof.BlockTable.lean ====
/- SCRIPT-MADE TABLE (python3 scratch/mk_tables.py blocks > proof/Proof/BlockTable.lean; run from the unit directory; the script is filed under scratch/): the pipeline's windows,
   one by one. ONE statement and proof per kind of window (four axes, three axes, a scalar), instantiated at each window: its
   index map decided over the 64 grid points (it sits at the coded output's image b and row block q), and its block at a
   point read at a local index is its argument array at the array index (image b, the channel, row 32q + r, the column). -/
import proofs.«118367_j66468913873579_1_alg».proof.Proof.KernelIdealValue
import Idealize.ShloMosaic.Lib.ValueIdx

noncomputable section

namespace Cert.KernelIdeal.Arr

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The coded output's window sits at (b, 0, q, 0) with b < 8 and q < 8. -/
theorem facts10 : ∀ t : Fin cfg0.N, win0_10.index t (0 : Fin 4) < 8 ∧ win0_10.index t (1 : Fin 4) = 0
    ∧ win0_10.index t (2 : Fin 4) < 8 ∧ win0_10.index t (3 : Fin 4) = 0 :=
  (by decide +kernel : ∀ t : Fin grid0.N, _)
theorem facts0 : ∀ t : Fin cfg0.N, win0_0.index t (0 : Fin 1) = 0 := (by decide +kernel : ∀ t : Fin grid0.N, _)
theorem facts1 : ∀ t : Fin cfg0.N, win0_1.index t (0 : Fin 1) = 0 := (by decide +kernel : ∀ t : Fin grid0.N, _)
theorem facts2 : ∀ t : Fin cfg0.N, win0_2.index t (0 : Fin 1) = 0 := (by decide +kernel : ∀ t : Fin grid0.N, _)
theorem facts3 : ∀ t : Fin cfg0.N, win0_3.index t (0 : Fin 4) = win0_10.index t (0 : Fin 4) ∧ win0_3.index t (1 : Fin 4) = 0
    ∧ win0_3.index t (2 : Fin 4) = win0_10.index t (2 : Fin 4) ∧ win0_3.index t (3 : Fin 4) = 0 :=
  (by decide +kernel : ∀ t : Fin grid0.N, _)
theorem facts4 : ∀ t : Fin cfg0.N, win0_4.index t (0 : Fin 4) = win0_10.index t (0 : Fin 4) ∧ win0_4.index t (1 : Fin 4) = 0
    ∧ win0_4.index t (2 : Fin 4) = win0_10.index t (2 : Fin 4) ∧ win0_4.index t (3 : Fin 4) = 0 :=
  (by decide +kernel : ∀ t : Fin grid0.N, _)
theorem facts6 : ∀ t : Fin cfg0.N, win0_6.index t (0 : Fin 4) = win0_10.index t (0 : Fin 4) ∧ win0_6.index t (1 : Fin 4) = 0
    ∧ win0_6.index t (2 : Fin 4) = win0_10.index t (2 : Fin 4) ∧ win0_6.index t (3 : Fin 4) = 0 :=
  (by decide +kernel : ∀ t : Fin grid0.N, _)
theorem facts7 : ∀ t : Fin cfg0.N, win0_7.index t (0 : Fin 4) = win0_10.index t (0 : Fin 4) ∧ win0_7.index t (1 : Fin 4) = 0
    ∧ win0_7.index t (2 : Fin 4) = win0_10.index t (2 : Fin 4) ∧ win0_7.index t (3 : Fin 4) = 0 :=
  (by decide +kernel : ∀ t : Fin grid0.N, _)
theorem facts9 : ∀ t : Fin cfg0.N, win0_9.index t (0 : Fin 4) = win0_10.index t (0 : Fin 4) ∧ win0_9.index t (1 : Fin 4) = 0
    ∧ win0_9.index t (2 : Fin 4) = win0_10.index t (2 : Fin 4) ∧ win0_9.index t (3 : Fin 4) = 0 :=
  (by decide +kernel : ∀ t : Fin grid0.N, _)
theorem facts11 : ∀ t : Fin cfg0.N, win0_11.index t (0 : Fin 4) = win0_10.index t (0 : Fin 4) ∧ win0_11.index t (1 : Fin 4) = 0
    ∧ win0_11.index t (2 : Fin 4) = win0_10.index t (2 : Fin 4) ∧ win0_11.index t (3 : Fin 4) = 0 :=
  (by decide +kernel : ∀ t : Fin grid0.N, _)
theorem facts5 : ∀ t : Fin cfg0.N, win0_5.index t (0 : Fin 3) = win0_10.index t (0 : Fin 4)
    ∧ win0_5.index t (1 : Fin 3) = win0_10.index t (2 : Fin 4) ∧ win0_5.index t (2 : Fin 3) = 0 :=
  (by decide +kernel : ∀ t : Fin grid0.N, _)
theorem facts8 : ∀ t : Fin cfg0.N, win0_8.index t (0 : Fin 3) = win0_10.index t (0 : Fin 4)
    ∧ win0_8.index t (1 : Fin 3) = win0_10.index t (2 : Fin 4) ∧ win0_8.index t (2 : Fin 3) = 0 :=
  (by decide +kernel : ∀ t : Fin grid0.N, _)

/-- The image and the array row that point t's local row r is. -/
def img (t : Fin cfg0.N) : Fin 8 := ⟨win0_10.index t (0 : Fin 4), (facts10 t).1⟩
def row (t : Fin cfg0.N) (r : Fin 32) : Fin 256 :=
  ⟨win0_10.index t (2 : Fin 4) * 32 + r.val, by have h := (facts10 t).2.2.1; have := r.isLt; omega⟩

theorem iblk0 (c : Dev nD) (t : Fin cfg0.N) :
    (iblk m c 0 t : Vec Ideal S1 .f32) (ix1 (0 : Fin 1))
      = (m ((c : Thread nD τ).loc main_arg7) : S1.Idx → Elt Ideal .f32) (ix1 (0 : Fin 1)) := by
  have e0 := facts0 t
  unfold iblk
  rw [View.read_apply]
  show V m c main_arg7 _ = m (c.tc.loc main_arg7) _
  unfold V
  congr 1
  funext a
  apply Fin.ext
  match a with
  | ⟨0, _⟩ => show win0_0.index t 0 * 1 + 1 * 0 = 0; omega

theorem iblk1 (c : Dev nD) (t : Fin cfg0.N) :
    (iblk m c 1 t : Vec Ideal S1 .f32) (ix1 (0 : Fin 1))
      = (m ((c : Thread nD τ).loc main_arg8) : S1.Idx → Elt Ideal .f32) (ix1 (0 : Fin 1)) := by
  have e0 := facts1 t
  unfold iblk
  rw [View.read_apply]
  show V m c main_arg8 _ = m (c.tc.loc main_arg8) _
  unfold V
  congr 1
  funext a
  apply Fin.ext
  match a with
  | ⟨0, _⟩ => show win0_1.index t 0 * 1 + 1 * 0 = 0; omega

theorem iblk2 (c : Dev nD) (t : Fin cfg0.N) :
    (iblk m c 2 t : Vec Ideal S1 .f32) (ix1 (0 : Fin 1))
      = (m ((c : Thread nD τ).loc main_arg9) : S1.Idx → Elt Ideal .f32) (ix1 (0 : Fin 1)) := by
  have e0 := facts2 t
  unfold iblk
  rw [View.read_apply]
  show V m c main_arg9 _ = m (c.tc.loc main_arg9) _
  unfold V
  congr 1
  funext a
  apply Fin.ext
  match a with
  | ⟨0, _⟩ => show win0_2.index t 0 * 1 + 1 * 0 = 0; omega

theorem iblk3 (c : Dev nD) (t : Fin cfg0.N) (k : Fin 28) (r : Fin 32) (w : Fin 310) :
    (iblk m c 3 t : Vec Ideal S1x28x32x310 .f32) (ix4 (0 : Fin 1) k r w)
      = (m ((c : Thread nD τ).loc main_arg0) : S8x28x256x310.Idx → Elt Ideal .f32) (ix4 (img t) k (row t r) w) := by
  obtain ⟨e0, e1, e2, e3⟩ := facts3 t
  unfold iblk
  rw [View.read_apply]
  show V m c main_arg0 _ = m (c.tc.loc main_arg0) _
  unfold V
  congr 1
  funext a
  apply Fin.ext
  match a with
  | ⟨0, _⟩ => show win0_3.index t 0 * 1 + 1 * 0 = win0_10.index t 0; omega
  | ⟨1, _⟩ => show win0_3.index t 1 * 28 + 1 * k.val = k.val; omega
  | ⟨2, _⟩ => show win0_3.index t 2 * 32 + 1 * r.val = win0_10.index t 2 * 32 + r.val; omega
  | ⟨3, _⟩ => show win0_3.index t 3 * 310 + 1 * w.val = w.val; omega

theorem iblk4 (c : Dev nD) (t : Fin cfg0.N) (k : Fin 28) (r : Fin 32) (w : Fin 310) :
    (iblk m c 4 t : Vec Ideal S1x28x32x310 .f32) (ix4 (0 : Fin 1) k r w)
      = (m ((c : Thread nD τ).loc main_arg2) : S8x28x256x310.Idx → Elt Ideal .f32) (ix4 (img t) k (row t r) w) := by
  obtain ⟨e0, e1, e2, e3⟩ := facts4 t
  unfold iblk
  rw [View.read_apply]
  show V m c main_arg2 _ = m (c.tc.loc main_arg2) _
  unfold V
  congr 1
  funext a
  apply Fin.ext
  match a with
  | ⟨0, _⟩ => show win0_4.index t 0 * 1 + 1 * 0 = win0_10.index t 0; omega
  | ⟨1, _⟩ => show win0_4.index t 1 * 28 + 1 * k.val = k.val; omega
  | ⟨2, _⟩ => show win0_4.index t 2 * 32 + 1 * r.val = win0_10.index t 2 * 32 + r.val; omega
  | ⟨3, _⟩ => show win0_4.index t 3 * 310 + 1 * w.val = w.val; omega

theorem iblk5 (c : Dev nD) (t : Fin cfg0.N) (r : Fin 32) (w : Fin 310) :
    (iblk m c 5 t : Vec Ideal S1x32x310 .f32) (ix3 (0 : Fin 1) r w)
      = (m ((c : Thread nD τ).loc main_arg1) : S8x256x310.Idx → Elt Ideal .f32) (ix3 (img t) (row t r) w) := by
  obtain ⟨e0, e1, e2⟩ := facts5 t
  unfold iblk
  rw [View.read_apply]
  show V m c main_arg1 _ = m (c.tc.loc main_arg1) _
  unfold V
  congr 1
  funext a
  apply Fin.ext
  match a with
  | ⟨0, _⟩ => show win0_5.index t 0 * 1 + 1 * 0 = win0_10.index t 0; omega
  | ⟨1, _⟩ => show win0_5.index t 1 * 32 + 1 * r.val = win0_10.index t 2 * 32 + r.val; omega
  | ⟨2, _⟩ => show win0_5.index t 2 * 310 + 1 * w.val = w.val; omega

theorem iblk6 (c : Dev nD) (t : Fin cfg0.N) (k : Fin 28) (r : Fin 32) (w : Fin 310) :
    (iblk m c 6 t : Vec Ideal S1x28x32x310 .f32) (ix4 (0 : Fin 1) k r w)
      = (m ((c : Thread nD τ).loc main_arg6) : S8x28x256x310.Idx → Elt Ideal .f32) (ix4 (img t) k (row t r) w) := by
  obtain ⟨e0, e1, e2, e3⟩ := facts6 t
  unfold iblk
  rw [View.read_apply]
  show V m c main_arg6 _ = m (c.tc.loc main_arg6) _
  unfold V
  congr 1
  funext a
  apply Fin.ext
  match a with
  | ⟨0, _⟩ => show win0_6.index t 0 * 1 + 1 * 0 = win0_10.index t 0; omega
  | ⟨1, _⟩ => show win0_6.index t 1 * 28 + 1 * k.val = k.val; omega
  | ⟨2, _⟩ => show win0_6.index t 2 * 32 + 1 * r.val = win0_10.index t 2 * 32 + r.val; omega
  | ⟨3, _⟩ => show win0_6.index t 3 * 310 + 1 * w.val = w.val; omega

theorem iblk7 (c : Dev nD) (t : Fin cfg0.N) (k : Fin 28) (r : Fin 32) (w : Fin 256) :
    (iblk m c 7 t : Vec Ideal S1x28x32x256 .f32) (ix4 (0 : Fin 1) k r w)
      = (m ((c : Thread nD τ).loc main_arg4) : S8x28x256x256.Idx → Elt Ideal .f32) (ix4 (img t) k (row t r) w) := by
  obtain ⟨e0, e1, e2, e3⟩ := facts7 t
  unfold iblk
  rw [View.read_apply]
  show V m c main_arg4 _ = m (c.tc.loc main_arg4) _
  unfold V
  congr 1
  funext a
  apply Fin.ext
  match a with
  | ⟨0, _⟩ => show win0_7.index t 0 * 1 + 1 * 0 = win0_10.index t 0; omega
  | ⟨1, _⟩ => show win0_7.index t 1 * 28 + 1 * k.val = k.val; omega
  | ⟨2, _⟩ => show win0_7.index t 2 * 32 + 1 * r.val = win0_10.index t 2 * 32 + r.val; omega
  | ⟨3, _⟩ => show win0_7.index t 3 * 256 + 1 * w.val = w.val; omega

theorem iblk8 (c : Dev nD) (t : Fin cfg0.N) (r : Fin 32) (w : Fin 256) :
    (iblk m c 8 t : Vec Ideal S1x32x256 .f32) (ix3 (0 : Fin 1) r w)
      = (m ((c : Thread nD τ).loc main_arg3) : S8x256x256.Idx → Elt Ideal .f32) (ix3 (img t) (row t r) w) := by
  obtain ⟨e0, e1, e2⟩ := facts8 t
  unfold iblk
  rw [View.read_apply]
  show V m c main_arg3 _ = m (c.tc.loc main_arg3) _
  unfold V
  congr 1
  funext a
  apply Fin.ext
  match a with
  | ⟨0, _⟩ => show win0_8.index t 0 * 1 + 1 * 0 = win0_10.index t 0; omega
  | ⟨1, _⟩ => show win0_8.index t 1 * 32 + 1 * r.val = win0_10.index t 2 * 32 + r.val; omega
  | ⟨2, _⟩ => show win0_8.index t 2 * 256 + 1 * w.val = w.val; omega

theorem iblk9 (c : Dev nD) (t : Fin cfg0.N) (k : Fin 28) (r : Fin 32) (w : Fin 256) :
    (iblk m c 9 t : Vec Ideal S1x28x32x256 .f32) (ix4 (0 : Fin 1) k r w)
      = (m ((c : Thread nD τ).loc main_arg5) : S8x28x256x256.Idx → Elt Ideal .f32) (ix4 (img t) k (row t r) w) := by
  obtain ⟨e0, e1, e2, e3⟩ := facts9 t
  unfold iblk
  rw [View.read_apply]
  show V m c main_arg5 _ = m (c.tc.loc main_arg5) _
  unfold V
  congr 1
  funext a
  apply Fin.ext
  match a with
  | ⟨0, _⟩ => show win0_9.index t 0 * 1 + 1 * 0 = win0_10.index t 0; omega
  | ⟨1, _⟩ => show win0_9.index t 1 * 28 + 1 * k.val = k.val; omega
  | ⟨2, _⟩ => show win0_9.index t 2 * 32 + 1 * r.val = win0_10.index t 2 * 32 + r.val; omega
  | ⟨3, _⟩ => show win0_9.index t 3 * 256 + 1 * w.val = w.val; omega

theorem emb10 (t : Fin cfg0.N) (k : Fin 28) (r : Fin 32) (w : Fin 310) :
    ((cfg0.win 10).blk t).view.emb (ix4 (0 : Fin 1) k r w) = ix4 (img t) k (row t r) w := by
  obtain ⟨e0, e1, e2, e3⟩ := facts10 t
  funext a
  apply Fin.ext
  match a with
  | ⟨0, _⟩ => show win0_10.index t 0 * 1 + 1 * 0 = win0_10.index t 0; omega
  | ⟨1, _⟩ => show win0_10.index t 1 * 28 + 1 * k.val = k.val; omega
  | ⟨2, _⟩ => show win0_10.index t 2 * 32 + 1 * r.val = win0_10.index t 2 * 32 + r.val; omega
  | ⟨3, _⟩ => show win0_10.index t 3 * 310 + 1 * w.val = w.val; omega

theorem emb11 (t : Fin cfg0.N) (k : Fin 28) (r : Fin 32) (w : Fin 256) :
    ((cfg0.win 11).blk t).view.emb (ix4 (0 : Fin 1) k r w) = ix4 (img t) k (row t r) w := by
  obtain ⟨e0, e1, e2, e3⟩ := facts11 t
  funext a
  apply Fin.ext
  match a with
  | ⟨0, _⟩ => show win0_11.index t 0 * 1 + 1 * 0 = win0_10.index t 0; omega
  | ⟨1, _⟩ => show win0_11.index t 1 * 28 + 1 * k.val = k.val; omega
  | ⟨2, _⟩ => show win0_11.index t 2 * 32 + 1 * r.val = win0_10.index t 2 * 32 + r.val; omega
  | ⟨3, _⟩ => show win0_11.index t 3 * 256 + 1 * w.val = w.val; omega

end Cert.KernelIdeal.Arr

end
-- ==== Proof.Spec.lean ====
/-
  THE UPDATE AT ONE PIXEL. Both results of the step — the coded-domain iterate and the unshifted one — are the same
  scalar expression, evaluated on different columns. At a pixel, let μ be the shared step size and ν the branch's own,
  y the measurement there, and let three columns over the 28 channels be given: a (the current estimate), p (the sensing
  mask) and x (the other branch's previous iterate). Write D = (μ + ν) + g(Σₖ pₖ²), where g replaces a vanishing squared
  norm by one. Channel c of the result is

      ν/(μ+ν) · (a_c + ((y − Σₖ aₖ pₖ) / D) · p_c)   +   μ/(μ+ν) · (x_c + ((y − Σₖ xₖ pₖ) / D) · p_c).

  For the coded-domain result the three columns are read straight down the channel axis at the pixel. For the unshifted
  result the estimate's column is read along the dispersion: channel k at column w + 2k of the coded image — always one
  of its 310 columns, since k ≤ 27 and w ≤ 255 give w + 2k ≤ 309, which is why no wrap-around ever happens.
  Everything is stated on the extended reals, where the quotient is the ideal instance's division.
-/
import Idealize.ShloMosaic.PureOps.Ideal
import Idealize.ShloMosaic.Lib.ValueIdx

noncomputable section

open scoped BigOperators

namespace Cert.Spec

open Idealize.ShloMosaic

/-- A squared norm with a vanishing one replaced by one (both constants as the words the programs carry). -/
def guard (s : EReal) : EReal :=
  Scalar.select (Ideal.cmp .oeq s (Ideal.ofBits .f32 0x00000000#32)) (Ideal.ofBits .f32 0x3F800000#32) s

/-- The common denominator at a pixel: the two step sizes plus the guarded squared norm of the mask's column. -/
def denom (μ ν : EReal) (p : Fin 28 → EReal) : EReal := (μ + ν) + guard (∑ k, p k * p k)

/-- The residual of the measurement against a column seen through the mask, over the common denominator. -/
def corr (μ ν y : EReal) (a p : Fin 28 → EReal) : EReal := Ideal.div (y - ∑ k, a k * p k) (denom μ ν p)

/-- Channel c of the updated pixel. -/
def upd (μ ν y : EReal) (a p x : Fin 28 → EReal) (c : Fin 28) : EReal :=
  Ideal.div ν (μ + ν) * (a c + corr μ ν y a p * p c) + Ideal.div μ (μ + ν) * (x c + corr μ ν y x p * p c)

/-- The coded image's column that column w of the unshifted image reads in channel k. -/
def shiftCol (k : Fin 28) (w : Fin 256) : Fin 310 := ⟨w.val + 2 * k.val, by omega⟩

@[simp] theorem shiftCol_val (k : Fin 28) (w : Fin 256) : (shiftCol k w).val = w.val + 2 * k.val := rfl

end Cert.Spec

end
-- ==== Proof.BodyMath.lean ====
/-
  THE BODY'S ARITHMETIC AT ONE PIXEL, for a block of 28 channels, 32 rows and W columns (W is 310 for the coded branch
  and 256 for the unshifted one). The body computes with whole blocks: three channel sums (the mask's squared norm and the
  two residual projections), a guarded denominator on the [32, W] plane, two quotient planes laid back over the 28
  channels, and a weighted sum of two corrected blocks. Read at channel c, row r, column w, each of those operations reads
  its operands at the same pixel (the channel sums at every channel of the pixel's column), so the whole expression is the
  one-pixel update of the specification, on the pixel's three columns.
-/
import proofs.«118367_j66468913873579_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BodyMath

open Idealize.ShloMosaic Idealize.ShloMosaic.ValueIdx Cert.Spec

variable {W : Nat}

/-- The block shape [28, 32, W] and its pixel plane [32, W]. -/
abbrev Blk (W : Nat) : Shape := ⟨3, ![28, 32, W]⟩
abbrev Pln (W : Nat) : Shape := ⟨2, ![32, W]⟩
abbrev Pln1 (W : Nat) : Shape := ⟨3, ![1, 32, W]⟩

/-- A sum over the channel axis, read at a pixel, is the sum down the pixel's column. -/
theorem chanSum_apply (v : FVec Ideal (Blk W) .f32) (h : (Blk W).Reduces [0] (Pln W)) (hφ : FKind.Formats .f32)
    (hacc : (0x00000000#32 : BitVec 32) = FKind.add.neutral .f32 hφ) (r : Fin 32) (w : Fin W) :
    multiReduction .add [0] (Pln W) v 0x00000000#32 h hφ hacc (ix2 r w) = ∑ k : Fin 28, v (ix3 k r w) := by
  rw [Ideal.multiReduction_add_single]
  show ∑ k : Fin 28, v (h.lift (ix2 r w) k) = _
  refine Finset.sum_congr rfl fun k _ => congrArg v (funext fun a => Fin.ext ?_)
  match a with
  | ⟨0, _⟩ => rfl
  | ⟨1, _⟩ => rfl
  | ⟨2, _⟩ => rfl

/-- A plane laid over the 28 channels reads, at any channel, the plane at the pixel. -/
theorem plane_apply (v : FVec Ideal (Pln W) .f32) (h1 : (Pln W).ShapeCasts (Pln1 W)) (h2 : (Pln1 W).Broadcasts (Blk W))
    (c : Fin 28) (r : Fin 32) (w : Fin W) :
    broadcastTo (Blk W) (shapeCast (Pln1 W) v h1) h2 (ix3 c r w) = v (ix2 r w) := by
  refine (broadcastTo_apply _ h2 (ix3 c r w) (ix3 (0 : Fin 1) r w) fun a => ?_).trans (shapeCast_ab_1ab_apply v h1 0 r w)
  match a with
  | ⟨0, _⟩ => rfl
  | ⟨1, _⟩ => rfl
  | ⟨2, _⟩ =>
    show w.val = if W = 1 then 0 else w.val
    split
    · have := w.isLt; omega
    · rfl

/-- The guarded denominator plane at a pixel. -/
theorem den_apply (μ ν : EReal) (P : FVec Ideal (Blk W) .f32) (h : (Blk W).Reduces [0] (Pln W)) (hφ : FKind.Formats .f32)
    (hacc : (0x00000000#32 : BitVec 32) = FKind.add.neutral .f32 hφ) (r : Fin 32) (w : Fin W) :
    addf (broadcast (Pln W) (Scalar.addf μ ν))
      (select (cmpf .oeq (multiReduction .add [0] (Pln W) (mulf P P) 0x00000000#32 h hφ hacc)
          (broadcast (Pln W) (Scalar.ofBits (F := Ideal) .f32 0x00000000#32)))
        (broadcast (Pln W) (Scalar.ofBits (F := Ideal) .f32 0x3F800000#32))
        (multiReduction .add [0] (Pln W) (mulf P P) 0x00000000#32 h hφ hacc)) (ix2 r w)
      = denom μ ν (fun k => P (ix3 k r w)) := by
  show (μ + ν) + Scalar.select (Ideal.cmp .oeq (multiReduction .add [0] (Pln W) (mulf P P) 0x00000000#32 h hφ hacc (ix2 r w))
      (Ideal.ofBits .f32 0x00000000#32)) (Ideal.ofBits .f32 0x3F800000#32)
      (multiReduction .add [0] (Pln W) (mulf P P) 0x00000000#32 h hφ hacc (ix2 r w)) = _
  rw [chanSum_apply]
  rfl

/-- A quotient plane at a pixel: the residual against a block's column over the denominator there. -/
theorem corr_apply (μ ν : EReal) (Y : FVec Ideal (Pln W) .f32) (A P : FVec Ideal (Blk W) .f32) (D : FVec Ideal (Pln W) .f32)
    (h : (Blk W).Reduces [0] (Pln W)) (hφ : FKind.Formats .f32) (hacc : (0x00000000#32 : BitVec 32) = FKind.add.neutral .f32 hφ)
    (r : Fin 32) (w : Fin W) (hD : D (ix2 r w) = denom μ ν (fun k => P (ix3 k r w))) :
    divf (subf Y (multiReduction .add [0] (Pln W) (mulf A P) 0x00000000#32 h hφ hacc)) D (ix2 r w)
      = corr μ ν (Y (ix2 r w)) (fun k => A (ix3 k r w)) (fun k => P (ix3 k r w)) := by
  show Ideal.div (Y (ix2 r w) - multiReduction .add [0] (Pln W) (mulf A P) 0x00000000#32 h hφ hacc (ix2 r w)) (D (ix2 r w)) = _
  rw [chanSum_apply, hD]
  rfl

/-- THE WEIGHTED SUM of the two corrected blocks, at a pixel, given the two quotient planes there. -/
theorem combine_apply (μ ν : EReal) (A P X : FVec Ideal (Blk W) .f32) (T1 T2 : FVec Ideal (Pln W) .f32)
    (h1 : (Pln W).ShapeCasts (Pln1 W)) (h2 : (Pln1 W).Broadcasts (Blk W)) (y : EReal) (c : Fin 28) (r : Fin 32) (w : Fin W)
    (hT1 : T1 (ix2 r w) = corr μ ν y (fun k => A (ix3 k r w)) (fun k => P (ix3 k r w)))
    (hT2 : T2 (ix2 r w) = corr μ ν y (fun k => X (ix3 k r w)) (fun k => P (ix3 k r w))) :
    addf (mulf (broadcast (Blk W) (Scalar.divf ν (Scalar.addf μ ν)))
            (addf A (mulf (broadcastTo (Blk W) (shapeCast (Pln1 W) T1 h1) h2) P)))
         (mulf (broadcast (Blk W) (Scalar.divf μ (Scalar.addf μ ν)))
            (addf X (mulf (broadcastTo (Blk W) (shapeCast (Pln1 W) T2 h1) h2) P))) (ix3 c r w)
      = upd μ ν y (fun k => A (ix3 k r w)) (fun k => P (ix3 k r w)) (fun k => X (ix3 k r w)) c := by
  show Ideal.div ν (μ + ν) * (A (ix3 c r w) + broadcastTo (Blk W) (shapeCast (Pln1 W) T1 h1) h2 (ix3 c r w) * P (ix3 c r w))
      + Ideal.div μ (μ + ν) * (X (ix3 c r w) + broadcastTo (Blk W) (shapeCast (Pln1 W) T2 h1) h2 (ix3 c r w) * P (ix3 c r w)) = _
  rw [plane_apply, plane_apply, hT1, hT2]
  rfl

end Cert.BodyMath

end
-- ==== Proof.ShiftMath.lean ====
/-
  THE STATIC CHANNEL SHIFT. The body rebuilds the unshifted image one channel at a time: it cuts channel k's plane out of
  the coded block, rolls it left by s = 2k columns (the columns from s on, followed by the first s columns), and keeps
  the first 256 columns. Because 256 + s ≤ 310 for every channel (s ≤ 54), the kept columns all come from the first part
  of the roll: column w of the result is column w + s of the plane, and the wrapped-around tail is never read.
-/
import Idealize.ShloMosaic.Lib.ValueIdx
import Idealize.ShloMosaic.Lib.ValueLayout
import Idealize.ShloMosaic.Lib.Pipeline.Value

noncomputable section

namespace Cert.ShiftMath

open Idealize.ShloMosaic Idealize.ShloMosaic.ValueIdx

variable {α : Type}

/-- Channel k's plane of a [28, 32, 310] block: the slice at channel k with its unit axis dropped reads, at (r, w), the
    block at (k, r, w). -/
theorem chan_plane (k : Nat) (hk : k < 28) (v : (⟨3, ![28, 32, 310]⟩ : Shape).Idx → α)
    (hs : (⟨3, ![28, 32, 310]⟩ : Shape).Slices ![k, 0, 0] ⟨3, ![1, 32, 310]⟩)
    (hc : (⟨3, ![1, 32, 310]⟩ : Shape).ShapeCasts ⟨2, ![32, 310]⟩) (r : Fin 32) (w : Fin 310) :
    shapeCast ⟨2, ![32, 310]⟩ (extractStridedSlice ⟨3, ![1, 32, 310]⟩ ![k, 0, 0] v hs) hc (ix2 r w) = v (ix3 ⟨k, hk⟩ r w) := by
  rw [shapeCast_1ab_ab_apply]
  refine extractStridedSlice_apply _ _ _ _ _ fun ax => ?_
  match ax with
  | ⟨0, _⟩ => exact (Nat.add_zero _).symm
  | ⟨1, _⟩ => exact (Nat.zero_add _).symm
  | ⟨2, _⟩ => exact (Nat.zero_add _).symm

/-- The rolled plane cut back to 256 columns: with n = 310 − s columns in the first part of the roll and 256 ≤ n, column w
    of the cut reads column w + s of the plane. -/
theorem roll_cut (s n : Nat) (hn : 256 ≤ n) (hsum : n + s = 310) (y : (⟨2, ![32, 310]⟩ : Shape).Idx → α)
    (h1 : (⟨2, ![32, 310]⟩ : Shape).Slices ![0, s] ⟨2, ![32, n]⟩) (h2 : (⟨2, ![32, 310]⟩ : Shape).Slices ![0, 0] ⟨2, ![32, s]⟩)
    (hc : Shape.Concatenates [(⟨2, ![32, n]⟩ : Shape), ⟨2, ![32, s]⟩] ⟨2, ![32, 310]⟩ 1)
    (h3 : (⟨2, ![32, 310]⟩ : Shape).Slices ![0, 0] ⟨2, ![32, 256]⟩) (r : Fin 32) (w : Fin 256) :
    extractStridedSlice ⟨2, ![32, 256]⟩ ![0, 0]
        (concatenate ⟨2, ![32, 310]⟩ 1 [⟨⟨2, ![32, n]⟩, extractStridedSlice ⟨2, ![32, n]⟩ ![0, s] y h1⟩,
          ⟨⟨2, ![32, s]⟩, extractStridedSlice ⟨2, ![32, s]⟩ ![0, 0] y h2⟩] hc) h3 (ix2 r w)
      = y (ix2 r ⟨w.val + s, by omega⟩) := by
  have hw310 : w.val < 310 := by omega
  have hwn : w.val < n := by omega
  rw [slice2_axis1_apply 0 _ h3 r w (⟨w.val, hw310⟩ : Fin 310) (Nat.zero_add _).symm]
  rw [concatenate_pair_apply_left (t := ⟨2, ![32, 310]⟩) (s₁ := ⟨2, ![32, n]⟩) (s₂ := ⟨2, ![32, s]⟩) (1 : Fin 2) _ _ hc
    (ix2 r (⟨w.val, hw310⟩ : Fin 310)) rfl (ix2 r (⟨w.val, hwn⟩ : Fin n))
    (fun b => by match b with | ⟨0, _⟩ => rfl | ⟨1, _⟩ => rfl)]
  exact slice2_axis1_apply s y h1 r (⟨w.val, hwn⟩ : Fin n) (⟨w.val + s, by omega⟩ : Fin 310) (Nat.add_comm _ _)

/-- The unrolled channel (no shift) cut to 256 columns. -/
theorem plain_cut (y : (⟨2, ![32, 310]⟩ : Shape).Idx → α) (h3 : (⟨2, ![32, 310]⟩ : Shape).Slices ![0, 0] ⟨2, ![32, 256]⟩)
    (r : Fin 32) (w : Fin 256) :
    extractStridedSlice ⟨2, ![32, 256]⟩ ![0, 0] y h3 (ix2 r w) = y (ix2 r ⟨w.val + 0, by omega⟩) :=
  slice2_axis1_apply 0 y h3 r w ⟨w.val + 0, by omega⟩ (by show w.val + 0 = 0 + w.val; omega)

end Cert.ShiftMath

end
-- ==== Proof.KPay.lean ====
/-
  THE KERNEL BODY'S TWO STORED VALUES AT ONE PIXEL. The body stores two blocks. The coded-domain block is the weighted sum
  of the two corrected blocks of 310 columns; the unshifted block is the same expression over 256 columns, with the
  estimate replaced by its 28 channel planes each rolled left by twice the channel number and cut to 256 columns. Read
  at channel c, row r, column w, each is the one-pixel update of the specification: on the pixel's columns of the input
  blocks for the coded block, and for the unshifted block with the estimate's column read along the dispersion (channel k at
  column w + 2k).
-/
import proofs.«118367_j66468913873579_1_alg».proof.Proof.Gen.KernelIdeal.Skeleton
import proofs.«118367_j66468913873579_1_alg».proof.Proof.BodyMath
import proofs.«118367_j66468913873579_1_alg».proof.Proof.ShiftMath
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Spec Cert.BodyMath

/-- The one element of a one-element block. -/
theorem one_apply (x : Vec Ideal S1 .f32) (h : ∀ a, (![0] : Fin 1 → Nat) a < S1.size a) : extractAt ![0] x h = x (ix1 (0 : Fin 1)) :=
  congrArg x (funext fun a => Fin.ext (by match a with | ⟨0, _⟩ => rfl))

/-- A [1, 28, 32, W] block viewed [28, 32, W]. -/
theorem blk310_apply (x : Vec Ideal S1x28x32x310 .f32) (k : Fin 28) (r : Fin 32) (w : Fin 310) :
    shapeCast S28x32x310 x shapeCasts_S1x28x32x310_S28x32x310 (ix3 k r w) = x (ix4 (0 : Fin 1) k r w) :=
  shapeCast_1abc_abc_apply x _ k r w
theorem blk256_apply (x : Vec Ideal S1x28x32x256 .f32) (k : Fin 28) (r : Fin 32) (w : Fin 256) :
    shapeCast S28x32x256 x shapeCasts_S1x28x32x256_S28x32x256 (ix3 k r w) = x (ix4 (0 : Fin 1) k r w) :=
  shapeCast_1abc_abc_apply x _ k r w

/-- THE CODED-DOMAIN BLOCK at a pixel. -/
theorem xc_apply (x0 x1 : Vec Ideal S1 .f32) (x3 x4 x6 : Vec Ideal S1x28x32x310 .f32) (x5 : Vec Ideal S1x32x310 .f32)
    (c : Fin 28) (r : Fin 32) (w : Fin 310) :
    k0_pay14 (k0_pay5 x3) (k0_pay6 x4) (k0_pay7 x6) (k0_pay10 x0 x1) (k0_pay11 x0 x1) (k0_pay12 x0 x1 x3 x4 x5)
        (k0_pay13 x0 x1 x4 x6 x5) (ix4 (0 : Fin 1) c r w)
      = upd (x0 (ix1 (0 : Fin 1))) (x1 (ix1 (0 : Fin 1))) (x5 (ix3 (0 : Fin 1) r w)) (fun k => x3 (ix4 (0 : Fin 1) k r w))
          (fun k => x4 (ix4 (0 : Fin 1) k r w)) (fun k => x6 (ix4 (0 : Fin 1) k r w)) c := by
  have hμ : k0_pay2 x0 = x0 (ix1 (0 : Fin 1)) := one_apply x0 _
  have hν : k0_pay3 x1 = x1 (ix1 (0 : Fin 1)) := one_apply x1 _
  have hy : k0_pay8 x5 (ix2 r w) = x5 (ix3 (0 : Fin 1) r w) := shapeCast_1ab_ab_apply x5 _ r w
  have hA : (fun k : Fin 28 => k0_pay5 x3 (ix3 k r w)) = fun k => x3 (ix4 (0 : Fin 1) k r w) := funext fun k => blk310_apply x3 k r w
  have hP : (fun k : Fin 28 => k0_pay6 x4 (ix3 k r w)) = fun k => x4 (ix4 (0 : Fin 1) k r w) := funext fun k => blk310_apply x4 k r w
  have hX : (fun k : Fin 28 => k0_pay7 x6 (ix3 k r w)) = fun k => x6 (ix4 (0 : Fin 1) k r w) := funext fun k => blk310_apply x6 k r w
  have hD : k0_pay9 x0 x1 x4 (ix2 r w) = denom (k0_pay2 x0) (k0_pay3 x1) (fun k => k0_pay6 x4 (ix3 k r w)) :=
    den_apply (W := 310) (k0_pay2 x0) (k0_pay3 x1) (k0_pay6 x4) reduces_S28x32x310_S32x310 (.inl rfl) rfl r w
  have hT1 : k0_pay12 x0 x1 x3 x4 x5 (ix2 r w)
      = corr (k0_pay2 x0) (k0_pay3 x1) (k0_pay8 x5 (ix2 r w)) (fun k => k0_pay5 x3 (ix3 k r w)) (fun k => k0_pay6 x4 (ix3 k r w)) :=
    corr_apply (W := 310) (k0_pay2 x0) (k0_pay3 x1) (k0_pay8 x5) (k0_pay5 x3) (k0_pay6 x4) (k0_pay9 x0 x1 x4)
      reduces_S28x32x310_S32x310 (.inl rfl) rfl r w hD
  have hT2 : k0_pay13 x0 x1 x4 x6 x5 (ix2 r w)
      = corr (k0_pay2 x0) (k0_pay3 x1) (k0_pay8 x5 (ix2 r w)) (fun k => k0_pay7 x6 (ix3 k r w)) (fun k => k0_pay6 x4 (ix3 k r w)) :=
    corr_apply (W := 310) (k0_pay2 x0) (k0_pay3 x1) (k0_pay8 x5) (k0_pay7 x6) (k0_pay6 x4) (k0_pay9 x0 x1 x4)
      reduces_S28x32x310_S32x310 (.inl rfl) rfl r w hD
  unfold k0_pay14
  rw [shapeCast_abc_1abc_apply]
  refine (combine_apply (W := 310) (k0_pay2 x0) (k0_pay3 x1) (k0_pay5 x3) (k0_pay6 x4) (k0_pay7 x6) (k0_pay12 x0 x1 x3 x4 x5)
    (k0_pay13 x0 x1 x4 x6 x5) shapeCasts_S32x310_S1x32x310 broadcasts_S1x32x310_S28x32x310 (k0_pay8 x5 (ix2 r w)) c r w hT1 hT2).trans ?_
  rw [hμ, hν, hy, hA, hP, hX]

/-! ## The unshifted image of the estimate's block -/

set_option maxRecDepth 8192 in
set_option maxHeartbeats 4000000 in
/-- A STACK of 28 planes, each given a unit channel axis and laid along the channel axis, read at channel c: plane c (the
    stack is a concatenation of pieces of one shape whose extent along the axis is one). -/
theorem stack_apply (p0 p1 p2 p3 p4 p5 p6 p7 p8 p9 p10 p11 p12 p13 p14 p15 p16 p17 p18 p19 p20 p21 p22 p23 p24 p25 p26 p27 : FVec Ideal S32x256 .f32)
    (h : Shape.Concatenates (([⟨S1x32x256, shapeCast S1x32x256 p0 shapeCasts_S32x256_S1x32x256⟩, ⟨S1x32x256, shapeCast S1x32x256 p1 shapeCasts_S32x256_S1x32x256⟩, ⟨S1x32x256, shapeCast S1x32x256 p2 shapeCasts_S32x256_S1x32x256⟩, ⟨S1x32x256, shapeCast S1x32x256 p3 shapeCasts_S32x256_S1x32x256⟩, ⟨S1x32x256, shapeCast S1x32x256 p4 shapeCasts_S32x256_S1x32x256⟩, ⟨S1x32x256, shapeCast S1x32x256 p5 shapeCasts_S32x256_S1x32x256⟩, ⟨S1x32x256, shapeCast S1x32x256 p6 shapeCasts_S32x256_S1x32x256⟩, ⟨S1x32x256, shapeCast S1x32x256 p7 shapeCasts_S32x256_S1x32x256⟩, ⟨S1x32x256, shapeCast S1x32x256 p8 shapeCasts_S32x256_S1x32x256⟩, ⟨S1x32x256, shapeCast S1x32x256 p9 shapeCasts_S32x256_S1x32x256⟩, ⟨S1x32x256, shapeCast S1x32x256 p10 shapeCasts_S32x256_S1x32x256⟩, ⟨S1x32x256, shapeCast S1x32x256 p11 shapeCasts_S32x256_S1x32x256⟩, ⟨S1x32x256, shapeCast S1x32x256 p12 shapeCasts_S32x256_S1x32x256⟩, ⟨S1x32x256, shapeCast S1x32x256 p13 shapeCasts_S32x256_S1x32x256⟩, ⟨S1x32x256, shapeCast S1x32x256 p14 shapeCasts_S32x256_S1x32x256⟩, ⟨S1x32x256, shapeCast S1x32x256 p15 shapeCasts_S32x256_S1x32x256⟩, ⟨S1x32x256, shapeCast S1x32x256 p16 shapeCasts_S32x256_S1x32x256⟩, ⟨S1x32x256, shapeCast S1x32x256 p17 shapeCasts_S32x256_S1x32x256⟩, ⟨S1x32x256, shapeCast S1x32x256 p18 shapeCasts_S32x256_S1x32x256⟩, ⟨S1x32x256, shapeCast S1x32x256 p19 shapeCasts_S32x256_S1x32x256⟩, ⟨S1x32x256, shapeCast S1x32x256 p20 shapeCasts_S32x256_S1x32x256⟩, ⟨S1x32x256, shapeCast S1x32x256 p21 shapeCasts_S32x256_S1x32x256⟩, ⟨S1x32x256, shapeCast S1x32x256 p22 shapeCasts_S32x256_S1x32x256⟩, ⟨S1x32x256, shapeCast S1x32x256 p23 shapeCasts_S32x256_S1x32x256⟩, ⟨S1x32x256, shapeCast S1x32x256 p24 shapeCasts_S32x256_S1x32x256⟩, ⟨S1x32x256, shapeCast S1x32x256 p25 shapeCasts_S32x256_S1x32x256⟩, ⟨S1x32x256, shapeCast S1x32x256 p26 shapeCasts_S32x256_S1x32x256⟩, ⟨S1x32x256, shapeCast S1x32x256 p27 shapeCasts_S32x256_S1x32x256⟩] : List ((s : Shape) × (s.Idx → EReal))).map (·.1)) S28x32x256 0)
    (c : Fin 28) (r : Fin 32) (w : Fin 256) :
    concatenate S28x32x256 0 [⟨S1x32x256, shapeCast S1x32x256 p0 shapeCasts_S32x256_S1x32x256⟩, ⟨S1x32x256, shapeCast S1x32x256 p1 shapeCasts_S32x256_S1x32x256⟩, ⟨S1x32x256, shapeCast S1x32x256 p2 shapeCasts_S32x256_S1x32x256⟩, ⟨S1x32x256, shapeCast S1x32x256 p3 shapeCasts_S32x256_S1x32x256⟩, ⟨S1x32x256, shapeCast S1x32x256 p4 shapeCasts_S32x256_S1x32x256⟩, ⟨S1x32x256, shapeCast S1x32x256 p5 shapeCasts_S32x256_S1x32x256⟩, ⟨S1x32x256, shapeCast S1x32x256 p6 shapeCasts_S32x256_S1x32x256⟩, ⟨S1x32x256, shapeCast S1x32x256 p7 shapeCasts_S32x256_S1x32x256⟩, ⟨S1x32x256, shapeCast S1x32x256 p8 shapeCasts_S32x256_S1x32x256⟩, ⟨S1x32x256, shapeCast S1x32x256 p9 shapeCasts_S32x256_S1x32x256⟩, ⟨S1x32x256, shapeCast S1x32x256 p10 shapeCasts_S32x256_S1x32x256⟩, ⟨S1x32x256, shapeCast S1x32x256 p11 shapeCasts_S32x256_S1x32x256⟩, ⟨S1x32x256, shapeCast S1x32x256 p12 shapeCasts_S32x256_S1x32x256⟩, ⟨S1x32x256, shapeCast S1x32x256 p13 shapeCasts_S32x256_S1x32x256⟩, ⟨S1x32x256, shapeCast S1x32x256 p14 shapeCasts_S32x256_S1x32x256⟩, ⟨S1x32x256, shapeCast S1x32x256 p15 shapeCasts_S32x256_S1x32x256⟩, ⟨S1x32x256, shapeCast S1x32x256 p16 shapeCasts_S32x256_S1x32x256⟩, ⟨S1x32x256, shapeCast S1x32x256 p17 shapeCasts_S32x256_S1x32x256⟩, ⟨S1x32x256, shapeCast S1x32x256 p18 shapeCasts_S32x256_S1x32x256⟩, ⟨S1x32x256, shapeCast S1x32x256 p19 shapeCasts_S32x256_S1x32x256⟩, ⟨S1x32x256, shapeCast S1x32x256 p20 shapeCasts_S32x256_S1x32x256⟩, ⟨S1x32x256, shapeCast S1x32x256 p21 shapeCasts_S32x256_S1x32x256⟩, ⟨S1x32x256, shapeCast S1x32x256 p22 shapeCasts_S32x256_S1x32x256⟩, ⟨S1x32x256, shapeCast S1x32x256 p23 shapeCasts_S32x256_S1x32x256⟩, ⟨S1x32x256, shapeCast S1x32x256 p24 shapeCasts_S32x256_S1x32x256⟩, ⟨S1x32x256, shapeCast S1x32x256 p25 shapeCasts_S32x256_S1x32x256⟩, ⟨S1x32x256, shapeCast S1x32x256 p26 shapeCasts_S32x256_S1x32x256⟩, ⟨S1x32x256, shapeCast S1x32x256 p27 shapeCasts_S32x256_S1x32x256⟩] h (ix3 c r w)
      = (![p0, p1, p2, p3, p4, p5, p6, p7, p8, p9, p10, p11, p12, p13, p14, p15, p16, p17, p18, p19, p20, p21, p22, p23, p24, p25, p26, p27] : Fin 28 → FVec Ideal S32x256 .f32) c (ix2 r w) := by
  have key := concatenate_ofFn_unit_apply (t := S28x32x256) (s₁ := S1x32x256) (0 : Fin 3)
    (fun n : Fin 28 => shapeCast S1x32x256 ((![p0, p1, p2, p3, p4, p5, p6, p7, p8, p9, p10, p11, p12, p13, p14, p15, p16, p17, p18, p19, p20, p21, p22, p23, p24, p25, p26, p27] : Fin 28 → FVec Ideal S32x256 .f32) n) shapeCasts_S32x256_S1x32x256)
    h rfl rfl (ix3 c r w) c rfl (ix3 (0 : Fin 1) r w) (fun b hb => by
      match b with
      | ⟨0, _⟩ => exact absurd rfl hb
      | ⟨1, _⟩ => rfl
      | ⟨2, _⟩ => rfl)
  exact key.trans (shapeCast_ab_1ab_apply _ _ 0 r w)

/-- THE UNSHIFTED BLOCK at a pixel, from any unshifted image Z of the estimate's block. -/
theorem xp_apply_of (x0 x2 : Vec Ideal S1 .f32) (Z : FVec Ideal S28x32x256 .f32) (x7 x9 : Vec Ideal S1x28x32x256 .f32)
    (x8 : Vec Ideal S1x32x256 .f32) (c : Fin 28) (r : Fin 32) (w : Fin 256) :
    k0_pay1 (k0_pay2 x0) (k0_pay4 x2) (k0_pay15 x7) (k0_pay16 x9) (k0_pay17 x8) Z (k0_pay46 (k0_pay15 x7)) (k0_pay47 (k0_pay15 x7))
        (k0_pay48 (F := Ideal)) (ix4 (0 : Fin 1) c r w)
      = upd (x0 (ix1 (0 : Fin 1))) (x2 (ix1 (0 : Fin 1))) (x8 (ix3 (0 : Fin 1) r w)) (fun k => Z (ix3 k r w))
          (fun k => x7 (ix4 (0 : Fin 1) k r w)) (fun k => x9 (ix4 (0 : Fin 1) k r w)) c := by
  have hμ : k0_pay2 x0 = x0 (ix1 (0 : Fin 1)) := one_apply x0 _
  have hν : k0_pay4 x2 = x2 (ix1 (0 : Fin 1)) := one_apply x2 _
  have hy : k0_pay17 x8 (ix2 r w) = x8 (ix3 (0 : Fin 1) r w) := shapeCast_1ab_ab_apply x8 _ r w
  have hP : (fun k : Fin 28 => k0_pay15 x7 (ix3 k r w)) = fun k => x7 (ix4 (0 : Fin 1) k r w) := funext fun k => blk256_apply x7 k r w
  have hX : (fun k : Fin 28 => k0_pay16 x9 (ix3 k r w)) = fun k => x9 (ix4 (0 : Fin 1) k r w) := funext fun k => blk256_apply x9 k r w
  have hD : addf (broadcast S32x256 (Scalar.addf (k0_pay2 x0) (k0_pay4 x2)))
        (select (k0_pay47 (k0_pay15 x7)) (k0_pay48 (F := Ideal)) (k0_pay46 (k0_pay15 x7))) (ix2 r w)
      = denom (k0_pay2 x0) (k0_pay4 x2) (fun k => k0_pay15 x7 (ix3 k r w)) :=
    den_apply (W := 256) (k0_pay2 x0) (k0_pay4 x2) (k0_pay15 x7) reduces_S28x32x256_S32x256 (.inl rfl) rfl r w
  have hT1 := corr_apply (W := 256) (k0_pay2 x0) (k0_pay4 x2) (k0_pay17 x8) Z (k0_pay15 x7) _ reduces_S28x32x256_S32x256 (.inl rfl) rfl r w hD
  have hT2 := corr_apply (W := 256) (k0_pay2 x0) (k0_pay4 x2) (k0_pay17 x8) (k0_pay16 x9) (k0_pay15 x7) _ reduces_S28x32x256_S32x256 (.inl rfl) rfl
    r w hD
  unfold k0_pay1
  rw [shapeCast_abc_1abc_apply]
  refine (combine_apply (W := 256) (k0_pay2 x0) (k0_pay4 x2) Z (k0_pay15 x7) (k0_pay16 x9) _ _ shapeCasts_S32x256_S1x32x256
    broadcasts_S1x32x256_S28x32x256 (k0_pay17 x8 (ix2 r w)) c r w hT1 hT2).trans ?_
  rw [hμ, hν, hy, hP, hX]

end Cert.KernelIdeal.Pay

end
-- ==== Proof.PieceTable.lean ====
/- SCRIPT-MADE TABLE (python3 scratch/mk_tables.py pieces > proof/Proof/PieceTable.lean; run from the unit directory; the script is filed under scratch/): the kernel body's
   unshifted image of the estimate, channel by channel. ONE statement and proof, instantiated at each channel K: plane K of
   the body (named k0_payN in the generated skeleton for K < 24, written inside the stacking payload for K ≥ 24) is channel
   K's plane rolled left by 2K columns and cut to 256 (Proof/ShiftMath.lean), so the stack read at (c, r, w) is the block at
   (c, r, w + 2c). -/
import proofs.«118367_j66468913873579_1_alg».proof.Proof.KPay

noncomputable section

namespace Cert.KernelIdeal.Pay

open Cert.KernelIdeal Cert.KernelIdeal.Gen Idealize.ShloMosaic Idealize.ShloMosaic.ValueIdx Cert.Spec

theorem piece0 (A : FVec Ideal S28x32x310 .f32) (r : Fin 32) (w : Fin 256) :
    (k0_pay18 A) (ix2 r w) = A (ix3 (⟨0, by decide⟩ : Fin 28) r (shiftCol ⟨0, by decide⟩ w)) := by
  unfold k0_pay18
  exact (Cert.ShiftMath.plain_cut _ _ r w).trans (Cert.ShiftMath.chan_plane 0 (by decide) A _ _ r _)
theorem piece1 (A : FVec Ideal S28x32x310 .f32) (r : Fin 32) (w : Fin 256) :
    (k0_pay19 A) (ix2 r w) = A (ix3 (⟨1, by decide⟩ : Fin 28) r (shiftCol ⟨1, by decide⟩ w)) := by
  unfold k0_pay19
  exact (Cert.ShiftMath.roll_cut 2 308 (by decide) (by decide) _ _ _ _ _ r w).trans (Cert.ShiftMath.chan_plane 1 (by decide) A _ _ r _)
theorem piece2 (A : FVec Ideal S28x32x310 .f32) (r : Fin 32) (w : Fin 256) :
    (k0_pay20 A) (ix2 r w) = A (ix3 (⟨2, by decide⟩ : Fin 28) r (shiftCol ⟨2, by decide⟩ w)) := by
  unfold k0_pay20
  exact (Cert.ShiftMath.roll_cut 4 306 (by decide) (by decide) _ _ _ _ _ r w).trans (Cert.ShiftMath.chan_plane 2 (by decide) A _ _ r _)
theorem piece3 (A : FVec Ideal S28x32x310 .f32) (r : Fin 32) (w : Fin 256) :
    (k0_pay21 A) (ix2 r w) = A (ix3 (⟨3, by decide⟩ : Fin 28) r (shiftCol ⟨3, by decide⟩ w)) := by
  unfold k0_pay21
  exact (Cert.ShiftMath.roll_cut 6 304 (by decide) (by decide) _ _ _ _ _ r w).trans (Cert.ShiftMath.chan_plane 3 (by decide) A _ _ r _)
theorem piece4 (A : FVec Ideal S28x32x310 .f32) (r : Fin 32) (w : Fin 256) :
    (k0_pay23 (k0_pay22 A)) (ix2 r w) = A (ix3 (⟨4, by decide⟩ : Fin 28) r (shiftCol ⟨4, by decide⟩ w)) := by
  unfold k0_pay23 k0_pay22
  exact (Cert.ShiftMath.roll_cut 8 302 (by decide) (by decide) _ _ _ _ _ r w).trans (Cert.ShiftMath.chan_plane 4 (by decide) A _ _ r _)
theorem piece5 (A : FVec Ideal S28x32x310 .f32) (r : Fin 32) (w : Fin 256) :
    (k0_pay24 A) (ix2 r w) = A (ix3 (⟨5, by decide⟩ : Fin 28) r (shiftCol ⟨5, by decide⟩ w)) := by
  unfold k0_pay24
  exact (Cert.ShiftMath.roll_cut 10 300 (by decide) (by decide) _ _ _ _ _ r w).trans (Cert.ShiftMath.chan_plane 5 (by decide) A _ _ r _)
theorem piece6 (A : FVec Ideal S28x32x310 .f32) (r : Fin 32) (w : Fin 256) :
    (k0_pay25 A) (ix2 r w) = A (ix3 (⟨6, by decide⟩ : Fin 28) r (shiftCol ⟨6, by decide⟩ w)) := by
  unfold k0_pay25
  exact (Cert.ShiftMath.roll_cut 12 298 (by decide) (by decide) _ _ _ _ _ r w).trans (Cert.ShiftMath.chan_plane 6 (by decide) A _ _ r _)
theorem piece7 (A : FVec Ideal S28x32x310 .f32) (r : Fin 32) (w : Fin 256) :
    (k0_pay26 A) (ix2 r w) = A (ix3 (⟨7, by decide⟩ : Fin 28) r (shiftCol ⟨7, by decide⟩ w)) := by
  unfold k0_pay26
  exact (Cert.ShiftMath.roll_cut 14 296 (by decide) (by decide) _ _ _ _ _ r w).trans (Cert.ShiftMath.chan_plane 7 (by decide) A _ _ r _)
theorem piece8 (A : FVec Ideal S28x32x310 .f32) (r : Fin 32) (w : Fin 256) :
    (k0_pay27 A) (ix2 r w) = A (ix3 (⟨8, by decide⟩ : Fin 28) r (shiftCol ⟨8, by decide⟩ w)) := by
  unfold k0_pay27
  exact (Cert.ShiftMath.roll_cut 16 294 (by decide) (by decide) _ _ _ _ _ r w).trans (Cert.ShiftMath.chan_plane 8 (by decide) A _ _ r _)
theorem piece9 (A : FVec Ideal S28x32x310 .f32) (r : Fin 32) (w : Fin 256) :
    (k0_pay28 A) (ix2 r w) = A (ix3 (⟨9, by decide⟩ : Fin 28) r (shiftCol ⟨9, by decide⟩ w)) := by
  unfold k0_pay28
  exact (Cert.ShiftMath.roll_cut 18 292 (by decide) (by decide) _ _ _ _ _ r w).trans (Cert.ShiftMath.chan_plane 9 (by decide) A _ _ r _)
theorem piece10 (A : FVec Ideal S28x32x310 .f32) (r : Fin 32) (w : Fin 256) :
    (k0_pay29 A) (ix2 r w) = A (ix3 (⟨10, by decide⟩ : Fin 28) r (shiftCol ⟨10, by decide⟩ w)) := by
  unfold k0_pay29
  exact (Cert.ShiftMath.roll_cut 20 290 (by decide) (by decide) _ _ _ _ _ r w).trans (Cert.ShiftMath.chan_plane 10 (by decide) A _ _ r _)
theorem piece11 (A : FVec Ideal S28x32x310 .f32) (r : Fin 32) (w : Fin 256) :
    (k0_pay30 A) (ix2 r w) = A (ix3 (⟨11, by decide⟩ : Fin 28) r (shiftCol ⟨11, by decide⟩ w)) := by
  unfold k0_pay30
  exact (Cert.ShiftMath.roll_cut 22 288 (by decide) (by decide) _ _ _ _ _ r w).trans (Cert.ShiftMath.chan_plane 11 (by decide) A _ _ r _)
theorem piece12 (A : FVec Ideal S28x32x310 .f32) (r : Fin 32) (w : Fin 256) :
    (k0_pay31 A) (ix2 r w) = A (ix3 (⟨12, by decide⟩ : Fin 28) r (shiftCol ⟨12, by decide⟩ w)) := by
  unfold k0_pay31
  exact (Cert.ShiftMath.roll_cut 24 286 (by decide) (by decide) _ _ _ _ _ r w).trans (Cert.ShiftMath.chan_plane 12 (by decide) A _ _ r _)
theorem piece13 (A : FVec Ideal S28x32x310 .f32) (r : Fin 32) (w : Fin 256) :
    (k0_pay32 A) (ix2 r w) = A (ix3 (⟨13, by decide⟩ : Fin 28) r (shiftCol ⟨13, by decide⟩ w)) := by
  unfold k0_pay32
  exact (Cert.ShiftMath.roll_cut 26 284 (by decide) (by decide) _ _ _ _ _ r w).trans (Cert.ShiftMath.chan_plane 13 (by decide) A _ _ r _)
theorem piece14 (A : FVec Ideal S28x32x310 .f32) (r : Fin 32) (w : Fin 256) :
    (k0_pay34 (k0_pay33 A)) (ix2 r w) = A (ix3 (⟨14, by decide⟩ : Fin 28) r (shiftCol ⟨14, by decide⟩ w)) := by
  unfold k0_pay34 k0_pay33
  exact (Cert.ShiftMath.roll_cut 28 282 (by decide) (by decide) _ _ _ _ _ r w).trans (Cert.ShiftMath.chan_plane 14 (by decide) A _ _ r _)
theorem piece15 (A : FVec Ideal S28x32x310 .f32) (r : Fin 32) (w : Fin 256) :
    (k0_pay35 A) (ix2 r w) = A (ix3 (⟨15, by decide⟩ : Fin 28) r (shiftCol ⟨15, by decide⟩ w)) := by
  unfold k0_pay35
  exact (Cert.ShiftMath.roll_cut 30 280 (by decide) (by decide) _ _ _ _ _ r w).trans (Cert.ShiftMath.chan_plane 15 (by decide) A _ _ r _)
theorem piece16 (A : FVec Ideal S28x32x310 .f32) (r : Fin 32) (w : Fin 256) :
    (k0_pay36 A) (ix2 r w) = A (ix3 (⟨16, by decide⟩ : Fin 28) r (shiftCol ⟨16, by decide⟩ w)) := by
  unfold k0_pay36
  exact (Cert.ShiftMath.roll_cut 32 278 (by decide) (by decide) _ _ _ _ _ r w).trans (Cert.ShiftMath.chan_plane 16 (by decide) A _ _ r _)
theorem piece17 (A : FVec Ideal S28x32x310 .f32) (r : Fin 32) (w : Fin 256) :
    (k0_pay37 A) (ix2 r w) = A (ix3 (⟨17, by decide⟩ : Fin 28) r (shiftCol ⟨17, by decide⟩ w)) := by
  unfold k0_pay37
  exact (Cert.ShiftMath.roll_cut 34 276 (by decide) (by decide) _ _ _ _ _ r w).trans (Cert.ShiftMath.chan_plane 17 (by decide) A _ _ r _)
theorem piece18 (A : FVec Ideal S28x32x310 .f32) (r : Fin 32) (w : Fin 256) :
    (k0_pay38 A) (ix2 r w) = A (ix3 (⟨18, by decide⟩ : Fin 28) r (shiftCol ⟨18, by decide⟩ w)) := by
  unfold k0_pay38
  exact (Cert.ShiftMath.roll_cut 36 274 (by decide) (by decide) _ _ _ _ _ r w).trans (Cert.ShiftMath.chan_plane 18 (by decide) A _ _ r _)
theorem piece19 (A : FVec Ideal S28x32x310 .f32) (r : Fin 32) (w : Fin 256) :
    (k0_pay39 A) (ix2 r w) = A (ix3 (⟨19, by decide⟩ : Fin 28) r (shiftCol ⟨19, by decide⟩ w)) := by
  unfold k0_pay39
  exact (Cert.ShiftMath.roll_cut 38 272 (by decide) (by decide) _ _ _ _ _ r w).trans (Cert.ShiftMath.chan_plane 19 (by decide) A _ _ r _)
theorem piece20 (A : FVec Ideal S28x32x310 .f32) (r : Fin 32) (w : Fin 256) :
    (k0_pay40 A) (ix2 r w) = A (ix3 (⟨20, by decide⟩ : Fin 28) r (shiftCol ⟨20, by decide⟩ w)) := by
  unfold k0_pay40
  exact (Cert.ShiftMath.roll_cut 40 270 (by decide) (by decide) _ _ _ _ _ r w).trans (Cert.ShiftMath.chan_plane 20 (by decide) A _ _ r _)
theorem piece21 (A : FVec Ideal S28x32x310 .f32) (r : Fin 32) (w : Fin 256) :
    (k0_pay41 A) (ix2 r w) = A (ix3 (⟨21, by decide⟩ : Fin 28) r (shiftCol ⟨21, by decide⟩ w)) := by
  unfold k0_pay41
  exact (Cert.ShiftMath.roll_cut 42 268 (by decide) (by decide) _ _ _ _ _ r w).trans (Cert.ShiftMath.chan_plane 21 (by decide) A _ _ r _)
theorem piece22 (A : FVec Ideal S28x32x310 .f32) (r : Fin 32) (w : Fin 256) :
    (k0_pay42 A) (ix2 r w) = A (ix3 (⟨22, by decide⟩ : Fin 28) r (shiftCol ⟨22, by decide⟩ w)) := by
  unfold k0_pay42
  exact (Cert.ShiftMath.roll_cut 44 266 (by decide) (by decide) _ _ _ _ _ r w).trans (Cert.ShiftMath.chan_plane 22 (by decide) A _ _ r _)
theorem piece23 (A : FVec Ideal S28x32x310 .f32) (r : Fin 32) (w : Fin 256) :
    (k0_pay43 A) (ix2 r w) = A (ix3 (⟨23, by decide⟩ : Fin 28) r (shiftCol ⟨23, by decide⟩ w)) := by
  unfold k0_pay43
  exact (Cert.ShiftMath.roll_cut 46 264 (by decide) (by decide) _ _ _ _ _ r w).trans (Cert.ShiftMath.chan_plane 23 (by decide) A _ _ r _)

set_option maxRecDepth 8192 in
set_option maxHeartbeats 4000000 in
/-- THE STACKED, ROLLED AND CUT PLANES read at (c, r, w): channel c of the block at row r and column w + 2c. -/
theorem zsb_apply (A : FVec Ideal S28x32x310 .f32) (c : Fin 28) (r : Fin 32) (w : Fin 256) :
    k0_pay45 A (k0_pay18 A) (k0_pay19 A) (k0_pay20 A) (k0_pay21 A) (k0_pay23 (k0_pay22 A)) (k0_pay24 A) (k0_pay25 A) (k0_pay26 A) (k0_pay27 A) (k0_pay28 A) (k0_pay29 A) (k0_pay30 A) (k0_pay31 A) (k0_pay32 A) (k0_pay34 (k0_pay33 A)) (k0_pay35 A) (k0_pay36 A) (k0_pay37 A) (k0_pay38 A) (k0_pay39 A) (k0_pay40 A) (k0_pay41 A) (k0_pay42 A) (k0_pay43 A) (k0_pay44 A) (ix3 c r w)
      = A (ix3 c r (shiftCol c w)) := by
  simp only [k0_pay45, k0_pay44]
  rw [stack_apply]
  match c with
  | ⟨0, _⟩ => exact piece0 A r w
  | ⟨1, _⟩ => exact piece1 A r w
  | ⟨2, _⟩ => exact piece2 A r w
  | ⟨3, _⟩ => exact piece3 A r w
  | ⟨4, _⟩ => exact piece4 A r w
  | ⟨5, _⟩ => exact piece5 A r w
  | ⟨6, _⟩ => exact piece6 A r w
  | ⟨7, _⟩ => exact piece7 A r w
  | ⟨8, _⟩ => exact piece8 A r w
  | ⟨9, _⟩ => exact piece9 A r w
  | ⟨10, _⟩ => exact piece10 A r w
  | ⟨11, _⟩ => exact piece11 A r w
  | ⟨12, _⟩ => exact piece12 A r w
  | ⟨13, _⟩ => exact piece13 A r w
  | ⟨14, _⟩ => exact piece14 A r w
  | ⟨15, _⟩ => exact piece15 A r w
  | ⟨16, _⟩ => exact piece16 A r w
  | ⟨17, _⟩ => exact piece17 A r w
  | ⟨18, _⟩ => exact piece18 A r w
  | ⟨19, _⟩ => exact piece19 A r w
  | ⟨20, _⟩ => exact piece20 A r w
  | ⟨21, _⟩ => exact piece21 A r w
  | ⟨22, _⟩ => exact piece22 A r w
  | ⟨23, _⟩ => exact piece23 A r w
  | ⟨24, _⟩ =>
    exact (Cert.ShiftMath.roll_cut 48 262 (by decide) (by decide)
      (shapeCast S32x310 (extractStridedSlice S1x32x310 ![24, 0, 0] A slices_S28x32x310_o24_0_0_S1x32x310) shapeCasts_S1x32x310_S32x310)
      slices_S32x310_o0_48_S32x262 slices_S32x310_o0_0_S32x48 concatenates_S32x262_S32x48_S32x310_d1 slices_S32x310_o0_0_S32x256 r w).trans
      (Cert.ShiftMath.chan_plane 24 (by decide) A slices_S28x32x310_o24_0_0_S1x32x310 shapeCasts_S1x32x310_S32x310 r _)
  | ⟨25, _⟩ =>
    exact (Cert.ShiftMath.roll_cut 50 260 (by decide) (by decide)
      (shapeCast S32x310 (extractStridedSlice S1x32x310 ![25, 0, 0] A slices_S28x32x310_o25_0_0_S1x32x310) shapeCasts_S1x32x310_S32x310)
      slices_S32x310_o0_50_S32x260 slices_S32x310_o0_0_S32x50 concatenates_S32x260_S32x50_S32x310_d1 slices_S32x310_o0_0_S32x256 r w).trans
      (Cert.ShiftMath.chan_plane 25 (by decide) A slices_S28x32x310_o25_0_0_S1x32x310 shapeCasts_S1x32x310_S32x310 r _)
  | ⟨26, _⟩ =>
    exact (Cert.ShiftMath.roll_cut 52 258 (by decide) (by decide)
      (shapeCast S32x310 (extractStridedSlice S1x32x310 ![26, 0, 0] A slices_S28x32x310_o26_0_0_S1x32x310) shapeCasts_S1x32x310_S32x310)
      slices_S32x310_o0_52_S32x258 slices_S32x310_o0_0_S32x52 concatenates_S32x258_S32x52_S32x310_d1 slices_S32x310_o0_0_S32x256 r w).trans
      (Cert.ShiftMath.chan_plane 26 (by decide) A slices_S28x32x310_o26_0_0_S1x32x310 shapeCasts_S1x32x310_S32x310 r _)
  | ⟨27, _⟩ =>
    exact (Cert.ShiftMath.roll_cut 54 256 (by decide) (by decide)
      (shapeCast S32x310 (extractStridedSlice S1x32x310 ![27, 0, 0] A slices_S28x32x310_o27_0_0_S1x32x310) shapeCasts_S1x32x310_S32x310)
      slices_S32x310_o0_54_S32x256 slices_S32x310_o0_0_S32x54 concatenates_S32x256_S32x54_S32x310_d1 slices_S32x310_o0_0_S32x256 r w).trans
      (Cert.ShiftMath.chan_plane 27 (by decide) A slices_S28x32x310_o27_0_0_S1x32x310 shapeCasts_S1x32x310_S32x310 r _)
  | ⟨n + 28, hn⟩ => exact absurd hn (by omega)

end Cert.KernelIdeal.Pay

end
-- ==== Proof.KArr.lean ====
/-
  FROM BLOCKS TO ARRAYS. The grid has 8 × 8 points: point (b, q) works on image b and rows 32q … 32q + 31. Every
  four-axis window's block at that point is image b, all 28 channels, those 32 rows and all columns of its array; every
  three-axis window's block is image b, those rows, all columns; the three scalar windows always hold their one element.
  So what a point writes back to either output — the body's stored block, which at a pixel is the one-pixel update on the
  input blocks' columns — is the block of ONE whole-array function: the update evaluated on the argument arrays' columns
  at the array pixel. The 64 blocks of each output cover its array, so after the run each output array is that function.
-/
import proofs.«118367_j66468913873579_1_alg».proof.Proof.BlockTable
import proofs.«118367_j66468913873579_1_alg».proof.Proof.PieceTable

noncomputable section

open scoped BigOperators

namespace Cert.KernelIdeal.Arr

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The coded-domain result as one function of the argument arrays. -/
def Gxc (z : S8x28x256x310.Idx → EReal) (yc : S8x256x310.Idx → EReal) (phic xp : S8x28x256x310.Idx → EReal)
    (mu muc : S1.Idx → EReal) : S8x28x256x310.Idx → EReal := fun i =>
  upd (mu (ix1 (0 : Fin 1))) (muc (ix1 (0 : Fin 1))) (yc (ix3 (i 0) (i 2) (i 3))) (fun k => z (ix4 (i 0) k (i 2) (i 3)))
    (fun k => phic (ix4 (i 0) k (i 2) (i 3))) (fun k => xp (ix4 (i 0) k (i 2) (i 3))) (i 1)

/-- The unshifted result as one function of the argument arrays. -/
def Gxp (z : S8x28x256x310.Idx → EReal) (yp : S8x256x256.Idx → EReal) (phip xc : S8x28x256x256.Idx → EReal)
    (mu mup : S1.Idx → EReal) : S8x28x256x256.Idx → EReal := fun i =>
  upd (mu (ix1 (0 : Fin 1))) (mup (ix1 (0 : Fin 1))) (yp (ix3 (i 0) (i 2) (i 3))) (fun k => z (ix4 (i 0) k (i 2) (shiftCol k (i 3))))
    (fun k => phip (ix4 (i 0) k (i 2) (i 3))) (fun k => xc (ix4 (i 0) k (i 2) (i 3))) (i 1)

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Every block of either output is some point's. -/
theorem idx_onto : ∀ (b : Fin 8) (q : Fin 8), ∃ t : Fin cfg0.N, win0_10.index t = ![b.val, 0, q.val, 0] :=
  (by decide +kernel : ∀ (b : Fin 8) (q : Fin 8), ∃ t : Fin grid0.N, win0_10.index t = ![b.val, 0, q.val, 0])

/-! ## What a point writes back is the block of one whole-array function -/

/-- The argument arrays, and the two result arrays as functions of them. -/
abbrev outXc (c : Dev nD) : S8x28x256x310.Idx → EReal :=
  Gxc (m ((c : Thread nD τ).loc main_arg0)) (m ((c : Thread nD τ).loc main_arg1)) (m ((c : Thread nD τ).loc main_arg2))
    (m ((c : Thread nD τ).loc main_arg6)) (m ((c : Thread nD τ).loc main_arg7)) (m ((c : Thread nD τ).loc main_arg8))
abbrev outXp (c : Dev nD) : S8x28x256x256.Idx → EReal :=
  Gxp (m ((c : Thread nD τ).loc main_arg0)) (m ((c : Thread nD τ).loc main_arg3)) (m ((c : Thread nD τ).loc main_arg4))
    (m ((c : Thread nD τ).loc main_arg5)) (m ((c : Thread nD τ).loc main_arg7)) (m ((c : Thread nD τ).loc main_arg9))

/-- WHAT POINT t WRITES BACK to the coded output is block t of the coded result array. -/
theorem flushed10_eq (c : Dev nD) (t : Fin cfg0.N) :
    (dats m 0 c).flushed 10 t = ((cfg0.win 10).blk t).view.read (Elt Ideal) (outXc m c) := by
  rw [flushed10]
  unfold out0_10
  rw [View.canon_unit_zero hz4]
  simp only [View.ld_unit_zero (S := S1x28x32x310) hz4, View.ld_unit_zero (S := S1x32x310) hz3, View.ld_unit_zero (S := S1) hz1]
  funext j
  obtain ⟨u, k, r, w, rfl⟩ : ∃ (u : Fin 1) (k : Fin 28) (r : Fin 32) (w : Fin 310), j = ix4 u k r w :=
    ⟨j 0, j 1, j 2, j 3, eq_ix4 j⟩
  obtain rfl : u = 0 := Subsingleton.elim _ _
  rw [View.read_apply, emb10]
  show k0_pay14 (k0_pay5 (iblk m c 3 t)) (k0_pay6 (iblk m c 4 t)) (k0_pay7 (iblk m c 6 t)) (k0_pay10 (iblk m c 0 t) (iblk m c 1 t)) (k0_pay11 (iblk m c 0 t) (iblk m c 1 t))
      (k0_pay12 (iblk m c 0 t) (iblk m c 1 t) (iblk m c 3 t) (iblk m c 4 t) (iblk m c 5 t)) (k0_pay13 (iblk m c 0 t) (iblk m c 1 t) (iblk m c 4 t) (iblk m c 6 t) (iblk m c 5 t)) (ix4 (0 : Fin 1) k r w) = _
  rw [Pay.xc_apply, iblk0, iblk1, iblk5]
  simp only [iblk3, iblk4, iblk6]
  rfl

/-- WHAT POINT t WRITES BACK to the unshifted output is block t of the unshifted result array. -/
theorem flushed11_eq (c : Dev nD) (t : Fin cfg0.N) :
    (dats m 0 c).flushed 11 t = ((cfg0.win 11).blk t).view.read (Elt Ideal) (outXp m c) := by
  rw [flushed11]
  unfold out0_11
  rw [View.canon_unit_zero hz4]
  simp only [View.ld_unit_zero (S := S1x28x32x310) hz4, View.ld_unit_zero (S := S1x28x32x256) hz4, View.ld_unit_zero (S := S1x32x256) hz3,
    View.ld_unit_zero (S := S1) hz1]
  funext j
  obtain ⟨u, k, r, w, rfl⟩ : ∃ (u : Fin 1) (k : Fin 28) (r : Fin 32) (w : Fin 256), j = ix4 u k r w :=
    ⟨j 0, j 1, j 2, j 3, eq_ix4 j⟩
  obtain rfl : u = 0 := Subsingleton.elim _ _
  rw [View.read_apply, emb11]
  show k0_pay1 (k0_pay2 (iblk m c 0 t)) (k0_pay4 (iblk m c 2 t)) (k0_pay15 (iblk m c 7 t)) (k0_pay16 (iblk m c 9 t)) (k0_pay17 (iblk m c 8 t))
      (k0_pay45 (k0_pay5 (iblk m c 3 t)) (k0_pay18 (k0_pay5 (iblk m c 3 t))) (k0_pay19 (k0_pay5 (iblk m c 3 t))) (k0_pay20 (k0_pay5 (iblk m c 3 t))) (k0_pay21 (k0_pay5 (iblk m c 3 t))) (k0_pay23 (k0_pay22 (k0_pay5 (iblk m c 3 t)))) (k0_pay24 (k0_pay5 (iblk m c 3 t))) (k0_pay25 (k0_pay5 (iblk m c 3 t))) (k0_pay26 (k0_pay5 (iblk m c 3 t))) (k0_pay27 (k0_pay5 (iblk m c 3 t))) (k0_pay28 (k0_pay5 (iblk m c 3 t))) (k0_pay29 (k0_pay5 (iblk m c 3 t))) (k0_pay30 (k0_pay5 (iblk m c 3 t))) (k0_pay31 (k0_pay5 (iblk m c 3 t))) (k0_pay32 (k0_pay5 (iblk m c 3 t))) (k0_pay34 (k0_pay33 (k0_pay5 (iblk m c 3 t)))) (k0_pay35 (k0_pay5 (iblk m c 3 t))) (k0_pay36 (k0_pay5 (iblk m c 3 t))) (k0_pay37 (k0_pay5 (iblk m c 3 t))) (k0_pay38 (k0_pay5 (iblk m c 3 t))) (k0_pay39 (k0_pay5 (iblk m c 3 t))) (k0_pay40 (k0_pay5 (iblk m c 3 t))) (k0_pay41 (k0_pay5 (iblk m c 3 t))) (k0_pay42 (k0_pay5 (iblk m c 3 t))) (k0_pay43 (k0_pay5 (iblk m c 3 t))) (k0_pay44 (k0_pay5 (iblk m c 3 t))))
      (k0_pay46 (k0_pay15 (iblk m c 7 t))) (k0_pay47 (k0_pay15 (iblk m c 7 t))) (k0_pay48 (F := Ideal)) (ix4 (0 : Fin 1) k r w) = _
  rw [Pay.xp_apply_of, iblk0, iblk2, iblk8]
  simp only [Pay.zsb_apply]
  have hz : (fun k : Fin 28 => k0_pay5 (iblk m c 3 t) (ix3 k r (shiftCol k w)))
      = fun k => (m ((c : Thread nD τ).loc main_arg0) : S8x28x256x310.Idx → Elt Ideal .f32) (ix4 (img t) k (row t r) (shiftCol k w)) :=
    funext fun k => (Pay.blk310_apply (iblk m c 3 t) k r (shiftCol k w)).trans (iblk3 m c t k r (shiftCol k w))
  rw [hz]
  simp only [iblk7, iblk9]
  rfl

/-! ## The blocks cover the arrays -/

theorem mem_blk10 (t : Fin cfg0.N) (i : S8x28x256x310.Idx) :
    i ∈ ((cfg0.win 10).blk t).view.set ↔ ∀ a : Fin 4, win0_10.index t a * S1x28x32x310.size a ≤ (i a).val
      ∧ (i a).val < win0_10.index t a * S1x28x32x310.size a + S1x28x32x310.size a := by
  show i ∈ ((View.whole main_v0_0).slice (win0_10.rect t)).set ↔ _
  rw [View.set_slice_whole, Rect.mem_set_unit]
  exact Iff.rfl

theorem mem_blk11 (t : Fin cfg0.N) (i : S8x28x256x256.Idx) :
    i ∈ ((cfg0.win 11).blk t).view.set ↔ ∀ a : Fin 4, win0_11.index t a * S1x28x32x256.size a ≤ (i a).val
      ∧ (i a).val < win0_11.index t a * S1x28x32x256.size a + S1x28x32x256.size a := by
  show i ∈ ((View.whole main_v0_1).slice (win0_11.rect t)).set ↔ _
  rw [View.set_slice_whole, Rect.mem_set_unit]
  exact Iff.rfl

theorem cover10 (i : S8x28x256x310.Idx) : ∃ t : Fin cfg0.N, (cfg0.win 10).flush t = true ∧ i ∈ ((cfg0.win 10).blk t).view.set := by
  have h0 : (i 0).val < 8 := (i 0).isLt
  have h1 : (i 1).val < 28 := (i 1).isLt
  have h2 : (i 2).val < 256 := (i 2).isLt
  have h3 : (i 3).val < 310 := (i 3).isLt
  obtain ⟨t, ht⟩ := idx_onto ⟨(i 0).val, h0⟩ ⟨(i 2).val / 32, by omega⟩
  have q0 : win0_10.index t (0 : Fin 4) = (i 0).val := congrFun ht 0
  have q1 : win0_10.index t (1 : Fin 4) = 0 := congrFun ht 1
  have q2 : win0_10.index t (2 : Fin 4) = (i 2).val / 32 := congrFun ht 2
  have q3 : win0_10.index t (3 : Fin 4) = 0 := congrFun ht 3
  refine ⟨t, flush0_10 t, (mem_blk10 t i).mpr fun a => ?_⟩
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 28 ≤ (i 1).val ∧ (i 1).val < win0_10.index t (1 : Fin 4) * 28 + 28; omega
  | ⟨2, _⟩ => show win0_10.index t (2 : Fin 4) * 32 ≤ (i 2).val ∧ (i 2).val < win0_10.index t (2 : Fin 4) * 32 + 32; omega
  | ⟨3, _⟩ => show win0_10.index t (3 : Fin 4) * 310 ≤ (i 3).val ∧ (i 3).val < win0_10.index t (3 : Fin 4) * 310 + 310; omega

theorem cover11 (i : S8x28x256x256.Idx) : ∃ t : Fin cfg0.N, (cfg0.win 11).flush t = true ∧ i ∈ ((cfg0.win 11).blk t).view.set := by
  have h0 : (i 0).val < 8 := (i 0).isLt
  have h1 : (i 1).val < 28 := (i 1).isLt
  have h2 : (i 2).val < 256 := (i 2).isLt
  have h3 : (i 3).val < 256 := (i 3).isLt
  obtain ⟨t, ht⟩ := idx_onto ⟨(i 0).val, h0⟩ ⟨(i 2).val / 32, by omega⟩
  obtain ⟨e0, e1, e2, e3⟩ := facts11 t
  have q0 : win0_10.index t (0 : Fin 4) = (i 0).val := congrFun ht 0
  have q2 : win0_10.index t (2 : Fin 4) = (i 2).val / 32 := congrFun ht 2
  refine ⟨t, flush0_11 t, (mem_blk11 t i).mpr fun a => ?_⟩
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 28 ≤ (i 1).val ∧ (i 1).val < win0_11.index t (1 : Fin 4) * 28 + 28; omega
  | ⟨2, _⟩ => show win0_11.index t (2 : Fin 4) * 32 ≤ (i 2).val ∧ (i 2).val < win0_11.index t (2 : Fin 4) * 32 + 32; omega
  | ⟨3, _⟩ => show win0_11.index t (3 : Fin 4) * 256 ≤ (i 3).val ∧ (i 3).val < win0_11.index t (3 : Fin 4) * 256 + 256; omega

/-- After the run the coded output array is the coded result array … -/
theorem final10 (c : Dev nD) : (dats m 0 c).arrAt 10 cfg0.N = outXc m c :=
  (dats m 0 c).arrAt_eq_of_cover 10 (outXc m c) (fun t _ => flushed10_eq m c t) cover10

/-- … and the unshifted output array the unshifted result array. -/
theorem final11 (c : Dev nD) : (dats m 0 c).arrAt 11 cfg0.N = outXp m c :=
  (dats m 0 c).arrAt_eq_of_cover 11 (outXp m c) (fun t _ => flushed11_eq m c t) cover11

/-- THE KERNEL'S RUN, READ: every weakly fair execution terminates with the two outputs at the two result arrays of the
    argument arrays, and the arguments unchanged. -/
theorem run : θ_run defs (onTc (τ := τ) (main (F := Ideal))) ⟨m, fun _ => 0, ρ⟩ fun r => ∀ c : Dev nD,
      r.2.mem ((c : Thread nD τ).loc main_v0_0) = outXc m c
      ∧ r.2.mem ((c : Thread nD τ).loc main_v0_1) = outXp m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩) (run_blocks m ρ)

end Cert.KernelIdeal.Arr

end
-- ==== Proof.RefOps.lean ====
/- SCRIPT-MADE TABLE (python3 scratch/mk_refops.py proof/ReferenceIdeal.lean > proof/Proof/RefOps.lean; run from the unit directory; the script is filed under scratch/): the reference's @main as ONE
   list of its 140 host operations in program order, each module-local function's body written out at its call over that
   call's buffer record, and, beside it, the list of the per-operation buffer-inclusion facts in the same order. -/
import proofs.«118367_j66468913873579_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out. -/
abbrev ops : List (HloOp τ sig (Elt F)) :=
  [ reshape main_arg7 main_v0 rfl shapeCasts_S1_S_,
    reshape main_arg8 main_v1 rfl shapeCasts_S1_S_,
    reshape main_arg9 main_v2 rfl shapeCasts_S1_S_,
    binary main_arg2 main_arg2 main_v3 (mulf : (⟨S8x28x256x310, .f32⟩ : BufTy).Contents (Elt F) → (⟨S8x28x256x310, .f32⟩ : BufTy).Contents (Elt F) → (⟨S8x28x256x310, .f32⟩ : BufTy).Contents (Elt F)),
    nullary main_cst (constant S_ .f32 0x00000000#32),
    binary main_v3 main_cst main_v4 ((fun x v => Host.reduceAdd x v reducesTo_S8x28x256x310_S8x256x310_d1 h_S_) : (⟨S8x28x256x310, .f32⟩ : BufTy).Contents (Elt F) → (⟨S_, .f32⟩ : BufTy).Contents (Elt F) → (⟨S8x256x310, .f32⟩ : BufTy).Contents (Elt F)),
    nullary main_cst_0 (constant S_ .f32 0x00000000#32),
    unary main_cst_0 main_v5 (broadcastInDim S8x256x310 ![] bcast_S_S8x256x310 : (⟨S_, .f32⟩ : BufTy).Contents (Elt F) → (⟨S8x256x310, .f32⟩ : BufTy).Contents (Elt F)),
    binary main_v4 main_v5 main_v6 (cmpf .oeq : (⟨S8x256x310, .f32⟩ : BufTy).Contents (Elt F) → (⟨S8x256x310, .f32⟩ : BufTy).Contents (Elt F) → (⟨S8x256x310, .i1⟩ : BufTy).Contents (Elt F)),
    nullary main_cst_1 (constant S_ .f32 0x3F800000#32),
    TRef.unary (.of main_cst_1) main_call0.v0 id,
    TRef.unary main_call0.v0 main_call0.v1 (broadcastInDim S8x256x310 ![] bcast_S_S8x256x310),
    TRef.ternary (.of main_v6) main_call0.v1 (.of main_v4) main_call0.v2 select,
    binary main_v0 main_v1 main_v8 (addf : (⟨S_, .f32⟩ : BufTy).Contents (Elt F) → (⟨S_, .f32⟩ : BufTy).Contents (Elt F) → (⟨S_, .f32⟩ : BufTy).Contents (Elt F)),
    unary main_v8 main_v9 (broadcastInDim S8x256x310 ![] bcast_S_S8x256x310 : (⟨S_, .f32⟩ : BufTy).Contents (Elt F) → (⟨S8x256x310, .f32⟩ : BufTy).Contents (Elt F)),
    binary main_v9 main_v7 main_v10 (addf : (⟨S8x256x310, .f32⟩ : BufTy).Contents (Elt F) → (⟨S8x256x310, .f32⟩ : BufTy).Contents (Elt F) → (⟨S8x256x310, .f32⟩ : BufTy).Contents (Elt F)),
    binary main_arg0 main_arg2 main_v11 (mulf : (⟨S8x28x256x310, .f32⟩ : BufTy).Contents (Elt F) → (⟨S8x28x256x310, .f32⟩ : BufTy).Contents (Elt F) → (⟨S8x28x256x310, .f32⟩ : BufTy).Contents (Elt F)),
    nullary main_cst_2 (constant S_ .f32 0x00000000#32),
    binary main_v11 main_cst_2 main_v12 ((fun x v => Host.reduceAdd x v reducesTo_S8x28x256x310_S8x256x310_d1 h_S_) : (⟨S8x28x256x310, .f32⟩ : BufTy).Contents (Elt F) → (⟨S_, .f32⟩ : BufTy).Contents (Elt F) → (⟨S8x256x310, .f32⟩ : BufTy).Contents (Elt F)),
    binary main_arg6 main_arg2 main_v13 (mulf : (⟨S8x28x256x310, .f32⟩ : BufTy).Contents (Elt F) → (⟨S8x28x256x310, .f32⟩ : BufTy).Contents (Elt F) → (⟨S8x28x256x310, .f32⟩ : BufTy).Contents (Elt F)),
    nullary main_cst_3 (constant S_ .f32 0x00000000#32),
    binary main_v13 main_cst_3 main_v14 ((fun x v => Host.reduceAdd x v reducesTo_S8x28x256x310_S8x256x310_d1 h_S_) : (⟨S8x28x256x310, .f32⟩ : BufTy).Contents (Elt F) → (⟨S_, .f32⟩ : BufTy).Contents (Elt F) → (⟨S8x256x310, .f32⟩ : BufTy).Contents (Elt F)),
    binary main_v0 main_v1 main_v15 (addf : (⟨S_, .f32⟩ : BufTy).Contents (Elt F) → (⟨S_, .f32⟩ : BufTy).Contents (Elt F) → (⟨S_, .f32⟩ : BufTy).Contents (Elt F)),
    binary main_v1 main_v15 main_v16 (Host.divf : (⟨S_, .f32⟩ : BufTy).Contents (Elt F) → (⟨S_, .f32⟩ : BufTy).Contents (Elt F) → (⟨S_, .f32⟩ : BufTy).Contents (Elt F)),
    binary main_v0 main_v1 main_v17 (addf : (⟨S_, .f32⟩ : BufTy).Contents (Elt F) → (⟨S_, .f32⟩ : BufTy).Contents (Elt F) → (⟨S_, .f32⟩ : BufTy).Contents (Elt F)),
    binary main_v0 main_v17 main_v18 (Host.divf : (⟨S_, .f32⟩ : BufTy).Contents (Elt F) → (⟨S_, .f32⟩ : BufTy).Contents (Elt F) → (⟨S_, .f32⟩ : BufTy).Contents (Elt F)),
    binary main_arg1 main_v12 main_v19 (subf : (⟨S8x256x310, .f32⟩ : BufTy).Contents (Elt F) → (⟨S8x256x310, .f32⟩ : BufTy).Contents (Elt F) → (⟨S8x256x310, .f32⟩ : BufTy).Contents (Elt F)),
    binary main_v19 main_v10 main_v20 (Host.divf : (⟨S8x256x310, .f32⟩ : BufTy).Contents (Elt F) → (⟨S8x256x310, .f32⟩ : BufTy).Contents (Elt F) → (⟨S8x256x310, .f32⟩ : BufTy).Contents (Elt F)),
    unary main_v20 main_v21 (broadcastInDim S8x1x256x310 ![0, 2, 3] bcast_S8x256x310_S8x1x256x310_0_2_3 : (⟨S8x256x310, .f32⟩ : BufTy).Contents (Elt F) → (⟨S8x1x256x310, .f32⟩ : BufTy).Contents (Elt F)),
    unary main_v21 main_v22 (broadcastInDim S8x28x256x310 ![0, 1, 2, 3] bcast_S8x1x256x310_S8x28x256x310_0_1_2_3 : (⟨S8x1x256x310, .f32⟩ : BufTy).Contents (Elt F) → (⟨S8x28x256x310, .f32⟩ : BufTy).Contents (Elt F)),
    binary main_v22 main_arg2 main_v23 (mulf : (⟨S8x28x256x310, .f32⟩ : BufTy).Contents (Elt F) → (⟨S8x28x256x310, .f32⟩ : BufTy).Contents (Elt F) → (⟨S8x28x256x310, .f32⟩ : BufTy).Contents (Elt F)),
    binary main_arg0 main_v23 main_v24 (addf : (⟨S8x28x256x310, .f32⟩ : BufTy).Contents (Elt F) → (⟨S8x28x256x310, .f32⟩ : BufTy).Contents (Elt F) → (⟨S8x28x256x310, .f32⟩ : BufTy).Contents (Elt F)),
    unary main_v16 main_v25 (broadcastInDim S8x28x256x310 ![] bcast_S_S8x28x256x310 : (⟨S_, .f32⟩ : BufTy).Contents (Elt F) → (⟨S8x28x256x310, .f32⟩ : BufTy).Contents (Elt F)),
    binary main_v25 main_v24 main_v26 (mulf : (⟨S8x28x256x310, .f32⟩ : BufTy).Contents (Elt F) → (⟨S8x28x256x310, .f32⟩ : BufTy).Contents (Elt F) → (⟨S8x28x256x310, .f32⟩ : BufTy).Contents (Elt F)),
    binary main_arg1 main_v14 main_v27 (subf : (⟨S8x256x310, .f32⟩ : BufTy).Contents (Elt F) → (⟨S8x256x310, .f32⟩ : BufTy).Contents (Elt F) → (⟨S8x256x310, .f32⟩ : BufTy).Contents (Elt F)),
    binary main_v27 main_v10 main_v28 (Host.divf : (⟨S8x256x310, .f32⟩ : BufTy).Contents (Elt F) → (⟨S8x256x310, .f32⟩ : BufTy).Contents (Elt F) → (⟨S8x256x310, .f32⟩ : BufTy).Contents (Elt F)),
    unary main_v28 main_v29 (broadcastInDim S8x1x256x310 ![0, 2, 3] bcast_S8x256x310_S8x1x256x310_0_2_3 : (⟨S8x256x310, .f32⟩ : BufTy).Contents (Elt F) → (⟨S8x1x256x310, .f32⟩ : BufTy).Contents (Elt F)),
    unary main_v29 main_v30 (broadcastInDim S8x28x256x310 ![0, 1, 2, 3] bcast_S8x1x256x310_S8x28x256x310_0_1_2_3 : (⟨S8x1x256x310, .f32⟩ : BufTy).Contents (Elt F) → (⟨S8x28x256x310, .f32⟩ : BufTy).Contents (Elt F)),
    binary main_v30 main_arg2 main_v31 (mulf : (⟨S8x28x256x310, .f32⟩ : BufTy).Contents (Elt F) → (⟨S8x28x256x310, .f32⟩ : BufTy).Contents (Elt F) → (⟨S8x28x256x310, .f32⟩ : BufTy).Contents (Elt F)),
    binary main_arg6 main_v31 main_v32 (addf : (⟨S8x28x256x310, .f32⟩ : BufTy).Contents (Elt F) → (⟨S8x28x256x310, .f32⟩ : BufTy).Contents (Elt F) → (⟨S8x28x256x310, .f32⟩ : BufTy).Contents (Elt F)),
    unary main_v18 main_v33 (broadcastInDim S8x28x256x310 ![] bcast_S_S8x28x256x310 : (⟨S_, .f32⟩ : BufTy).Contents (Elt F) → (⟨S8x28x256x310, .f32⟩ : BufTy).Contents (Elt F)),
    binary main_v33 main_v32 main_v34 (mulf : (⟨S8x28x256x310, .f32⟩ : BufTy).Contents (Elt F) → (⟨S8x28x256x310, .f32⟩ : BufTy).Contents (Elt F) → (⟨S8x28x256x310, .f32⟩ : BufTy).Contents (Elt F)),
    binary main_v26 main_v34 main_v35 (addf : (⟨S8x28x256x310, .f32⟩ : BufTy).Contents (Elt F) → (⟨S8x28x256x310, .f32⟩ : BufTy).Contents (Elt F) → (⟨S8x28x256x310, .f32⟩ : BufTy).Contents (Elt F)),
    binary main_arg4 main_arg4 main_v36 (mulf : (⟨S8x28x256x256, .f32⟩ : BufTy).Contents (Elt F) → (⟨S8x28x256x256, .f32⟩ : BufTy).Contents (Elt F) → (⟨S8x28x256x256, .f32⟩ : BufTy).Contents (Elt F)),
    nullary main_cst_4 (constant S_ .f32 0x00000000#32),
    binary main_v36 main_cst_4 main_v37 ((fun x v => Host.reduceAdd x v reducesTo_S8x28x256x256_S8x256x256_d1 h_S_) : (⟨S8x28x256x256, .f32⟩ : BufTy).Contents (Elt F) → (⟨S_, .f32⟩ : BufTy).Contents (Elt F) → (⟨S8x256x256, .f32⟩ : BufTy).Contents (Elt F)),
    nullary main_cst_5 (constant S_ .f32 0x00000000#32),
    unary main_cst_5 main_v38 (broadcastInDim S8x256x256 ![] bcast_S_S8x256x256 : (⟨S_, .f32⟩ : BufTy).Contents (Elt F) → (⟨S8x256x256, .f32⟩ : BufTy).Contents (Elt F)),
    binary main_v37 main_v38 main_v39 (cmpf .oeq : (⟨S8x256x256, .f32⟩ : BufTy).Contents (Elt F) → (⟨S8x256x256, .f32⟩ : BufTy).Contents (Elt F) → (⟨S8x256x256, .i1⟩ : BufTy).Contents (Elt F)),
    nullary main_cst_6 (constant S_ .f32 0x3F800000#32),
    TRef.unary (.of main_cst_6) main_call1.v0 id,
    TRef.unary main_call1.v0 main_call1.v1 (broadcastInDim S8x256x256 ![] bcast_S_S8x256x256),
    TRef.ternary (.of main_v39) main_call1.v1 (.of main_v37) main_call1.v2 select,
    binary main_v0 main_v2 main_v41 (addf : (⟨S_, .f32⟩ : BufTy).Contents (Elt F) → (⟨S_, .f32⟩ : BufTy).Contents (Elt F) → (⟨S_, .f32⟩ : BufTy).Contents (Elt F)),
    unary main_v41 main_v42 (broadcastInDim S8x256x256 ![] bcast_S_S8x256x256 : (⟨S_, .f32⟩ : BufTy).Contents (Elt F) → (⟨S8x256x256, .f32⟩ : BufTy).Contents (Elt F)),
    binary main_v42 main_v40 main_v43 (addf : (⟨S8x256x256, .f32⟩ : BufTy).Contents (Elt F) → (⟨S8x256x256, .f32⟩ : BufTy).Contents (Elt F) → (⟨S8x256x256, .f32⟩ : BufTy).Contents (Elt F)),
    nullary main_v44 (iotaInDim S310 32 0),
    unary main_v44 main_v45 (broadcastInDim S1x310 ![1] bcast_S310_S1x310_1 : (⟨S310, .i32⟩ : BufTy).Contents (Elt F) → (⟨S1x310, .i32⟩ : BufTy).Contents (Elt F)),
    nullary main_v46 (iotaInDim S28 32 0),
    unary main_v46 main_v47 (broadcastInDim S28x1 ![0] bcast_S28_S28x1_0 : (⟨S28, .i32⟩ : BufTy).Contents (Elt F) → (⟨S28x1, .i32⟩ : BufTy).Contents (Elt F)),
    nullary main_c (constantI S_ 32 2#32),
    unary main_c main_v48 (broadcastInDim S28x1 ![] bcast_S_S28x1 : (⟨S_, .i32⟩ : BufTy).Contents (Elt F) → (⟨S28x1, .i32⟩ : BufTy).Contents (Elt F)),
    binary main_v48 main_v47 main_v49 (muli : (⟨S28x1, .i32⟩ : BufTy).Contents (Elt F) → (⟨S28x1, .i32⟩ : BufTy).Contents (Elt F) → (⟨S28x1, .i32⟩ : BufTy).Contents (Elt F)),
    unary main_v45 main_v50 (broadcastInDim S28x310 ![0, 1] bcast_S1x310_S28x310_0_1 : (⟨S1x310, .i32⟩ : BufTy).Contents (Elt F) → (⟨S28x310, .i32⟩ : BufTy).Contents (Elt F)),
    unary main_v49 main_v51 (broadcastInDim S28x310 ![0, 1] bcast_S28x1_S28x310_0_1 : (⟨S28x1, .i32⟩ : BufTy).Contents (Elt F) → (⟨S28x310, .i32⟩ : BufTy).Contents (Elt F)),
    binary main_v50 main_v51 main_v52 (addi : (⟨S28x310, .i32⟩ : BufTy).Contents (Elt F) → (⟨S28x310, .i32⟩ : BufTy).Contents (Elt F) → (⟨S28x310, .i32⟩ : BufTy).Contents (Elt F)),
    nullary main_c_7 (constantI S_ 32 310#32),
    TRef.unary (.of main_c_7) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S28x310 ![] bcast_S_S28x310),
    TRef.binary (.of main_v52) main_call2.v3 main_call2.v4 Host.remsi,
    TRef.nullary main_call2.c_1 (constantI S_ 32 0#32),
    TRef.unary main_call2.c_1 main_call2.v5 (broadcastInDim S28x310 ![] bcast_S_S28x310),
    TRef.binary main_call2.v4 main_call2.v5 main_call2.v6 (cmpi .ne),
    TRef.nullary main_call2.c_2 (constantI S_ 32 0#32),
    TRef.unary main_call2.c_2 main_call2.v7 (broadcastInDim S28x310 ![] bcast_S_S28x310),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S28x310 ![] bcast_S_S28x310),
    TRef.binary main_call2.v8 main_call2.v10 main_call2.v11 (cmpi .ne),
    TRef.binary main_call2.v11 main_call2.v6 main_call2.v12 andi,
    TRef.unary main_call2.call0.v0 main_call2.v13 (broadcastInDim S28x310 ![] bcast_S_S28x310),
    TRef.binary main_call2.v4 main_call2.v13 main_call2.v14 addi,
    TRef.ternary main_call2.v12 main_call2.v14 main_call2.v4 main_call2.v15 select,
    unary main_v53 main_v54 (broadcastInDim S1x28x1x310 ![1, 3] bcast_S28x310_S1x28x1x310_1_3 : (⟨S28x310, .i32⟩ : BufTy).Contents (Elt F) → (⟨S1x28x1x310, .i32⟩ : BufTy).Contents (Elt F)),
    TRef.nullary main_call3.c (constantI S_ 32 0#32),
    TRef.unary main_call3.c main_call3.v0 (broadcastInDim S1x28x1x310 ![] bcast_S_S1x28x1x310),
    TRef.binary (.of main_v54) main_call3.v0 main_call3.v1 (cmpi .slt),
    TRef.nullary main_call3.c_0 (constantI S_ 32 310#32),
    TRef.unary main_call3.c_0 main_call3.v2 (broadcastInDim S1x28x1x310 ![] bcast_S_S1x28x1x310),
    TRef.binary (.of main_v54) main_call3.v2 main_call3.v3 addi,
    TRef.ternary main_call3.v1 main_call3.v3 (.of main_v54) main_call3.v4 select,
    TRef.reshape main_call3.v4 main_call3.v5 rfl shapeCasts_S1x28x1x310_S28x310x1,
    TRef.nullary main_call3.c_1 (constantI S1 32 309#32),
    TRef.nullary main_call3.c_2 (constantI S_ 32 0#32),
    TRef.unary main_call3.c_2 main_call3.v6 (broadcastInDim S28x310x1 ![] bcast_S_S28x310x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S28x310x1 ![0, 1, 2] bcast_S1x1x1_S28x310x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S28x310x1_S28x310_d2 h_S_),
    TRef.binary (.of main_arg0) main_call3.v5 main_call3.v13 (fun x i => Host.gather gather_S8x28x256x310_S28x310x1_S8x28x256x310_02_3_1_0_3_2_812561 x i),
    TRef.unary main_call3.v12 main_call3.v14 (broadcastInDim S8x28x256x310 ![1, 3] bcast_S28x310_S8x28x256x310_1_3),
    TRef.nullary main_call3.cst (constant S_ .f32 0x7FC00000#32),
    TRef.unary main_call3.cst main_call3.v15 (broadcastInDim S8x28x256x310 ![] bcast_S_S8x28x256x310),
    TRef.ternary main_call3.v14 main_call3.v13 main_call3.v15 main_call3.v16 select,
    unary main_v55 main_v56 ((extractStridedSlice S8x28x256x256 ![0, 0, 0, 0] · slices_S8x28x256x310_S8x28x256x256_0_0_0_0) : (⟨S8x28x256x310, .f32⟩ : BufTy).Contents (Elt F) → (⟨S8x28x256x256, .f32⟩ : BufTy).Contents (Elt F)),
    binary main_v56 main_arg4 main_v57 (mulf : (⟨S8x28x256x256, .f32⟩ : BufTy).Contents (Elt F) → (⟨S8x28x256x256, .f32⟩ : BufTy).Contents (Elt F) → (⟨S8x28x256x256, .f32⟩ : BufTy).Contents (Elt F)),
    nullary main_cst_8 (constant S_ .f32 0x00000000#32),
    binary main_v57 main_cst_8 main_v58 ((fun x v => Host.reduceAdd x v reducesTo_S8x28x256x256_S8x256x256_d1 h_S_) : (⟨S8x28x256x256, .f32⟩ : BufTy).Contents (Elt F) → (⟨S_, .f32⟩ : BufTy).Contents (Elt F) → (⟨S8x256x256, .f32⟩ : BufTy).Contents (Elt F)),
    binary main_arg5 main_arg4 main_v59 (mulf : (⟨S8x28x256x256, .f32⟩ : BufTy).Contents (Elt F) → (⟨S8x28x256x256, .f32⟩ : BufTy).Contents (Elt F) → (⟨S8x28x256x256, .f32⟩ : BufTy).Contents (Elt F)),
    nullary main_cst_9 (constant S_ .f32 0x00000000#32),
    binary main_v59 main_cst_9 main_v60 ((fun x v => Host.reduceAdd x v reducesTo_S8x28x256x256_S8x256x256_d1 h_S_) : (⟨S8x28x256x256, .f32⟩ : BufTy).Contents (Elt F) → (⟨S_, .f32⟩ : BufTy).Contents (Elt F) → (⟨S8x256x256, .f32⟩ : BufTy).Contents (Elt F)),
    binary main_v0 main_v2 main_v61 (addf : (⟨S_, .f32⟩ : BufTy).Contents (Elt F) → (⟨S_, .f32⟩ : BufTy).Contents (Elt F) → (⟨S_, .f32⟩ : BufTy).Contents (Elt F)),
    binary main_v2 main_v61 main_v62 (Host.divf : (⟨S_, .f32⟩ : BufTy).Contents (Elt F) → (⟨S_, .f32⟩ : BufTy).Contents (Elt F) → (⟨S_, .f32⟩ : BufTy).Contents (Elt F)),
    binary main_v0 main_v2 main_v63 (addf : (⟨S_, .f32⟩ : BufTy).Contents (Elt F) → (⟨S_, .f32⟩ : BufTy).Contents (Elt F) → (⟨S_, .f32⟩ : BufTy).Contents (Elt F)),
    binary main_v0 main_v63 main_v64 (Host.divf : (⟨S_, .f32⟩ : BufTy).Contents (Elt F) → (⟨S_, .f32⟩ : BufTy).Contents (Elt F) → (⟨S_, .f32⟩ : BufTy).Contents (Elt F)),
    binary main_arg3 main_v58 main_v65 (subf : (⟨S8x256x256, .f32⟩ : BufTy).Contents (Elt F) → (⟨S8x256x256, .f32⟩ : BufTy).Contents (Elt F) → (⟨S8x256x256, .f32⟩ : BufTy).Contents (Elt F)),
    binary main_v65 main_v43 main_v66 (Host.divf : (⟨S8x256x256, .f32⟩ : BufTy).Contents (Elt F) → (⟨S8x256x256, .f32⟩ : BufTy).Contents (Elt F) → (⟨S8x256x256, .f32⟩ : BufTy).Contents (Elt F)),
    unary main_v66 main_v67 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v67 main_v68 (broadcastInDim S8x28x256x256 ![0, 1, 2, 3] bcast_S8x1x256x256_S8x28x256x256_0_1_2_3 : (⟨S8x1x256x256, .f32⟩ : BufTy).Contents (Elt F) → (⟨S8x28x256x256, .f32⟩ : BufTy).Contents (Elt F)),
    binary main_v68 main_arg4 main_v69 (mulf : (⟨S8x28x256x256, .f32⟩ : BufTy).Contents (Elt F) → (⟨S8x28x256x256, .f32⟩ : BufTy).Contents (Elt F) → (⟨S8x28x256x256, .f32⟩ : BufTy).Contents (Elt F)),
    binary main_v56 main_v69 main_v70 (addf : (⟨S8x28x256x256, .f32⟩ : BufTy).Contents (Elt F) → (⟨S8x28x256x256, .f32⟩ : BufTy).Contents (Elt F) → (⟨S8x28x256x256, .f32⟩ : BufTy).Contents (Elt F)),
    unary main_v62 main_v71 (broadcastInDim S8x28x256x256 ![] bcast_S_S8x28x256x256 : (⟨S_, .f32⟩ : BufTy).Contents (Elt F) → (⟨S8x28x256x256, .f32⟩ : BufTy).Contents (Elt F)),
    binary main_v71 main_v70 main_v72 (mulf : (⟨S8x28x256x256, .f32⟩ : BufTy).Contents (Elt F) → (⟨S8x28x256x256, .f32⟩ : BufTy).Contents (Elt F) → (⟨S8x28x256x256, .f32⟩ : BufTy).Contents (Elt F)),
    binary main_arg3 main_v60 main_v73 (subf : (⟨S8x256x256, .f32⟩ : BufTy).Contents (Elt F) → (⟨S8x256x256, .f32⟩ : BufTy).Contents (Elt F) → (⟨S8x256x256, .f32⟩ : BufTy).Contents (Elt F)),
    binary main_v73 main_v43 main_v74 (Host.divf : (⟨S8x256x256, .f32⟩ : BufTy).Contents (Elt F) → (⟨S8x256x256, .f32⟩ : BufTy).Contents (Elt F) → (⟨S8x256x256, .f32⟩ : BufTy).Contents (Elt F)),
    unary main_v74 main_v75 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v75 main_v76 (broadcastInDim S8x28x256x256 ![0, 1, 2, 3] bcast_S8x1x256x256_S8x28x256x256_0_1_2_3 : (⟨S8x1x256x256, .f32⟩ : BufTy).Contents (Elt F) → (⟨S8x28x256x256, .f32⟩ : BufTy).Contents (Elt F)),
    binary main_v76 main_arg4 main_v77 (mulf : (⟨S8x28x256x256, .f32⟩ : BufTy).Contents (Elt F) → (⟨S8x28x256x256, .f32⟩ : BufTy).Contents (Elt F) → (⟨S8x28x256x256, .f32⟩ : BufTy).Contents (Elt F)),
    binary main_arg5 main_v77 main_v78 (addf : (⟨S8x28x256x256, .f32⟩ : BufTy).Contents (Elt F) → (⟨S8x28x256x256, .f32⟩ : BufTy).Contents (Elt F) → (⟨S8x28x256x256, .f32⟩ : BufTy).Contents (Elt F)),
    unary main_v64 main_v79 (broadcastInDim S8x28x256x256 ![] bcast_S_S8x28x256x256 : (⟨S_, .f32⟩ : BufTy).Contents (Elt F) → (⟨S8x28x256x256, .f32⟩ : BufTy).Contents (Elt F)),
    binary main_v79 main_v78 main_v80 (mulf : (⟨S8x28x256x256, .f32⟩ : BufTy).Contents (Elt F) → (⟨S8x28x256x256, .f32⟩ : BufTy).Contents (Elt F) → (⟨S8x28x256x256, .f32⟩ : BufTy).Contents (Elt F)),
    binary main_v72 main_v80 main_v81 (addf : (⟨S8x28x256x256, .f32⟩ : BufTy).Contents (Elt F) → (⟨S8x28x256x256, .f32⟩ : BufTy).Contents (Elt F) → (⟨S8x28x256x256, .f32⟩ : BufTy).Contents (Elt F)) ]

/-- Every operation touches TensorCore buffers only. -/
theorem ops_sub : (ops : List (HloOp τ sig (Elt F))).Forall fun op => op.bufs ⊆ tcRefs τ sig :=
  ⟨reshape_bufs_sub .., reshape_bufs_sub .., reshape_bufs_sub .., binary_bufs_sub .., nullary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., binary_bufs_sub .., nullary_bufs_sub .., binary_bufs_sub .., binary_bufs_sub .., nullary_bufs_sub .., binary_bufs_sub .., binary_bufs_sub .., binary_bufs_sub .., binary_bufs_sub .., binary_bufs_sub .., binary_bufs_sub .., binary_bufs_sub .., unary_bufs_sub .., unary_bufs_sub .., binary_bufs_sub .., binary_bufs_sub .., unary_bufs_sub .., binary_bufs_sub .., binary_bufs_sub .., binary_bufs_sub .., unary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., binary_bufs_sub .., binary_bufs_sub .., nullary_bufs_sub .., binary_bufs_sub .., binary_bufs_sub .., binary_bufs_sub .., binary_bufs_sub .., binary_bufs_sub .., binary_bufs_sub .., binary_bufs_sub .., unary_bufs_sub .., unary_bufs_sub .., binary_bufs_sub .., binary_bufs_sub .., unary_bufs_sub .., binary_bufs_sub .., binary_bufs_sub .., binary_bufs_sub .., unary_bufs_sub .., unary_bufs_sub .., binary_bufs_sub .., binary_bufs_sub .., unary_bufs_sub .., binary_bufs_sub .., binary_bufs_sub ..⟩

end Cert.ReferenceIdeal.RefRun

end
-- ==== Proof.RefRun.lean ====
/-
  THE REFERENCE'S RUN. The reference is a straight line of host operations once its helper functions (the two "where"
  selects, the integer remainder with its sign correction, and the take-along-axis gather with its range mask) are
  written out where they are called. Read as that one list, every weakly fair execution terminates, and each buffer
  ends at the fold of the operations' results over the contents the program was launched with.
-/
import proofs.«118367_j66468913873579_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one hundred and forty binds to re-associate: the rewrite under the chain recurses once per statement
set_option maxRecDepth 8192 in
set_option maxHeartbeats 4000000 in
/-- The program is that straight line: its two windows one after the other, each helper's definition unfolded at its
    call and each call's record at its fields; both sides are then one chain of single steps. -/
theorem main_eq (c : Dev nD) : main (F := F) c = seq ops := by
  simp only [main, main_part0, main_part1, fn_where.body, fn_where_0.body, fn_where_1.body, fn_remainder.body,
    fn_take_along_axis.body, seq, bind_assoc, pure_bind]

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- From any memory with zero counters every weakly fair execution of the reference terminates, and every buffer ends
    at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  THE REFERENCE'S TWO RESULTS AS TERMS of its argument arrays, for any float values. The coded-domain result is the
  weighted sum of the two corrected arrays over 310 columns. The unshifted result is the same expression over 256 columns,
  with the estimate replaced by its unshifted image: the estimate gathered along the column axis through the column table
  (entry (c, w) = (w + 2c) mod 310, jnp's remainder), take-along-axis's index normalisation and range mask around the
  gather, and the first 256 columns kept.
-/
import proofs.«118367_j66468913873579_1_alg».proof.Proof.Gen.ReferenceIdeal

noncomputable section

namespace Cert.ReferenceIdeal.RefTerms

open Cert.ReferenceIdeal Cert.ReferenceIdeal.Gen Idealize.ShloMosaic

variable {F : FTy → Type} [FloatOps F]

/-- A one-element array as a scalar. -/
def sc (a : FVec F S1 .f32) : FVec F S_ .f32 := shapeCast S_ a shapeCasts_S1_S_

/-- The scalar constants zero and one. -/
def zero0 : FVec F S_ .f32 := constant S_ .f32 0x00000000#32
def one0 : FVec F S_ .f32 := constant S_ .f32 0x3F800000#32

/-! ## The coded branch: 310 columns -/

/-- The channel sum of a product. -/
def sumC (u v : FVec F S8x28x256x310 .f32) : FVec F S8x256x310 .f32 :=
  Host.reduceAdd (mulf u v) zero0 reducesTo_S8x28x256x310_S8x256x310_d1 h_S_

/-- The guarded denominator image. -/
def denC (μ ν : FVec F S_ .f32) (p : FVec F S8x28x256x310 .f32) : FVec F S8x256x310 .f32 :=
  addf (broadcastInDim S8x256x310 ![] bcast_S_S8x256x310 (addf μ ν))
    (select (cmpf .oeq (sumC p p) (broadcastInDim S8x256x310 ![] bcast_S_S8x256x310 zero0))
      (broadcastInDim S8x256x310 ![] bcast_S_S8x256x310 (id one0)) (sumC p p))

/-- An image laid over the channel axis. -/
def liftC (t : FVec F S8x256x310 .f32) : FVec F S8x28x256x310 .f32 :=
  broadcastInDim S8x28x256x310 ![0, 1, 2, 3] bcast_S8x1x256x310_S8x28x256x310_0_1_2_3
    (broadcastInDim S8x1x256x310 ![0, 2, 3] bcast_S8x256x310_S8x1x256x310_0_2_3 t)

/-- The coded-domain result. -/
def refXc (z : FVec F S8x28x256x310 .f32) (yc : FVec F S8x256x310 .f32) (phic xp : FVec F S8x28x256x310 .f32)
    (mu muc : FVec F S1 .f32) : FVec F S8x28x256x310 .f32 :=
  addf
    (mulf (broadcastInDim S8x28x256x310 ![] bcast_S_S8x28x256x310 (Host.divf (sc muc) (addf (sc mu) (sc muc))))
      (addf z (mulf (liftC (Host.divf (subf yc (sumC z phic)) (denC (sc mu) (sc muc) phic))) phic)))
    (mulf (broadcastInDim S8x28x256x310 ![] bcast_S_S8x28x256x310 (Host.divf (sc mu) (addf (sc mu) (sc muc))))
      (addf xp (mulf (liftC (Host.divf (subf yc (sumC xp phic)) (denC (sc mu) (sc muc) phic))) phic)))

/-! ## The column table and the unshifted image of the estimate -/

/-- The column sums w + 2c, on words. -/
def colSum : IVec S28x310 32 :=
  addi (broadcastInDim S28x310 ![0, 1] bcast_S1x310_S28x310_0_1 (broadcastInDim S1x310 ![1] bcast_S310_S1x310_1 (iotaInDim S310 32 0)))
    (broadcastInDim S28x310 ![0, 1] bcast_S28x1_S28x310_0_1
      (muli (broadcastInDim S28x1 ![] bcast_S_S28x1 (constantI S_ 32 2#32)) (broadcastInDim S28x1 ![0] bcast_S28_S28x1_0 (iotaInDim S28 32 0))))

/-- jnp's divisor: the modulus, or one were it zero. -/
def modulus : IVec S_ 32 :=
  select (cmpi .eq (id (constantI S_ 32 310#32)) (constantI S_ 32 0#32)) (constantI S_ 32 1#32) (id (constantI S_ 32 310#32))

/-- The truncating remainder of the column sums. -/
def colRem : IVec S28x310 32 := Host.remsi colSum (broadcastInDim S28x310 ![] bcast_S_S28x310 modulus)

/-- The column table: the remainder with jnp's sign correction. -/
def colTable : IVec S28x310 32 :=
  select
    (andi
      (cmpi .ne (cmpi .slt colRem (broadcastInDim S28x310 ![] bcast_S_S28x310 (constantI S_ 32 0#32)))
        (broadcastInDim S28x310 ![] bcast_S_S28x310 (cmpi .slt modulus (constantI S_ 32 0#32))))
      (cmpi .ne colRem (broadcastInDim S28x310 ![] bcast_S_S28x310 (constantI S_ 32 0#32))))
    (addi colRem (broadcastInDim S28x310 ![] bcast_S_S28x310 modulus)) colRem

/-- The table as take-along-axis receives it. -/
def colTable4 : IVec S1x28x1x310 32 := broadcastInDim S1x28x1x310 ![1, 3] bcast_S28x310_S1x28x1x310_1_3 colTable

/-- Take-along-axis's normalised start indices. -/
def startIdx : IVec S28x310x1 32 :=
  shapeCast S28x310x1
    (select (cmpi .slt colTable4 (broadcastInDim S1x28x1x310 ![] bcast_S_S1x28x1x310 (constantI S_ 32 0#32)))
      (addi colTable4 (broadcastInDim S1x28x1x310 ![] bcast_S_S1x28x1x310 (constantI S_ 32 310#32))) colTable4)
    shapeCasts_S1x28x1x310_S28x310x1

/-- Its range mask. -/
def rangeMask : IVec S28x310 1 :=
  Host.reduce IntOp.andi
    (andi (cmpi .sge startIdx (broadcastInDim S28x310x1 ![] bcast_S_S28x310x1 (constantI S_ 32 0#32)))
      (cmpi .sle startIdx (broadcastInDim S28x310x1 ![0, 1, 2] bcast_S1x1x1_S28x310x1_0_1_2
        (broadcastInDim S1x1x1 ![2] bcast_S1_S1x1x1_2 (constantI S1 32 309#32)))))
    (constantI S_ 1 1#1) reducesTo_S28x310x1_S28x310_d2 h_S_

/-- The estimate gathered along the columns, out-of-range reads filled. -/
def taken (z : FVec F S8x28x256x310 .f32) : FVec F S8x28x256x310 .f32 :=
  select (broadcastInDim S8x28x256x310 ![1, 3] bcast_S28x310_S8x28x256x310_1_3 rangeMask)
    (Host.gather gather_S8x28x256x310_S28x310x1_S8x28x256x310_02_3_1_0_3_2_812561 z startIdx)
    (broadcastInDim S8x28x256x310 ![] bcast_S_S8x28x256x310 (constant S_ .f32 0x7FC00000#32))

/-- The unshifted image of the estimate: the first 256 gathered columns. -/
def zsb (z : FVec F S8x28x256x310 .f32) : FVec F S8x28x256x256 .f32 :=
  extractStridedSlice S8x28x256x256 ![0, 0, 0, 0] (taken z) slices_S8x28x256x310_S8x28x256x256_0_0_0_0

/-! ## The unshifted branch: 256 columns -/

def sumP (u v : FVec F S8x28x256x256 .f32) : FVec F S8x256x256 .f32 :=
  Host.reduceAdd (mulf u v) zero0 reducesTo_S8x28x256x256_S8x256x256_d1 h_S_

def denP (μ ν : FVec F S_ .f32) (p : FVec F S8x28x256x256 .f32) : FVec F S8x256x256 .f32 :=
  addf (broadcastInDim S8x256x256 ![] bcast_S_S8x256x256 (addf μ ν))
    (select (cmpf .oeq (sumP p p) (broadcastInDim S8x256x256 ![] bcast_S_S8x256x256 zero0))
      (broadcastInDim S8x256x256 ![] bcast_S_S8x256x256 (id one0)) (sumP p p))

def liftP (t : FVec F S8x256x256 .f32) : FVec F S8x28x256x256 .f32 :=
  broadcastInDim S8x28x256x256 ![0, 1, 2, 3] bcast_S8x1x256x256_S8x28x256x256_0_1_2_3
    (broadcastInDim S8x1x256x256 ![0, 2, 3] bcast_S8x256x256_S8x1x256x256_0_2_3 t)

/-- The unshifted result, from the unshifted image a of the estimate. -/
def refXpOf (a : FVec F S8x28x256x256 .f32) (yp : FVec F S8x256x256 .f32) (phip xc : FVec F S8x28x256x256 .f32)
    (mu mup : FVec F S1 .f32) : FVec F S8x28x256x256 .f32 :=
  addf
    (mulf (broadcastInDim S8x28x256x256 ![] bcast_S_S8x28x256x256 (Host.divf (sc mup) (addf (sc mu) (sc mup))))
      (addf a (mulf (liftP (Host.divf (subf yp (sumP a phip)) (denP (sc mu) (sc mup) phip))) phip)))
    (mulf (broadcastInDim S8x28x256x256 ![] bcast_S_S8x28x256x256 (Host.divf (sc mu) (addf (sc mu) (sc mup))))
      (addf xc (mulf (liftP (Host.divf (subf yp (sumP xc phip)) (denP (sc mu) (sc mup) phip))) phip)))

/-- The unshifted result. -/
def refXp (z : FVec F S8x28x256x310 .f32) (yp : FVec F S8x256x256 .f32) (phip xc : FVec F S8x28x256x256 .f32)
    (mu mup : FVec F S1 .f32) : FVec F S8x28x256x256 .f32 :=
  refXpOf (zsb z) yp phip xc mu mup

end Cert.ReferenceIdeal.RefTerms

end
-- ==== Proof.RefResults.lean ====
/-
  THE REFERENCE'S RUN, READ. The fold of the reference's operations at its two result buffers is the two result terms of
  the argument arrays, and at each argument buffer the argument itself (no operation writes an argument). So every weakly
  fair execution ends with the results at those terms and the arguments unchanged.
-/
import proofs.«118367_j66468913873579_1_alg».proof.Proof.RefRun
import proofs.«118367_j66468913873579_1_alg».proof.Proof.RefTerms

noncomputable section

namespace Cert.ReferenceIdeal.RefRun

open Cert.ReferenceIdeal Cert.ReferenceIdeal.Gen Cert.ReferenceIdeal.RefTerms Idealize.ShloMosaic Idealize.ShloMosaic.TcCoe Idealize.SL.Sem Idealize.ShloMosaic.StableHlo

variable {F : FTy → Type} [FloatOps F]

set_option maxRecDepth 8192 in
set_option maxHeartbeats 4000000 in
/-- The coded-domain result buffer after the run. -/
theorem xc_eq (V : Valuation τ sig (Elt F)) :
    after ops V (main_v35 : DevRef τ sig)
      = refXc (V (main_arg0 : DevRef τ sig)) (V (main_arg1 : DevRef τ sig)) (V (main_arg2 : DevRef τ sig))
          (V (main_arg6 : DevRef τ sig)) (V (main_arg7 : DevRef τ sig)) (V (main_arg8 : DevRef τ sig)) := by
  after_results_simp
  rfl

set_option maxRecDepth 65536 in
set_option maxHeartbeats 4000000 in
/-- The unshifted result buffer after the run. -/
theorem xp_eq (V : Valuation τ sig (Elt F)) :
    after ops V (main_v81 : DevRef τ sig)
      = refXp (V (main_arg0 : DevRef τ sig)) (V (main_arg3 : DevRef τ sig)) (V (main_arg4 : DevRef τ sig))
          (V (main_arg5 : DevRef τ sig)) (V (main_arg7 : DevRef τ sig)) (V (main_arg9 : DevRef τ sig)) := by
  after_results_simp
  simp only [TRef.ofBuf, TRef.toBuf, cast_eq]
  rfl

/-- No operation writes argument 0. -/
theorem arg0_eq (V : Valuation τ sig (Elt F)) : after ops V (main_arg0 : DevRef τ sig) = V (main_arg0 : DevRef τ sig) := by
  after_results_simp

/-- No operation writes argument 1. -/
theorem arg1_eq (V : Valuation τ sig (Elt F)) : after ops V (main_arg1 : DevRef τ sig) = V (main_arg1 : DevRef τ sig) := by
  after_results_simp

/-- No operation writes argument 2. -/
theorem arg2_eq (V : Valuation τ sig (Elt F)) : after ops V (main_arg2 : DevRef τ sig) = V (main_arg2 : DevRef τ sig) := by
  after_results_simp

/-- No operation writes argument 3. -/
theorem arg3_eq (V : Valuation τ sig (Elt F)) : after ops V (main_arg3 : DevRef τ sig) = V (main_arg3 : DevRef τ sig) := by
  after_results_simp

/-- No operation writes argument 4. -/
theorem arg4_eq (V : Valuation τ sig (Elt F)) : after ops V (main_arg4 : DevRef τ sig) = V (main_arg4 : DevRef τ sig) := by
  after_results_simp

/-- No operation writes argument 5. -/
theorem arg5_eq (V : Valuation τ sig (Elt F)) : after ops V (main_arg5 : DevRef τ sig) = V (main_arg5 : DevRef τ sig) := by
  after_results_simp

/-- No operation writes argument 6. -/
theorem arg6_eq (V : Valuation τ sig (Elt F)) : after ops V (main_arg6 : DevRef τ sig) = V (main_arg6 : DevRef τ sig) := by
  after_results_simp

/-- No operation writes argument 7. -/
theorem arg7_eq (V : Valuation τ sig (Elt F)) : after ops V (main_arg7 : DevRef τ sig) = V (main_arg7 : DevRef τ sig) := by
  after_results_simp

/-- No operation writes argument 8. -/
theorem arg8_eq (V : Valuation τ sig (Elt F)) : after ops V (main_arg8 : DevRef τ sig) = V (main_arg8 : DevRef τ sig) := by
  after_results_simp

/-- No operation writes argument 9. -/
theorem arg9_eq (V : Valuation τ sig (Elt F)) : after ops V (main_arg9 : DevRef τ sig) = V (main_arg9 : DevRef τ sig) := by
  after_results_simp

/-- THE RUN: from any memory with zero counters every weakly fair execution of the reference terminates, with its two
    results at the two result terms of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = refXc (m ((c.tc : Thread nD τ).loc main_arg0)) (m ((c.tc : Thread nD τ).loc main_arg1)) (m ((c.tc : Thread nD τ).loc main_arg2))
            (m ((c.tc : Thread nD τ).loc main_arg6)) (m ((c.tc : Thread nD τ).loc main_arg7)) (m ((c.tc : Thread nD τ).loc main_arg8))
      ∧ r.2.mem ((c.tc : Thread nD τ).loc main_v81)
        = refXp (m ((c.tc : Thread nD τ).loc main_arg0)) (m ((c.tc : Thread nD τ).loc main_arg3)) (m ((c.tc : Thread nD τ).loc main_arg4))
            (m ((c.tc : Thread nD τ).loc main_arg5)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v35).trans (xc_eq _), (h c main_v81).trans (xp_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_all m ρ)

end Cert.ReferenceIdeal.RefRun

end
-- ==== Proof.TableMath.lean ====
/-
  THE COLUMN TABLE. The reference reads the coded image through a table of column numbers: entry (c, w) is
  (w + 2c) mod 310, computed on 32-bit words the way jnp's remainder does it (the truncating remainder, then the divisor
  added back when the signs differ), then passed through take-along-axis's index normalisation (310 added to a negative
  entry) and its range test (0 ≤ entry ≤ 309). For every channel c < 28 and every column w < 256 the sum w + 2c is at
  most 309, so the remainder changes nothing, nothing is negative, and the range test holds: the normalised entry is the
  word of w + 2c and its range bit is set. The 7,168 cases are evaluated.
-/
import Idealize.ShloMosaic.PureOps.Float

namespace Cert.TableMath

open Idealize.ShloMosaic

/-- The divisor as jnp's remainder sees it: 310, or 1 were it zero. -/
def divisor : BitVec 32 := Scalar.select (IntOp.cmpi .eq 310#32 0#32) 1#32 310#32

/-- Entry (c, w) of the column table: the column sum, its truncating remainder, and the sign correction. -/
def entry (c w : Nat) : BitVec 32 :=
  Scalar.select
    (IntOp.andi
      (IntOp.cmpi .ne
        (IntOp.cmpi .slt (IntOp.remsi .host (IntOp.addi (BitVec.ofNat 32 w) (IntOp.muli 2#32 (BitVec.ofNat 32 c))) divisor) 0#32)
        (IntOp.cmpi .slt divisor 0#32))
      (IntOp.cmpi .ne (IntOp.remsi .host (IntOp.addi (BitVec.ofNat 32 w) (IntOp.muli 2#32 (BitVec.ofNat 32 c))) divisor) 0#32))
    (IntOp.addi (IntOp.remsi .host (IntOp.addi (BitVec.ofNat 32 w) (IntOp.muli 2#32 (BitVec.ofNat 32 c))) divisor) divisor)
    (IntOp.remsi .host (IntOp.addi (BitVec.ofNat 32 w) (IntOp.muli 2#32 (BitVec.ofNat 32 c))) divisor)

/-- Take-along-axis's normalisation of an index word: a negative one has the axis length added. -/
def normalised (v : BitVec 32) : BitVec 32 := Scalar.select (IntOp.cmpi .slt v 0#32) (IntOp.addi v 310#32) v

/-- Its range test. -/
def inRange (v : BitVec 32) : BitVec 1 := IntOp.andi (IntOp.cmpi .sge v 0#32) (IntOp.cmpi .sle v 309#32)

/-- For every channel and every kept column the normalised entry is the word of w + 2c, and it passes the range test. -/
theorem entry_facts : ∀ (c : Fin 28) (w : Fin 256),
    normalised (entry c.val w.val) = BitVec.ofNat 32 (w.val + 2 * c.val) ∧ inRange (normalised (entry c.val w.val)) = 1#1 := by
  decide +kernel

end Cert.TableMath
-- ==== Proof.RefTable.lean ====
/-
  THE COLUMN TABLE READ AT AN ENTRY, and the gather through it. Entry (c, w) of the reference's column table is, word for
  word, the scalar computation of the table module; take-along-axis's start index at (c, w) is its normalisation; the range
  mask at (c, w) is the range test of that start index. For a kept column (w < 256) the evaluated facts give the start index
  w + 2c with the mask set, so the gathered and cut estimate reads column w + 2c of channel c.
-/
import proofs.«118367_j66468913873579_1_alg».proof.Proof.RefTerms
import proofs.«118367_j66468913873579_1_alg».proof.Proof.TableMath
import proofs.«118367_j66468913873579_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Reduce

noncomputable section

namespace Cert.ReferenceIdeal.RefTable

open Cert.ReferenceIdeal Cert.ReferenceIdeal.Gen Cert.ReferenceIdeal.RefTerms Idealize.ShloMosaic Idealize.ShloMosaic.ValueIdx Cert.Spec

/-- The column sums at an entry. -/
theorem colSum_apply (c : Fin 28) (w : Fin 310) :
    colSum (ix2 c w) = IntOp.addi (BitVec.ofNat 32 w.val) (IntOp.muli 2#32 (BitVec.ofNat 32 c.val)) := by
  unfold colSum
  show IntOp.addi (broadcastInDim S28x310 ![0, 1] bcast_S1x310_S28x310_0_1 (broadcastInDim S1x310 ![1] bcast_S310_S1x310_1 (iotaInDim S310 32 0)) (ix2 c w))
      (broadcastInDim S28x310 ![0, 1] bcast_S28x1_S28x310_0_1
        (muli (broadcastInDim S28x1 ![] bcast_S_S28x1 (constantI S_ 32 2#32)) (broadcastInDim S28x1 ![0] bcast_S28_S28x1_0 (iotaInDim S28 32 0))) (ix2 c w)) = _
  rw [broadcastInDim_apply _ bcast_S1x310_S28x310_0_1 _ (ix2 c w) (ix2 (0 : Fin 1) w) (fun a => by
        match a with
        | ⟨0, _⟩ => rfl
        | ⟨1, _⟩ => rfl),
    broadcastInDim_apply _ bcast_S310_S1x310_1 _ (ix2 (0 : Fin 1) w) (ix1 w) (fun a => by
        match a with
        | ⟨0, _⟩ => rfl),
    broadcastInDim_apply _ bcast_S28x1_S28x310_0_1 _ (ix2 c w) (ix2 c (0 : Fin 1)) (fun a => by
        match a with
        | ⟨0, _⟩ => rfl
        | ⟨1, _⟩ => rfl)]
  show IntOp.addi (BitVec.ofNat 32 w.val) (IntOp.muli (broadcastInDim S28x1 ![] bcast_S_S28x1 (constantI S_ 32 2#32) (ix2 c (0 : Fin 1)))
      (broadcastInDim S28x1 ![0] bcast_S28_S28x1_0 (iotaInDim S28 32 0) (ix2 c (0 : Fin 1)))) = _
  rw [broadcastInDim_scalar_apply, broadcastInDim_apply _ bcast_S28_S28x1_0 _ (ix2 c (0 : Fin 1)) (ix1 c) (fun a => by
        match a with
        | ⟨0, _⟩ => rfl)]
  rfl

/-- jnp's divisor is the table module's. -/
theorem modulus_apply : modulus ix0 = TableMath.divisor := rfl

/-- The column table at an entry is the table module's scalar computation. -/
theorem colTable_apply (c : Fin 28) (w : Fin 310) : colTable (ix2 c w) = TableMath.entry c.val w.val := by
  have hr : colRem (ix2 c w)
      = IntOp.remsi .host (IntOp.addi (BitVec.ofNat 32 w.val) (IntOp.muli 2#32 (BitVec.ofNat 32 c.val))) TableMath.divisor := by
    unfold colRem
    show IntOp.remsi .host (colSum (ix2 c w)) (broadcastInDim S28x310 ![] bcast_S_S28x310 modulus (ix2 c w)) = _
    rw [colSum_apply, broadcastInDim_scalar_apply, modulus_apply]
  unfold colTable
  show Scalar.select
      (IntOp.andi
        (IntOp.cmpi .ne (IntOp.cmpi .slt (colRem (ix2 c w)) (broadcastInDim S28x310 ![] bcast_S_S28x310 (constantI S_ 32 0#32) (ix2 c w)))
          (broadcastInDim S28x310 ![] bcast_S_S28x310 (cmpi .slt modulus (constantI S_ 32 0#32)) (ix2 c w)))
        (IntOp.cmpi .ne (colRem (ix2 c w)) (broadcastInDim S28x310 ![] bcast_S_S28x310 (constantI S_ 32 0#32) (ix2 c w))))
      (IntOp.addi (colRem (ix2 c w)) (broadcastInDim S28x310 ![] bcast_S_S28x310 modulus (ix2 c w))) (colRem (ix2 c w)) = _
  rw [hr, broadcastInDim_scalar_apply, broadcastInDim_scalar_apply, broadcastInDim_scalar_apply, modulus_apply]
  rfl

/-- The table as take-along-axis receives it, at an entry. -/
theorem colTable4_apply (c : Fin 28) (w : Fin 310) : colTable4 (ix4 (0 : Fin 1) c (0 : Fin 1) w) = colTable (ix2 c w) := by
  unfold colTable4
  exact broadcastInDim_apply _ bcast_S28x310_S1x28x1x310_1_3 _ _ (ix2 c w) (fun a => by
    match a with
    | ⟨0, _⟩ => rfl
    | ⟨1, _⟩ => rfl)

/-- The start index at an entry is the normalised table entry. -/
theorem startIdx_apply (c : Fin 28) (w : Fin 310) :
    startIdx (ix3 c w (0 : Fin 1)) = TableMath.normalised (TableMath.entry c.val w.val) := by
  unfold startIdx
  rw [shapeCast_apply _ shapeCasts_S1x28x1x310_S28x310x1 (ix3 c w (0 : Fin 1)) (ix4 (0 : Fin 1) c (0 : Fin 1) w) (by
    rw [Shape.rowMajor_val_four, Shape.rowMajor_val_three]
    show ((0 * 28 + c.val) * 1 + 0) * 310 + w.val = (c.val * 310 + w.val) * 1 + 0
    omega)]
  show Scalar.select
      (IntOp.cmpi .slt (colTable4 (ix4 (0 : Fin 1) c (0 : Fin 1) w))
        (broadcastInDim S1x28x1x310 ![] bcast_S_S1x28x1x310 (constantI S_ 32 0#32) (ix4 (0 : Fin 1) c (0 : Fin 1) w)))
      (IntOp.addi (colTable4 (ix4 (0 : Fin 1) c (0 : Fin 1) w))
        (broadcastInDim S1x28x1x310 ![] bcast_S_S1x28x1x310 (constantI S_ 32 310#32) (ix4 (0 : Fin 1) c (0 : Fin 1) w)))
      (colTable4 (ix4 (0 : Fin 1) c (0 : Fin 1) w)) = _
  rw [colTable4_apply, colTable_apply, broadcastInDim_scalar_apply, broadcastInDim_scalar_apply]
  rfl

/-- An and-fold over a one-element axis, from the bit one, is that element's bit (and one). -/
theorem fold_fin1 (g : Fin 1 → BitVec 1) : (Finset.univ : Finset (Fin 1)).fold IntOp.andi 1#1 g = IntOp.andi (g 0) 1#1 := by
  rw [Finset.univ_unique, Finset.fold_singleton]
  rfl

/-- The range mask at an entry is the range test of the start index there (the reduced axis has one element). -/
theorem rangeMask_apply (c : Fin 28) (w : Fin 310) :
    rangeMask (ix2 c w) = IntOp.andi (TableMath.inRange (startIdx (ix3 c w (0 : Fin 1)))) 1#1 := by
  have hr : S28x310x1.Reduces [2] S28x310 := by decide
  have hl : hr.lift (ix2 c w) (0 : Fin 1) = ix3 c w (0 : Fin 1) := funext fun a => Fin.ext (by
    match a with
    | ⟨0, _⟩ => rfl
    | ⟨1, _⟩ => rfl
    | ⟨2, _⟩ => rfl)
  unfold rangeMask
  rw [Host.reduce_eq_fold_single IntOp.andi _ _ reducesTo_S28x310x1_S28x310_d2 hr h_S_ (ix2 c w)]
  refine (fold_fin1 _).trans ?_
  show IntOp.andi
      (IntOp.andi
        (IntOp.cmpi .sge (startIdx (hr.lift (ix2 c w) (0 : Fin 1)))
          (broadcastInDim S28x310x1 ![] bcast_S_S28x310x1 (constantI S_ 32 0#32) (hr.lift (ix2 c w) (0 : Fin 1))))
        (IntOp.cmpi .sle (startIdx (hr.lift (ix2 c w) (0 : Fin 1)))
          (broadcastInDim S28x310x1 ![0, 1, 2] bcast_S1x1x1_S28x310x1_0_1_2
            (broadcastInDim S1x1x1 ![2] bcast_S1_S1x1x1_2 (constantI S1 32 309#32)) (hr.lift (ix2 c w) (0 : Fin 1))))) 1#1 = _
  rw [hl]
  rfl

local notation "𝔾" => gather_S8x28x256x310_S28x310x1_S8x28x256x310_02_3_1_0_3_2_812561

/-- THE GATHER at (b, c, h, w): with start index n at table entry (c, w), it reads the estimate at (b, c, h, n). Axes 0
    and 2 are offset axes (the slice is whole along them), axis 1 is the batching axis paired with the table's channel axis,
    and axis 3 is the collapsed, start-indexed one. -/
theorem gather_apply {α : Type} (z : S8x28x256x310.Idx → α) (b : Fin 8) (c : Fin 28) (h : Fin 256) (w : Fin 310) (n : Fin 310)
    (hn : (startIdx (ix3 c w (0 : Fin 1))).toInt.toNat = n.val) :
    Host.gather 𝔾 z startIdx (ix4 b c h w) = z (ix4 b c h n) := by
  unfold Host.gather
  refine congrArg z (funext fun a => Fin.ext ?_)
  match a with
  | ⟨0, _⟩ =>
    have hb : (⟨0, by decide⟩ : Fin 4) ∉ (𝔾).operandBatchingDims := by decide
    have hm : (⟨0, by decide⟩ : Fin 4) ∉ (𝔾).startIndexMap := by decide
    have hk : (⟨0, by decide⟩ : Fin 4) ∈ (𝔾).sKept := by decide
    simp only [GatherDims.operandIdx, GatherDims.batchCoord_eq_zero _ _ _ hb, GatherDims.start, dif_neg hm, GatherDims.offCoord,
      dif_pos hk, Nat.zero_add, Nat.add_zero]
    rfl
  | ⟨1, _⟩ =>
    have hb : (⟨1, by decide⟩ : Fin 4) ∈ (𝔾).operandBatchingDims := by decide
    have hm : (⟨1, by decide⟩ : Fin 4) ∉ (𝔾).startIndexMap := by decide
    have hk : (⟨1, by decide⟩ : Fin 4) ∉ (𝔾).sKept := by decide
    simp only [GatherDims.operandIdx, GatherDims.offCoord_eq_zero _ _ _ hk, GatherDims.start, dif_neg hm, GatherDims.batchCoord,
      dif_pos hb, Nat.zero_add, Nat.add_zero]
    rfl
  | ⟨2, _⟩ =>
    have hb : (⟨2, by decide⟩ : Fin 4) ∉ (𝔾).operandBatchingDims := by decide
    have hm : (⟨2, by decide⟩ : Fin 4) ∉ (𝔾).startIndexMap := by decide
    have hk : (⟨2, by decide⟩ : Fin 4) ∈ (𝔾).sKept := by decide
    simp only [GatherDims.operandIdx, GatherDims.batchCoord_eq_zero _ _ _ hb, GatherDims.start, dif_neg hm, GatherDims.offCoord,
      dif_pos hk, Nat.zero_add, Nat.add_zero]
    rfl
  | ⟨3, _⟩ =>
    have hb : (⟨3, by decide⟩ : Fin 4) ∉ (𝔾).operandBatchingDims := by decide
    have hm : (⟨3, by decide⟩ : Fin 4) ∈ (𝔾).startIndexMap := by decide
    have hk : (⟨3, by decide⟩ : Fin 4) ∉ (𝔾).sKept := by decide
    have hs : ∀ q : Fin (𝔾).startIndexMap.length, (𝔾).siIdx (ix4 b c h w) q = ix3 c w (0 : Fin 1) := fun q =>
      funext fun e => Fin.ext (by
        match e with
        | ⟨0, _⟩ => rfl
        | ⟨1, _⟩ => rfl
        | ⟨2, _⟩ =>
          show q.val = 0
          have hq := q.isLt
          have hl : (𝔾).startIndexMap.length = 1 := rfl
          omega)
    simp only [GatherDims.operandIdx, GatherDims.batchCoord_eq_zero _ _ _ hb, GatherDims.offCoord_eq_zero _ _ _ hk, GatherDims.start,
      dif_pos hm, Nat.add_zero]
    rw [hs, hn]
    exact Nat.min_eq_left (by
      show n.val ≤ 310 - 1
      have := n.isLt
      omega)

end Cert.ReferenceIdeal.RefTable

end
-- ==== Proof.RefMath.lean ====
/-
  THE REFERENCE'S ARITHMETIC AT ONE PIXEL, for whole arrays of 8 images, 28 channels, 256 rows and W columns (W is 310
  for the coded branch and 256 for the unshifted one). The reference computes the same quantities as the kernel body, on
  whole arrays: channel sums over axis 1, a guarded denominator image, two quotient images laid back over the channel
  axis, and a weighted sum of two corrected arrays, the weights being scalars broadcast everywhere. Read at image b,
  channel c, row h, column w, every operation reads its operands at that pixel, so the expression is the one-pixel update
  of the specification on the pixel's three columns.
-/
import proofs.«118367_j66468913873579_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.RefMath

open Idealize.ShloMosaic Idealize.ShloMosaic.ValueIdx Cert.Spec

variable {W : Nat}

/-- The array shape [8, 28, 256, W], its image [8, 256, W], the image with a unit channel axis, and the scalar shape. -/
abbrev Arr (W : Nat) : Shape := ⟨4, ![8, 28, 256, W]⟩
abbrev Img (W : Nat) : Shape := ⟨3, ![8, 256, W]⟩
abbrev Img1 (W : Nat) : Shape := ⟨4, ![8, 1, 256, W]⟩
abbrev Sc : Shape := ⟨0, ![]⟩

/-- The host's quotient at an index is the quotient of the elements. -/
theorem hostDivf_apply {s : Shape} (x y : FVec Ideal s .f32) (i : s.Idx) : Host.divf x y i = Ideal.div (x i) (y i) := rfl

/-- The host's sum over the channel axis from a zero initial value, read at a pixel: the sum down the pixel's column. -/
theorem hostSum_apply (v : FVec Ideal (Arr W) .f32) (h' : (Arr W).ReducesTo [1] (Img W)) (hr : (Arr W).Reduces [1] (Img W))
    (hu : 0 < Sc.numel) (b : Fin 8) (h : Fin 256) (w : Fin W) :
    Host.reduceAdd v (constant (F := Ideal) Sc .f32 0x00000000#32) h' hu (ix3 b h w) = ∑ k : Fin 28, v (ix4 b k h w) := by
  show Ideal.hostReduceAdd h' v (Ideal.ofBits .f32 0x00000000#32) (ix3 b h w) = _
  rw [Ideal.hostReduceAdd_single h' hr, Ideal.ofBits_zero_f32, zero_add]
  show ∑ k : Fin 28, v (hr.lift (ix3 b h w) k) = _
  refine Finset.sum_congr rfl fun k _ => congrArg v (funext fun a => Fin.ext ?_)
  match a with
  | ⟨0, _⟩ => rfl
  | ⟨1, _⟩ => rfl
  | ⟨2, _⟩ => rfl
  | ⟨3, _⟩ => rfl

/-- An image laid over the channel axis (through a unit channel axis) reads, at any channel, the image at the pixel. -/
theorem image_apply (t : FVec Ideal (Img W) .f32) (h1 : (Img W).BroadcastsInDim (Img1 W) ![0, 2, 3])
    (h2 : (Img1 W).BroadcastsInDim (Arr W) ![0, 1, 2, 3]) (b : Fin 8) (c : Fin 28) (h : Fin 256) (w : Fin W) :
    broadcastInDim (Arr W) ![0, 1, 2, 3] h2 (broadcastInDim (Img1 W) ![0, 2, 3] h1 t) (ix4 b c h w) = t (ix3 b h w) := by
  refine (broadcastInDim_apply _ h2 _ (ix4 b c h w) (ix4 b (0 : Fin 1) h w) fun a => ?_).trans
    (broadcastInDim_apply _ h1 t (ix4 b (0 : Fin 1) h w) (ix3 b h w) fun a => ?_)
  · match a with
    | ⟨0, _⟩ => rfl
    | ⟨1, _⟩ => rfl
    | ⟨2, _⟩ => rfl
    | ⟨3, _⟩ =>
      show w.val = if W = 1 then 0 else w.val
      split
      · have := w.isLt; omega
      · rfl
  · match a with
    | ⟨0, _⟩ => rfl
    | ⟨1, _⟩ => rfl
    | ⟨2, _⟩ =>
      show w.val = if W = 1 then 0 else w.val
      split
      · have := w.isLt; omega
      · rfl

/-- The guarded denominator image at a pixel. -/
theorem den_apply (μ ν : FVec Ideal Sc .f32) (P : FVec Ideal (Arr W) .f32) (h' : (Arr W).ReducesTo [1] (Img W))
    (hr : (Arr W).Reduces [1] (Img W)) (hu : 0 < Sc.numel) (hb : Sc.BroadcastsInDim (Img W) ![])
    (b : Fin 8) (h : Fin 256) (w : Fin W) :
    addf (broadcastInDim (Img W) ![] hb (addf μ ν))
      (select (cmpf .oeq (Host.reduceAdd (mulf P P) (constant (F := Ideal) Sc .f32 0x00000000#32) h' hu)
          (broadcastInDim (Img W) ![] hb (constant (F := Ideal) Sc .f32 0x00000000#32)))
        (broadcastInDim (Img W) ![] hb (constant (F := Ideal) Sc .f32 0x3F800000#32))
        (Host.reduceAdd (mulf P P) (constant (F := Ideal) Sc .f32 0x00000000#32) h' hu)) (ix3 b h w)
      = denom (μ ix0) (ν ix0) (fun k => P (ix4 b k h w)) := by
  rw [addf_apply, select_apply, cmpf_apply, hostSum_apply _ h' hr, broadcastInDim_scalar_apply, broadcastInDim_scalar_apply,
    broadcastInDim_scalar_apply]
  rfl

/-- A quotient image at a pixel: the residual against an array's column over the denominator there. -/
theorem corr_apply (μ ν : EReal) (Y : FVec Ideal (Img W) .f32) (A P : FVec Ideal (Arr W) .f32) (D : FVec Ideal (Img W) .f32)
    (h' : (Arr W).ReducesTo [1] (Img W)) (hr : (Arr W).Reduces [1] (Img W)) (hu : 0 < Sc.numel)
    (b : Fin 8) (h : Fin 256) (w : Fin W) (hD : D (ix3 b h w) = denom μ ν (fun k => P (ix4 b k h w))) :
    Host.divf (subf Y (Host.reduceAdd (mulf A P) (constant (F := Ideal) Sc .f32 0x00000000#32) h' hu)) D (ix3 b h w)
      = corr μ ν (Y (ix3 b h w)) (fun k => A (ix4 b k h w)) (fun k => P (ix4 b k h w)) := by
  rw [hostDivf_apply, subf_apply, hostSum_apply _ h' hr, hD]
  rfl

/-- THE WEIGHTED SUM of the two corrected arrays, at a pixel, given the two quotient images there. -/
theorem combine_apply (μ ν : FVec Ideal Sc .f32) (A P X : FVec Ideal (Arr W) .f32) (T1 T2 : FVec Ideal (Img W) .f32)
    (h1 : (Img W).BroadcastsInDim (Img1 W) ![0, 2, 3]) (h2 : (Img1 W).BroadcastsInDim (Arr W) ![0, 1, 2, 3])
    (hbA : Sc.BroadcastsInDim (Arr W) ![]) (y : EReal) (b : Fin 8) (c : Fin 28) (h : Fin 256) (w : Fin W)
    (hT1 : T1 (ix3 b h w) = corr (μ ix0) (ν ix0) y (fun k => A (ix4 b k h w)) (fun k => P (ix4 b k h w)))
    (hT2 : T2 (ix3 b h w) = corr (μ ix0) (ν ix0) y (fun k => X (ix4 b k h w)) (fun k => P (ix4 b k h w))) :
    addf (mulf (broadcastInDim (Arr W) ![] hbA (Host.divf ν (addf μ ν)))
            (addf A (mulf (broadcastInDim (Arr W) ![0, 1, 2, 3] h2 (broadcastInDim (Img1 W) ![0, 2, 3] h1 T1)) P)))
         (mulf (broadcastInDim (Arr W) ![] hbA (Host.divf μ (addf μ ν)))
            (addf X (mulf (broadcastInDim (Arr W) ![0, 1, 2, 3] h2 (broadcastInDim (Img1 W) ![0, 2, 3] h1 T2)) P))) (ix4 b c h w)
      = upd (μ ix0) (ν ix0) y (fun k => A (ix4 b k h w)) (fun k => P (ix4 b k h w)) (fun k => X (ix4 b k h w)) c := by
  rw [addf_apply, mulf_apply, mulf_apply, addf_apply, addf_apply, mulf_apply, mulf_apply, image_apply, image_apply, hT1, hT2,
    broadcastInDim_scalar_apply, broadcastInDim_scalar_apply]
  rfl

end Cert.RefMath

end
-- ==== Proof.RefValue.lean ====
/-
  THE REFERENCE'S TWO RESULTS AT ONE PIXEL. The gathered, masked and cut estimate reads, at a kept column w of channel c,
  column w + 2c of that channel: the table entry there is w + 2c, inside the range, so the mask is set and the gather reads
  that column. With that, both results read at a pixel are the one-pixel update of the specification.
-/
import proofs.«118367_j66468913873579_1_alg».proof.Proof.RefTable
import proofs.«118367_j66468913873579_1_alg».proof.Proof.RefMath
import Idealize.ShloMosaic.Lib.StableHlo.Predicate

noncomputable section

open scoped BigOperators

namespace Cert.ReferenceIdeal.RefValue

open Cert.ReferenceIdeal Cert.ReferenceIdeal.Gen Cert.ReferenceIdeal.RefTerms Cert.ReferenceIdeal.RefTable
open Idealize.ShloMosaic Idealize.ShloMosaic.ValueIdx Cert.Spec

/-- THE UNSHIFTED IMAGE of the estimate at (b, c, h, w): the estimate at column w + 2c. -/
theorem zsb_apply (z : FVec Ideal S8x28x256x310 .f32) (b : Fin 8) (c : Fin 28) (h : Fin 256) (w : Fin 256) :
    zsb z (ix4 b c h w) = z (ix4 b c h (shiftCol c w)) := by
  have hw : w.val < 310 := by have := w.isLt; omega
  obtain ⟨hn, hr⟩ := TableMath.entry_facts c w
  have hs : startIdx (ix3 c (⟨w.val, hw⟩ : Fin 310) (0 : Fin 1)) = BitVec.ofNat 32 (w.val + 2 * c.val) := by
    rw [startIdx_apply]; exact hn
  have hm : rangeMask (ix2 c (⟨w.val, hw⟩ : Fin 310)) = 1#1 := by
    rw [rangeMask_apply, startIdx_apply]
    show IntOp.andi (TableMath.inRange (TableMath.normalised (TableMath.entry c.val w.val))) 1#1 = 1#1
    rw [hr]; rfl
  unfold zsb
  rw [extractStridedSlice_apply _ _ slices_S8x28x256x310_S8x28x256x256_0_0_0_0 (ix4 b c h w) (ix4 b c h (⟨w.val, hw⟩ : Fin 310)) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)]
  unfold taken
  rw [select_apply, broadcastInDim_apply _ bcast_S28x310_S8x28x256x310_1_3 rangeMask (ix4 b c h (⟨w.val, hw⟩ : Fin 310))
    (ix2 c (⟨w.val, hw⟩ : Fin 310)) (fun a => by
      match a with
      | ⟨0, _⟩ => rfl
      | ⟨1, _⟩ => rfl), hm, select_one]
  refine gather_apply z b c h (⟨w.val, hw⟩ : Fin 310) (shiftCol c w) ?_
  rw [hs, StableHlo.Predicate.toInt_ofNat_small _ (by have := w.isLt; have := c.isLt; omega)]
  rfl

/-- THE CODED-DOMAIN RESULT at a pixel. -/
theorem refXc_apply (z : FVec Ideal S8x28x256x310 .f32) (yc : FVec Ideal S8x256x310 .f32) (phic xp : FVec Ideal S8x28x256x310 .f32)
    (mu muc : FVec Ideal S1 .f32) (b : Fin 8) (c : Fin 28) (h : Fin 256) (w : Fin 310) :
    refXc z yc phic xp mu muc (ix4 b c h w)
      = upd (mu (ix1 (0 : Fin 1))) (muc (ix1 (0 : Fin 1))) (yc (ix3 b h w)) (fun k => z (ix4 b k h w)) (fun k => phic (ix4 b k h w))
          (fun k => xp (ix4 b k h w)) c := by
  have hr : S8x28x256x310.Reduces [1] S8x256x310 := by decide
  have hμ : sc mu ix0 = mu (ix1 (0 : Fin 1)) := shapeCast_apply mu shapeCasts_S1_S_ ix0 (ix1 (0 : Fin 1)) (by decide)
  have hν : sc muc ix0 = muc (ix1 (0 : Fin 1)) := shapeCast_apply muc shapeCasts_S1_S_ ix0 (ix1 (0 : Fin 1)) (by decide)
  have hD : denC (sc mu) (sc muc) phic (ix3 b h w) = denom (sc mu ix0) (sc muc ix0) (fun k => phic (ix4 b k h w)) :=
    RefMath.den_apply (W := 310) (sc mu) (sc muc) phic reducesTo_S8x28x256x310_S8x256x310_d1 hr h_S_ bcast_S_S8x256x310 b h w
  have hT1 := RefMath.corr_apply (W := 310) (sc mu ix0) (sc muc ix0) yc z phic (denC (sc mu) (sc muc) phic)
    reducesTo_S8x28x256x310_S8x256x310_d1 hr h_S_ b h w hD
  have hT2 := RefMath.corr_apply (W := 310) (sc mu ix0) (sc muc ix0) yc xp phic (denC (sc mu) (sc muc) phic)
    reducesTo_S8x28x256x310_S8x256x310_d1 hr h_S_ b h w hD
  refine (RefMath.combine_apply (W := 310) (sc mu) (sc muc) z phic xp _ _ bcast_S8x256x310_S8x1x256x310_0_2_3
    bcast_S8x1x256x310_S8x28x256x310_0_1_2_3 bcast_S_S8x28x256x310 (yc (ix3 b h w)) b c h w hT1 hT2).trans ?_
  rw [hμ, hν]

/-- THE UNSHIFTED RESULT at a pixel. -/
theorem refXp_apply (z : FVec Ideal S8x28x256x310 .f32) (yp : FVec Ideal S8x256x256 .f32) (phip xc : FVec Ideal S8x28x256x256 .f32)
    (mu mup : FVec Ideal S1 .f32) (b : Fin 8) (c : Fin 28) (h : Fin 256) (w : Fin 256) :
    refXp z yp phip xc mu mup (ix4 b c h w)
      = upd (mu (ix1 (0 : Fin 1))) (mup (ix1 (0 : Fin 1))) (yp (ix3 b h w)) (fun k => z (ix4 b k h (shiftCol k w)))
          (fun k => phip (ix4 b k h w)) (fun k => xc (ix4 b k h w)) c := by
  have hr : S8x28x256x256.Reduces [1] S8x256x256 := by decide
  have hμ : sc mu ix0 = mu (ix1 (0 : Fin 1)) := shapeCast_apply mu shapeCasts_S1_S_ ix0 (ix1 (0 : Fin 1)) (by decide)
  have hν : sc mup ix0 = mup (ix1 (0 : Fin 1)) := shapeCast_apply mup shapeCasts_S1_S_ ix0 (ix1 (0 : Fin 1)) (by decide)
  have hZ : (fun k : Fin 28 => zsb z (ix4 b k h w)) = fun k => z (ix4 b k h (shiftCol k w)) := funext fun k => zsb_apply z b k h w
  have hD : denP (sc mu) (sc mup) phip (ix3 b h w) = denom (sc mu ix0) (sc mup ix0) (fun k => phip (ix4 b k h w)) :=
    RefMath.den_apply (W := 256) (sc mu) (sc mup) phip reducesTo_S8x28x256x256_S8x256x256_d1 hr h_S_ bcast_S_S8x256x256 b h w
  have hT1 := RefMath.corr_apply (W := 256) (sc mu ix0) (sc mup ix0) yp (zsb z) phip (denP (sc mu) (sc mup) phip)
    reducesTo_S8x28x256x256_S8x256x256_d1 hr h_S_ b h w hD
  have hT2 := RefMath.corr_apply (W := 256) (sc mu ix0) (sc mup ix0) yp xc phip (denP (sc mu) (sc mup) phip)
    reducesTo_S8x28x256x256_S8x256x256_d1 hr h_S_ b h w hD
  refine (RefMath.combine_apply (W := 256) (sc mu) (sc mup) (zsb z) phip xc _ _ bcast_S8x256x256_S8x1x256x256_0_2_3
    bcast_S8x1x256x256_S8x28x256x256_0_1_2_3 bcast_S_S8x28x256x256 (yp (ix3 b h w)) b c h w hT1 hT2).trans ?_
  rw [hμ, hν, hZ]

end Cert.ReferenceIdeal.RefValue

end
-- ==== Proof.lean ====
/-
  THE CERTIFICATE. One step of the data-fidelity update, computed by a fused kernel over 8 × 8 grid points and by a plain
  whole-array reference, gives the same two arrays as extended reals.

  Both results are, pixel by pixel, the same scalar expression on three columns over the 28 channels (the specification):
  for the coded-domain result the columns are read straight down the channel axis; for the unshifted result the
  estimate's column is read along the dispersion, channel k at column w + 2k. The kernel realises the dispersion by rolling
  each channel's plane left by 2k and cutting it to 256 columns; the reference gathers through a table of (w + 2k) mod 310
  with a range mask. Since w + 2k ≤ 309 for every kept column, the modulus and the mask never act, and the two read the same
  entry. Everything else differs only in how a sum over 28 channels is scheduled and in tiling, which the extended reals do
  not see. No algebraic law is needed beyond that: the precondition is not used.

  The three frames: the two kernels' by the frame certificate of each (the run through the pipeline, its body by symbolic
  execution), the reference's by its run read back. The idealisation rewrote nothing, so that claim is trivial.
-/
import proofs.«118367_j66468913873579_1_alg».proof.Defs
import proofs.«118367_j66468913873579_1_alg».proof.Proof.Gen.Kernel
import proofs.«118367_j66468913873579_1_alg».proof.Proof.Gen.KernelIdeal
import proofs.«118367_j66468913873579_1_alg».proof.Proof.Gen.ReferenceIdeal
import proofs.«118367_j66468913873579_1_alg».proof.Proof.Gen.Pre_finite_inputs
import proofs.«118367_j66468913873579_1_alg».proof.Proof.KernelFrame
import proofs.«118367_j66468913873579_1_alg».proof.Proof.KArr
import proofs.«118367_j66468913873579_1_alg».proof.Proof.RefResults
import proofs.«118367_j66468913873579_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-- The reference's coded-domain term IS the kernel's coded result array, as functions of the argument arrays: both are
    the one-pixel update at every pixel. -/
theorem bridge_xc (z : FVec Ideal Cert.ReferenceIdeal.S8x28x256x310 .f32) (yc : FVec Ideal Cert.ReferenceIdeal.S8x256x310 .f32)
    (phic xp : FVec Ideal Cert.ReferenceIdeal.S8x28x256x310 .f32) (mu muc : FVec Ideal Cert.ReferenceIdeal.S1 .f32) :
    Cert.ReferenceIdeal.RefTerms.refXc z yc phic xp mu muc = Cert.KernelIdeal.Arr.Gxc z yc phic xp mu muc := by
  funext i
  obtain ⟨b, k, h, w, rfl⟩ : ∃ (b : Fin 8) (k : Fin 28) (h : Fin 256) (w : Fin 310), i = ix4 b k h w :=
    ⟨i 0, i 1, i 2, i 3, eq_ix4 i⟩
  rw [Cert.ReferenceIdeal.RefValue.refXc_apply]
  rfl

/-- Likewise the unshifted term and array: the reference's gather through the column table reads what the kernel's rolled
    and cut planes read. -/
theorem bridge_xp (z : FVec Ideal Cert.ReferenceIdeal.S8x28x256x310 .f32) (yp : FVec Ideal Cert.ReferenceIdeal.S8x256x256 .f32)
    (phip xc : FVec Ideal Cert.ReferenceIdeal.S8x28x256x256 .f32) (mu mup : FVec Ideal Cert.ReferenceIdeal.S1 .f32) :
    Cert.ReferenceIdeal.RefTerms.refXp z yp phip xc mu mup = Cert.KernelIdeal.Arr.Gxp z yp phip xc mu mup := by
  funext i
  obtain ⟨b, k, h, w, rfl⟩ : ∃ (b : Fin 8) (k : Fin 28) (h : Fin 256) (w : Fin 256), i = ix4 b k h w :=
    ⟨i 0, i 1, i 2, i 3, eq_ix4 i⟩
  rw [Cert.ReferenceIdeal.RefValue.refXp_apply]
  rfl

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2) (Cert.ReferenceIdeal.RefRun.run (F := Ideal) m ρ)

/-- At the extended reals the kernel's two output arrays end at the two result arrays of its arguments, the reference's
    at its two result terms of arguments that agree with them: the same arrays. -/
theorem algebraic : Cert.algebraic_KernelIdeal_ReferenceIdeal := by
  intro m ρ m' ρ' _ hagree
  refine ⟨fun c => Cert.KernelIdeal.Arr.outXc m c, fun c => Cert.KernelIdeal.Arr.outXp m c, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7, a8, a9⟩ := hagree c
    rw [bridge_xc, a0, a1, a2, a6, a7, a8]
  · obtain ⟨a0, a1, a2, a3, a4, a5, a6, a7, a8, a9⟩ := hagree c
    rw [bridge_xp, a0, a3, a4, a5, a7, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
